-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x4096x128 .f32) (main_arg1 : FVec F S128x128 .f32) (main_arg2 : FVec F S128x128 .f32) (main_arg3 : FVec F S128x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S4x4096x128 : Shape := ⟨3, ![4, 4096, 128]⟩
abbrev S128x128 : Shape := ⟨2, ![128, 128]⟩
abbrev S10 : Shape := ⟨1, ![10]⟩
abbrev S1x4096x128 : Shape := ⟨3, ![1, 4096, 128]⟩
abbrev S1x1024x128 : Shape := ⟨3, ![1, 1024, 128]⟩
abbrev S1 : Shape := ⟨1, ![1]⟩
abbrev S4096x128 : Shape := ⟨2, ![4096, 128]⟩
abbrev S1024x1 : Shape := ⟨2, ![1024, 1]⟩
abbrev S1024x128 : Shape := ⟨2, ![1024, 128]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 8
  | .vmem => 13
  | .smem => 2
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .bf16⟩
  | .hbm, ⟨5, _⟩ => ⟨S128x128, .bf16⟩
  | .hbm, ⟨6, _⟩ => ⟨S128x128, .bf16⟩
  | .hbm, ⟨7, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S1x1024x128, .f32⟩
  | .local _ .vmem, ⟨6, _⟩ => ⟨S1x1024x128, .f32⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | .local _ .smem, ⟨0, _⟩ => ⟨S10, .i32⟩
  | .local _ .smem, ⟨1, _⟩ => ⟨S10, .i32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v10 : BitVec 32 := Scalar.muli v1 c1024_i32
  v10

def k0_mult2 (v3 : BitVec 32) : BitVec 32 :=
  let c1024_i32_3 : BitVec 32 := 1024#32
  let v12 : BitVec 32 := Scalar.muli v3 c1024_i32_3
  v12

def k0_off2 (v1 : BitVec 32) : Fin 2 → Nat :=
  let c1024_i32 : BitVec 32 := 1024#32
  let v10 : BitVec 32 := Scalar.muli v1 c1024_i32
  let v11 : BitVec 32 := v10
  let v14 : Index := Scalar.indexCast v11
  let c0 : Index := 0#32
  ![v14.toNat, 0]

def k0_chk1 (v1 : BitVec 32) : Prop :=
  (1024 ∣ (k0_mult1 v1).toNat) ∧
  (∀ a, (k0_off2 v1) a + S1024x128.size a ≤ S4096x128.size a)
instance k0_chk1.dec : ∀ (v1 : BitVec 32), Decidable (k0_chk1 v1) := fun v1 => decidable_of_iff' _ (Iff.of_eq (k0_chk1.eq_1 v1))
theorem k0_mult1_dvd : ∀ (v1 : BitVec 32) (k0_hw1 : k0_chk1 v1), 1024 ∣ (k0_mult1 v1).toNat := fun v1 k0_hw1 => k0_hw1.1
theorem k0_off2_inb : ∀ (v1 : BitVec 32) (k0_hw1 : k0_chk1 v1), ∀ a, (k0_off2 v1) a + S1024x128.size a ≤ S4096x128.size a := fun v1 k0_hw1 => k0_hw1.2

def k0_off3 (v3 : BitVec 32) : Fin 2 → Nat :=
  let c1024_i32_3 : BitVec 32 := 1024#32
  let v12 : BitVec 32 := Scalar.muli v3 c1024_i32_3
  let v13 : BitVec 32 := v12
  let v16 : Index := Scalar.indexCast v13
  let c0_4 : Index := 0#32
  ![v16.toNat, 0]

def k0_chk2 (v3 : BitVec 32) : Prop :=
  (1024 ∣ (k0_mult2 v3).toNat) ∧
  (∀ a, (k0_off3 v3) a + S1024x128.size a ≤ S4096x128.size a)
instance k0_chk2.dec : ∀ (v3 : BitVec 32), Decidable (k0_chk2 v3) := fun v3 => decidable_of_iff' _ (Iff.of_eq (k0_chk2.eq_1 v3))
theorem k0_mult2_dvd : ∀ (v3 : BitVec 32) (k0_hw2 : k0_chk2 v3), 1024 ∣ (k0_mult2 v3).toNat := fun v3 k0_hw2 => k0_hw2.1
theorem k0_off3_inb : ∀ (v3 : BitVec 32) (k0_hw2 : k0_chk2 v3), ∀ a, (k0_off3 v3) a + S1024x128.size a ≤ S4096x128.size a := fun v3 k0_hw2 => k0_hw2.2

def k0_cond3 (v1 : BitVec 32) (v3 : BitVec 32) : BitVec 1 :=
  let v22 : BitVec 1 := Scalar.cmpi .eq v3 v1
  let v23 : BitVec 32 := Scalar.extui v22
  let c0_i32_6 : BitVec 32 := 0#32
  let v24 : BitVec 1 := Scalar.cmpi .ne v23 c0_i32_6
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  numel1_S1 : S1.numel = 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S4096x128_S128x128_S4096x128_1_0_0_1_n_n_wf : DotDims.WF S4096x128 S128x128 S4096x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ a, (k0_off1 i) a + S1.size a ≤ S10.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev spec0_0 : Pipeline.WinSpec sig grid0.rank :=
  Pipeline.WinSpec.ofSpec (Memref.whole main_arg0) S1x4096x128.size reads0_0 false false 2 stage0_0 sem0_0 nbuf0_0 hstage0_0

abbrev spec0_1 : Pipeline.WinSpec sig grid0.rank :=
  Pipeline.WinSpec.ofSpec (Memref.whole main_v0) S128x128.size reads0_1 false true 1 stage0_1 sem0_1 nbuf0_1 hstage0_1

abbrev spec0_2 : Pipeline.WinSpec sig grid0.rank :=
  Pipeline.WinSpec.ofSpec (Memref.whole main_v1) S128x128.size reads0_2 false true 1 stage0_2 sem0_2 nbuf0_2 hstage0_2

abbrev spec0_3 : Pipeline.WinSpec sig grid0.rank :=
  Pipeline.WinSpec.ofSpec (Memref.whole main_v2) S128x128.size reads0_3 false true 1 stage0_3 sem0_3 nbuf0_3 hstage0_3

abbrev spec0_4 : Pipeline.WinSpec sig grid0.rank :=
  Pipeline.WinSpec.ofSpec (Memref.whole main_v3) S1x1024x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 k0_off1_inb numel1_S1 pf | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 pf | ⟨_ + 5, h⟩ => absurd h (Nat.not_lt.2 (Nat.le_add_left _ _))
def ok0 (pf : pre0.Contents (Elt F)) : Prop :=
  (∀ i : grid0.Coords, ∃ h : (∀ a, (cc0_transform_4 k0_off1_inb numel1_S1 pf i a + 1) * S1x1024x128.size a ≤ S4x4096x128.size a), EltTy.bits .f32 = 32 ∨ (Rect.block (s := S4x4096x128) S1x1024x128.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => fun i a => (hok i).elim fun h _ => h a | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => fun i => (hok i).elim fun _ h => h | ⟨_ + 5, h⟩ => absurd h (Nat.not_lt.2 (Nat.le_add_left _ _))
abbrev idle0 (pf : pre0.Contents (Elt F)) : Fin 5 → grid0.Coords → Bool := fun | 0 => fun _ => false | 1 => fun _ => false | 2 => fun _ => false | 3 => fun _ => false | 4 => fun i => !(k0_cond3 (pf.atD 0 (k0_off1 i)) (pf.atD 1 (k0_off1 i)) == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S4x4096x128 : Shape := ⟨3, ![4, 4096, 128]⟩
abbrev S128x128 : Shape := ⟨2, ![128, 128]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S128x128_S4x4096x128_2_0_01_1_n_n_wf : DotDims.WF S4x4096x128 S128x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Bits.RunDefs.lean ====
/-
  What the body's runs are stated over: the two prefetched tables and the six scratch buffers as whole memrefs, the two
  table words the body reads at a grid point (the query tile qi and the key tile ki of the point's (qi, ki) pair), and the
  body's four branch conditions as propositions of the point and those words: first point of a batch; first key tile
  of a query tile (ki = 0); diagonal tile (ki = qi); tile strictly below the diagonal (ki < qi).
-/
import proofs.«413224_j16982300689021_3_alg».proof.Proof.Gen.Kernel.Launch
import proofs.«413224_j16982300689021_3_alg».proof.Proof.Gen.Kernel.Skeleton
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables and the scratch buffers, as the body is handed them -/

abbrev tbM0_0 : Memref sig .tc .smem S10 .i32 := Memref.whole main_c
abbrev htbM0_0 : tbM0_0.IsWhole := Memref.isWhole_whole _
abbrev tbM0_1 : Memref sig .tc .smem S10 .i32 := Memref.whole main_c_0
abbrev htbM0_1 : tbM0_1.IsWhole := Memref.isWhole_whole _

/-- A table's buffer on core c: its contents type, and the table held at half the full share (read-only). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The projections' scratch (q scaled, k, v: 4096 × 128) and the online softmax's (m, l: 1024 × 1; acc: 1024 × 128). -/
abbrev scM0_0 : Memref sig .tc .vmem S4096x128 .bf16 := Memref.whole cc0_scratch0
abbrev scM0_1 : Memref sig .tc .vmem S4096x128 .bf16 := Memref.whole cc0_scratch1
abbrev scM0_2 : Memref sig .tc .vmem S4096x128 .bf16 := Memref.whole cc0_scratch2
abbrev scM0_3 : Memref sig .tc .vmem S1024x1 .f32 := Memref.whole cc0_scratch3
abbrev scM0_4 : Memref sig .tc .vmem S1024x1 .f32 := Memref.whole cc0_scratch4
abbrev scM0_5 : Memref sig .tc .vmem S1024x128 .f32 := Memref.whole cc0_scratch5

/-! ## The words the body reads at a point, and its branch conditions -/

/-- The query-tile word: table 0 at the point's second coordinate. -/
abbrev wq (c : Dev nD) (i : grid0.Coords) (xt0 : TbBuf0 (F := F) c tbM0_0) : Elt F .i32 :=
  tbM0_0.view.readAt (Elt F) (Rect.unit (s := S10) (k0_off1 i) S1.size (k0_off1_inb i)).toLoadRect xt0 (Shape.Idx.first (numel1_S1.symm ▸ Nat.one_pos))
/-- The key-tile word: table 1 at the point's second coordinate. -/
abbrev wk (c : Dev nD) (i : grid0.Coords) (xt1 : TbBuf0 (F := F) c tbM0_1) : Elt F .i32 :=
  tbM0_1.view.readAt (Elt F) (Rect.unit (s := S10) (k0_off1 i) S1.size (k0_off1_inb i)).toLoadRect xt1 (Shape.Idx.first (numel1_S1.symm ▸ Nat.one_pos))

/-- First point of a batch (the second grid coordinate is 0): the projections are computed. -/
abbrev P1 (i : grid0.Coords) : Prop := (Scalar.cmpi .ne (Scalar.extui (Scalar.cmpi .eq (BitVec.ofNat 32 (i 1).val) 0#32)) 0#32) = 1#1
/-- First key tile of a query tile (ki = 0): the running state is reset. -/
abbrev P2 (v3 : BitVec 32) : Prop := (Scalar.cmpi .ne (Scalar.extui (Scalar.cmpi .eq v3 0#32)) 0#32) = 1#1
/-- Diagonal tile (ki = qi): masked update, then the output block is stored. -/
abbrev P3 (v1 v3 : BitVec 32) : Prop := k0_cond3 v1 v3 = 1#1
/-- Tile strictly below the diagonal (ki < qi): unmasked update. -/
abbrev P4 (v1 v3 : BitVec 32) : Prop := (Scalar.cmpi .ne (Scalar.extui (Scalar.cmpi .slt v3 v1)) 0#32) = 1#1

end Cert.Kernel.Hand

end
-- ==== Proof.Bits.Kit.lean ====
/-
  The launch side of the frame. @main is five host operations (the two literal tile tables written to scalar memory; the
  three weight matrices narrowed) and then the one region. Here: the buffers' contents when the region is entered; the
  tables' literal contents, at which the pipeline is held; each window's staging buffer at a point; the region's
  invariant split into the buffers the body uses; that every input window's staging buffer holds its block at every
  point; and how the frame claim's post follows from the region's.
-/
import proofs.«413224_j16982300689021_3_alg».proof.Proof.Gen.Kernel.Launch
import proofs.«413224_j16982300689021_3_alg».proof.Proof.Gen.Kernel.Skeleton
import proofs.«413224_j16982300689021_3_alg».proof.Proof.Bits.RunDefs
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-! ## @main up to the region -/

/-- Core c's buffers when the region is entered: after the five host operations. -/
abbrev V (c : Dev nD) (b : Ref sig .tc) : Buf (Elt 𝔽) ((c : Thread nD τ).loc b) :=
  StableHlo.after (hostOps0 (F := 𝔽)) (fun b => m (c, b)) b

theorem hostOps0_fresh : (hostOps0 : List (HloOp τ sig (Elt 𝔽))).Forall fun op => op.fresh = ∅ := by
  simp only [List.Forall]; repeat' constructor

/-- @main is those operations, then the region. -/
theorem hmain (𝒱₀ : Variants) : Pipeline.HMainP (Ix := Unit) (Name := ℕ) (U := UR sig nD τ) (Lvl := ℕ) pcfgs 0 defs₀ 𝒱₀ m (main (F := 𝔽)) (V m) :=
  Pipeline.hmainP_prefix pcfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, Finset.mem_singleton]
    repeat' apply And.intro
    all_goals exact StableHlo.devRef_ne_of_ne (by decide)))

/-! ## The tile tables -/

/-- The two tables' contents: the (qi, ki) pairs of the ten visible tiles, as @main's constants spell them. -/
def litTbl : pre0.Contents (Elt 𝔽) := fun
  | 0 => ((fun i => lit0 (S10.rowMajor i)) : (⟨S10, .i32⟩ : BufTy).Contents (Elt 𝔽))
  | 1 => ((fun i => lit1 (S10.rowMajor i)) : (⟨S10, .i32⟩ : BufTy).Contents (Elt 𝔽))
  | ⟨_ + 2, h⟩ => absurd h (Nat.not_lt.2 (Nat.le_add_left _ _))

/-- With those tables every output block lies inside the output array. -/
theorem okL : ok0 (F := 𝔽) litTbl := by decide +kernel

/-- The tables as admissible contents, and the pipeline at them. -/
def aL : (pcfg0 (F := 𝔽)).Adm := ⟨litTbl, okL⟩
abbrev cfgL : Pipeline.Cfg sig Λ₀ := cfg0 (F := 𝔽) aL

/-- When the region is entered the tables hold those contents. -/
theorem V_pre (c : Dev nD) (k : Fin 2) : V m c (pre0.ref k) = aL.1 k := by
  match k with
  | ⟨0, _⟩ => show StableHlo.after (hostOps0 (F := 𝔽)) (fun b => m (c, b)) (Proc.devRef .tc main_c) = _; after_results; rfl
  | ⟨1, _⟩ => show StableHlo.after (hostOps0 (F := 𝔽)) (fun b => m (c, b)) (Proc.devRef .tc main_c_0) = _; after_results; rfl

/-! ## The staging buffers at a point -/

abbrev ms0_0 (t : Fin cfgL.N) : Memref sig .tc .vmem S1x4096x128 .f32 := spec0_0.stage (cfgL.slots t 0)
abbrev hs0_0 (t : Fin cfgL.N) : (ms0_0 t).IsWhole := hstage0_0 ((cfgL.slots t 0).cast nbuf0_0)
abbrev ms0_1 (t : Fin cfgL.N) : Memref sig .tc .vmem S128x128 .bf16 := spec0_1.stage (cfgL.slots t 1)
abbrev hs0_1 (t : Fin cfgL.N) : (ms0_1 t).IsWhole := hstage0_1 ((cfgL.slots t 1).cast nbuf0_1)
abbrev ms0_2 (t : Fin cfgL.N) : Memref sig .tc .vmem S128x128 .bf16 := spec0_2.stage (cfgL.slots t 2)
abbrev hs0_2 (t : Fin cfgL.N) : (ms0_2 t).IsWhole := hstage0_2 ((cfgL.slots t 2).cast nbuf0_2)
abbrev ms0_3 (t : Fin cfgL.N) : Memref sig .tc .vmem S128x128 .bf16 := spec0_3.stage (cfgL.slots t 3)
abbrev hs0_3 (t : Fin cfgL.N) : (ms0_3 t).IsWhole := hstage0_3 ((cfgL.slots t 3).cast nbuf0_3)
abbrev ms0_4 (t : Fin cfgL.N) : Memref sig .tc .vmem S1x1024x128 .f32 := spec0_4.stage (cfgL.slots t 4)
abbrev hs0_4 (t : Fin cfgL.N) : (ms0_4 t).IsWhole := hstage0_4 ((cfgL.slots t 4).cast nbuf0_4)

/-- The body at point t, on what the pipeline calls it with. -/
abbrev bodyAt0 (t : Fin cfgL.N) : Prog (TpuEff nD τ sig (Elt 𝔽) Λ₀ .tc) PUnit :=
  cc0__fused_attn_kernel (grid0.coords t) tbM0_0 htbM0_0 tbM0_1 htbM0_1 (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)

/-! ## The region's invariant, buffer by buffer -/

/-- What the region hands the body besides the windows: the six scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The tables' halves the body reads through. -/
theorem PhiT0_eq (c : Dev nD) (v : pre0.Contents (Elt 𝔽)) : (Pipeline.ΦT pre0 v c : sProp 𝕄) = iprop(tbPt0 c tbM0_0 (v 0) ∗ tbPt0 c tbM0_1 (v 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window w's block at point t, read off its array as the region finds it. -/
def iblk (c : Dev nD) (w : Fin cfgL.W) (t : Fin cfgL.N) : ((cfgL.win w).xblock (cfgL.grid.coords t)).Idx → Elt 𝔽 (cfgL.win w).elt :=
  ((cfgL.win w).blk t).view.read (Elt 𝔽) (V m c (Pipeline.arrRef spec0 w))

/-- An input window's staging buffer holds its block at every point, fetched there or not. -/
theorem before0_0_of {c : Dev nD} (dat : Dat τ (Elt 𝔽) Unit ℕ (UR sig nD τ) ℕ (cfgL) c) (hA : dat.A 0 = V m c (Pipeline.arrRef spec0 0))
    (hafter : ∀ t, dat.after 0 t = iblk m c 0 t) (t : Fin cfgL.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt 𝔽) Unit ℕ (UR sig nD τ) ℕ (cfgL) c) (hA : dat.A 1 = V m c (Pipeline.arrRef spec0 1))
    (hafter : ∀ t, dat.after 1 t = iblk m c 1 t) (t : Fin cfgL.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt 𝔽) Unit ℕ (UR sig nD τ) ℕ (cfgL) c) (hA : dat.A 2 = V m c (Pipeline.arrRef spec0 2))
    (hafter : ∀ t, dat.after 2 t = iblk m c 2 t) (t : Fin cfgL.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt 𝔽) Unit ℕ (UR sig nD τ) ℕ (cfgL) c) (hA : dat.A 3 = V m c (Pipeline.arrRef spec0 3))
    (hafter : ∀ t, dat.after 3 t = iblk m c 3 t) (t : Fin cfgL.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.Bits.RunA.lean ====
/-
  The body's run at a batch's first point (qi = ki = 0): the three projections of the batch's 4096 rows are stored into
  scratch; the running state is reset; it is updated by the masked diagonal tile; the output block is stored.
-/
import proofs.«413224_j16982300689021_3_alg».proof.Proof.Gen.Kernel.Launch
import proofs.«413224_j16982300689021_3_alg».proof.Proof.Gen.Kernel.Skeleton
import proofs.«413224_j16982300689021_3_alg».proof.Proof.Bits.RunDefs
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the six scratch buffers at anything; the output's buffer at anything, handed back with the stored block. -/
noncomputable def kernelRun0_A (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (hc1 : P1 i) (hc2 : P2 (wk c i xt1)) (hc3 : P3 (wq c i xt0) (wk c i xt1)) (hc4 : ¬P4 (wq c i xt0) (wk c i xt1))
    (k0_hw1 : k0_chk1 (wq c i xt0)) (k0_hw2 : k0_chk2 (wk c i xt1)) :
    Σ' (L8 : List (View.Piece (Elt F) S1x1024x128 .f32)) (LS0 : List (View.Piece (Elt F) S4096x128 .bf16)) (LS1 : List (View.Piece (Elt F) S4096x128 .bf16)) (LS2 : List (View.Piece (Elt F) S4096x128 .bf16)) (LS3 : List (View.Piece (Elt F) S1024x1 .f32)) (LS4 : List (View.Piece (Elt F) S1024x1 .f32)), { LS5 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d) ∗ tbPt0 c tbM0_0 xt0 ∗ tbPt0 c tbM0_1 xt1
            ∗ (∃ d, owns (c : Thread nD τ) scM0_0 fullShare d) ∗ (∃ d, owns (c : Thread nD τ) scM0_1 fullShare d) ∗ (∃ d, owns (c : Thread nD τ) scM0_2 fullShare d)
            ∗ (∃ d, owns (c : Thread nD τ) scM0_3 fullShare d) ∗ (∃ d, owns (c : Thread nD τ) scM0_4 fullShare d) ∗ (∃ d, owns (c : Thread nD τ) scM0_5 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L8) ∗ tbPt0 c tbM0_0 xt0 ∗ tbPt0 c tbM0_1 xt1
                ∗ (∃ f, scM0_0.view.loc (c : Thread nD τ) ↦[scM0_0.view.set]{fullShare} scM0_0.view.writes (Elt F) f LS0)
                ∗ (∃ f, scM0_1.view.loc (c : Thread nD τ) ↦[scM0_1.view.set]{fullShare} scM0_1.view.writes (Elt F) f LS1)
                ∗ (∃ f, scM0_2.view.loc (c : Thread nD τ) ↦[scM0_2.view.set]{fullShare} scM0_2.view.writes (Elt F) f LS2)
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, ?_, ?_, ?_, ?_, fun E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%d8, %f8, -, H8⟩, HT0, HT1,
      ⟨%e0, %g0, -, HS0⟩, ⟨%e1, %g1, -, HS1⟩, ⟨%e2, %g2, -, HS2⟩, ⟨%e3, %g3, -, HS3⟩, ⟨%e4, %g4, -, HS4⟩, ⟨%e5, %g5, -, HS5⟩, Hk⟩
    obtain rfl := harg4.eq_unread hf0; obtain rfl := harg5.eq_unread hf1; obtain rfl := harg6.eq_unread hf2; obtain rfl := harg7.eq_unread hf3
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]; · iexists _; iexact H8
    isplitl [HT0]; · iexact HT0
    isplitl [HT1]; · iexact HT1
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.Bits.RunB.lean ====
/-
  The body's run at a query tile's first key tile when that tile is strictly below the diagonal (ki = 0 < qi; not the first
  point of a batch): nothing is projected; the running state is reset (maximum −∞, denominator and numerator zero) and
  then updated by the unmasked tile; the output block is left alone.
-/
import proofs.«413224_j16982300689021_3_alg».proof.Proof.Gen.Kernel.Launch
import proofs.«413224_j16982300689021_3_alg».proof.Proof.Gen.Kernel.Skeleton
import proofs.«413224_j16982300689021_3_alg».proof.Proof.Bits.RunDefs
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the projections' scratch at what was carried, the
    running state at anything; the output's buffer handed back untouched. -/
noncomputable def kernelRun0_B (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (xs0 xs1 xs2 : Vec F S4096x128 .bf16)
    (hc1 : ¬P1 i) (hc2 : P2 (wk c i xt1)) (hc3 : ¬P3 (wq c i xt0) (wk c i xt1)) (hc4 : P4 (wq c i xt0) (wk c i xt1))
    (k0_hw1 : k0_chk1 (wq c i xt0)) (k0_hw2 : k0_chk2 (wk c i xt1)) :
    Σ' (LS3 : List (View.Piece (Elt F) S1024x1 .f32)) (LS4 : List (View.Piece (Elt F) S1024x1 .f32)), { LS5 : List (View.Piece (Elt F) S1024x128 .f32) //
      ∀ (xi8 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare xi8 ∗ tbPt0 c tbM0_0 xt0 ∗ tbPt0 c tbM0_1 xt1
            ∗ owns (c : Thread nD τ) scM0_0 fullShare xs0 ∗ owns (c : Thread nD τ) scM0_1 fullShare xs1 ∗ owns (c : Thread nD τ) scM0_2 fullShare xs2
            ∗ (∃ d, owns (c : Thread nD τ) scM0_3 fullShare d) ∗ (∃ d, owns (c : Thread nD τ) scM0_4 fullShare d) ∗ (∃ d, owns (c : Thread nD τ) scM0_5 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare xi8 ∗ tbPt0 c tbM0_0 xt0 ∗ tbPt0 c tbM0_1 xt1
                ∗ owns (c : Thread nD τ) scM0_0 fullShare xs0 ∗ owns (c : Thread nD τ) scM0_1 fullShare xs1 ∗ owns (c : Thread nD τ) scM0_2 fullShare xs2
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, fun xi8 E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f8, %hf8, H8⟩, HT0, HT1,
      ⟨%g0, %hg0, HS0⟩, ⟨%g1, %hg1, HS1⟩, ⟨%g2, %hg2, HS2⟩, ⟨%e3, %g3, -, HS3⟩, ⟨%e4, %g4, -, HS4⟩, ⟨%e5, %g5, -, HS5⟩, Hk⟩
    obtain rfl := harg4.eq_unread hf0; obtain rfl := harg5.eq_unread hf1; obtain rfl := harg6.eq_unread hf2; obtain rfl := harg7.eq_unread hf3
    obtain rfl := harg8.eq_unread hf8
    obtain rfl := (Memref.isWhole_whole cc0_scratch0 : scM0_0.IsWhole).eq_unread hg0
    obtain rfl := (Memref.isWhole_whole cc0_scratch1 : scM0_1.IsWhole).eq_unread hg1
    obtain rfl := (Memref.isWhole_whole cc0_scratch2 : scM0_2.IsWhole).eq_unread hg2
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]
    · iexists _; isplitr; · ipureintro; exact harg8.read_unread _
      iexact H8
    isplitl [HT0]; · iexact HT0
    isplitl [HT1]; · iexact HT1
    isplitl [HS0]
    · iexists _; isplitr; · ipureintro; exact (Memref.isWhole_whole cc0_scratch0 : scM0_0.IsWhole).read_unread _
      iexact HS0
    isplitl [HS1]
    · iexists _; isplitr; · ipureintro; exact (Memref.isWhole_whole cc0_scratch1 : scM0_1.IsWhole).read_unread _
      iexact HS1
    isplitl [HS2]
    · iexists _; isplitr; · ipureintro; exact (Memref.isWhole_whole cc0_scratch2 : scM0_2.IsWhole).read_unread _
      iexact HS2
    isplitl [HS3]; · iexists _; iexact HS3
    isplitl [HS4]; · iexists _; iexact HS4
    iexists _; iexact HS5

end Cert.Kernel.Hand

end
-- ==== Proof.Bits.RunC.lean ====
/-
  The body's run at a diagonal tile that is not a query tile's first key tile (ki = qi ≠ 0): nothing is projected, nothing
  reset; the running state is updated by the masked tile and the output block is stored: numerator over denominator.
-/
import proofs.«413224_j16982300689021_3_alg».proof.Proof.Gen.Kernel.Launch
import proofs.«413224_j16982300689021_3_alg».proof.Proof.Gen.Kernel.Skeleton
import proofs.«413224_j16982300689021_3_alg».proof.Proof.Bits.RunDefs
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the projections' scratch at what was carried, the
    running state at what was carried; the output's buffer at anything, handed back with the stored block. -/
noncomputable def kernelRun0_C (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (xs0 xs1 xs2 : Vec F S4096x128 .bf16) (xs3 xs4 : Vec F S1024x1 .f32) (xs5 : Vec F S1024x128 .f32)
    (hc1 : ¬P1 i) (hc2 : ¬P2 (wk c i xt1)) (hc3 : P3 (wq c i xt0) (wk c i xt1)) (hc4 : ¬P4 (wq c i xt0) (wk c i xt1))
    (k0_hw1 : k0_chk1 (wq c i xt0)) (k0_hw2 : k0_chk2 (wk c i xt1)) :
    Σ' (L8 : List (View.Piece (Elt F) S1x1024x128 .f32)) (LS3 : List (View.Piece (Elt F) S1024x1 .f32)) (LS4 : List (View.Piece (Elt F) S1024x1 .f32)), { LS5 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d) ∗ tbPt0 c tbM0_0 xt0 ∗ tbPt0 c tbM0_1 xt1
            ∗ owns (c : Thread nD τ) scM0_0 fullShare xs0 ∗ owns (c : Thread nD τ) scM0_1 fullShare xs1 ∗ owns (c : Thread nD τ) scM0_2 fullShare xs2
            ∗ owns (c : Thread nD τ) scM0_3 fullShare xs3 ∗ owns (c : Thread nD τ) scM0_4 fullShare xs4 ∗ owns (c : Thread nD τ) scM0_5 fullShare xs5
            ∗ (iprop(owns (c : Thread nD τ) arg4 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L8) ∗ tbPt0 c tbM0_0 xt0 ∗ tbPt0 c tbM0_1 xt1
                ∗ owns (c : Thread nD τ) scM0_0 fullShare xs0 ∗ owns (c : Thread nD τ) scM0_1 fullShare xs1 ∗ owns (c : Thread nD τ) scM0_2 fullShare xs2
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, ?_, fun E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%d8, %f8, -, H8⟩, HT0, HT1,
      ⟨%g0, %hg0, HS0⟩, ⟨%g1, %hg1, HS1⟩, ⟨%g2, %hg2, HS2⟩, ⟨%g3, %hg3, HS3⟩, ⟨%g4, %hg4, HS4⟩, ⟨%g5, %hg5, HS5⟩, Hk⟩
    obtain rfl := harg4.eq_unread hf0; obtain rfl := harg5.eq_unread hf1; obtain rfl := harg6.eq_unread hf2; obtain rfl := harg7.eq_unread hf3
    obtain rfl := (Memref.isWhole_whole cc0_scratch0 : scM0_0.IsWhole).eq_unread hg0
    obtain rfl := (Memref.isWhole_whole cc0_scratch1 : scM0_1.IsWhole).eq_unread hg1
    obtain rfl := (Memref.isWhole_whole cc0_scratch2 : scM0_2.IsWhole).eq_unread hg2
    obtain rfl := (Memref.isWhole_whole cc0_scratch3 : scM0_3.IsWhole).eq_unread hg3
    obtain rfl := (Memref.isWhole_whole cc0_scratch4 : scM0_4.IsWhole).eq_unread hg4
    obtain rfl := (Memref.isWhole_whole cc0_scratch5 : scM0_5.IsWhole).eq_unread hg5
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]; · iexists _; iexact H8
    isplitl [HT0]; · iexact HT0
    isplitl [HT1]; · iexact HT1
    isplitl [HS0]
    · iexists _; isplitr; · ipureintro; exact (Memref.isWhole_whole cc0_scratch0 : scM0_0.IsWhole).read_unread _
      iexact HS0
    isplitl [HS1]
    · iexists _; isplitr; · ipureintro; exact (Memref.isWhole_whole cc0_scratch1 : scM0_1.IsWhole).read_unread _
      iexact HS1
    isplitl [HS2]
    · iexists _; isplitr; · ipureintro; exact (Memref.isWhole_whole cc0_scratch2 : scM0_2.IsWhole).read_unread _
      iexact HS2
    isplitl [HS3]; · iexists _; iexact HS3
    isplitl [HS4]; · iexists _; iexact HS4
    iexists _; iexact HS5

end Cert.Kernel.Hand

end
-- ==== Proof.Bits.RunD.lean ====
/-
  The body's run at a point strictly below the diagonal that is not a query tile's first key tile (ki ≠ 0, ki < qi, not the
  first point of a batch): nothing is projected, nothing reset, the output block is left alone; the running maximum,
  denominator and numerator are updated by the unmasked tile.
-/
import proofs.«413224_j16982300689021_3_alg».proof.Proof.Gen.Kernel.Launch
import proofs.«413224_j16982300689021_3_alg».proof.Proof.Gen.Kernel.Skeleton
import proofs.«413224_j16982300689021_3_alg».proof.Proof.Bits.RunDefs
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the projections' scratch at what was carried, the
    running state at what was carried; the output's buffer handed back untouched. -/
noncomputable def kernelRun0_D (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (xs0 xs1 xs2 : Vec F S4096x128 .bf16) (xs3 xs4 : Vec F S1024x1 .f32) (xs5 : Vec F S1024x128 .f32)
    (hc1 : ¬P1 i) (hc2 : ¬P2 (wk c i xt1)) (hc3 : ¬P3 (wq c i xt0) (wk c i xt1)) (hc4 : P4 (wq c i xt0) (wk c i xt1))
    (k0_hw1 : k0_chk1 (wq c i xt0)) (k0_hw2 : k0_chk2 (wk c i xt1)) :
    Σ' (LS3 : List (View.Piece (Elt F) S1024x1 .f32)) (LS4 : List (View.Piece (Elt F) S1024x1 .f32)), { LS5 : List (View.Piece (Elt F) S1024x128 .f32) //
      ∀ (xi8 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare xi8 ∗ tbPt0 c tbM0_0 xt0 ∗ tbPt0 c tbM0_1 xt1
            ∗ owns (c : Thread nD τ) scM0_0 fullShare xs0 ∗ owns (c : Thread nD τ) scM0_1 fullShare xs1 ∗ owns (c : Thread nD τ) scM0_2 fullShare xs2
            ∗ owns (c : Thread nD τ) scM0_3 fullShare xs3 ∗ owns (c : Thread nD τ) scM0_4 fullShare xs4 ∗ owns (c : Thread nD τ) scM0_5 fullShare xs5
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare xi8 ∗ tbPt0 c tbM0_0 xt0 ∗ tbPt0 c tbM0_1 xt1
                ∗ owns (c : Thread nD τ) scM0_0 fullShare xs0 ∗ owns (c : Thread nD τ) scM0_1 fullShare xs1 ∗ owns (c : Thread nD τ) scM0_2 fullShare xs2
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, fun xi8 E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f8, %hf8, H8⟩, HT0, HT1,
      ⟨%g0, %hg0, HS0⟩, ⟨%g1, %hg1, HS1⟩, ⟨%g2, %hg2, HS2⟩, ⟨%g3, %hg3, HS3⟩, ⟨%g4, %hg4, HS4⟩, ⟨%g5, %hg5, HS5⟩, Hk⟩
    obtain rfl := harg4.eq_unread hf0; obtain rfl := harg5.eq_unread hf1; obtain rfl := harg6.eq_unread hf2; obtain rfl := harg7.eq_unread hf3
    obtain rfl := harg8.eq_unread hf8
    obtain rfl := (Memref.isWhole_whole cc0_scratch0 : scM0_0.IsWhole).eq_unread hg0
    obtain rfl := (Memref.isWhole_whole cc0_scratch1 : scM0_1.IsWhole).eq_unread hg1
    obtain rfl := (Memref.isWhole_whole cc0_scratch2 : scM0_2.IsWhole).eq_unread hg2
    obtain rfl := (Memref.isWhole_whole cc0_scratch3 : scM0_3.IsWhole).eq_unread hg3
    obtain rfl := (Memref.isWhole_whole cc0_scratch4 : scM0_4.IsWhole).eq_unread hg4
    obtain rfl := (Memref.isWhole_whole cc0_scratch5 : scM0_5.IsWhole).eq_unread hg5
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]
    · iexists _; isplitr; · ipureintro; exact harg8.read_unread _
      iexact H8
    isplitl [HT0]; · iexact HT0
    isplitl [HT1]; · iexact HT1
    isplitl [HS0]
    · iexists _; isplitr; · ipureintro; exact (Memref.isWhole_whole cc0_scratch0 : scM0_0.IsWhole).read_unread _
      iexact HS0
    isplitl [HS1]
    · iexists _; isplitr; · ipureintro; exact (Memref.isWhole_whole cc0_scratch1 : scM0_1.IsWhole).read_unread _
      iexact HS1
    isplitl [HS2]
    · iexists _; isplitr; · ipureintro; exact (Memref.isWhole_whole cc0_scratch2 : scM0_2.IsWhole).read_unread _
      iexact HS2
    isplitl [HS3]; · iexists _; iexact HS3
    isplitl [HS4]; · iexists _; iexact HS4
    iexists _; iexact HS5

end Cert.Kernel.Hand

end
-- ==== Proof.Bits.Data.lean ====
/-
  The proof data of the region. The grid is 4 batches × 10 tiles; the tile tables give each point its (qi, ki). At a point
  the body takes one of four paths: A, a batch's first point (project, reset, masked update, store the output block); B, a
  query tile's first key tile below the diagonal (reset, unmasked update); C, a later diagonal tile (masked update,
  store); D, a later tile below the diagonal (unmasked update). Here: the paths' conditions at a point with the tables
  pinned, and every fact about a point decided once; what the six scratch buffers and the output's staging buffer hold
  after each point, by recursion on the point; the region's invariant (the scratch at those contents, the tables' halves);
  and what each window's staging buffer holds when the body runs — an input its block, the output nothing the body
  stored (every point that stores the output block also writes it back).
-/
import proofs.«413224_j16982300689021_3_alg».proof.Proof.Gen.Kernel.Launch
import proofs.«413224_j16982300689021_3_alg».proof.Proof.Gen.Kernel.Skeleton
import proofs.«413224_j16982300689021_3_alg».proof.Proof.Bits.Kit
import proofs.«413224_j16982300689021_3_alg».proof.Proof.Bits.RunA
import proofs.«413224_j16982300689021_3_alg».proof.Proof.Bits.RunB
import proofs.«413224_j16982300689021_3_alg».proof.Proof.Bits.RunC
import proofs.«413224_j16982300689021_3_alg».proof.Proof.Bits.RunD
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-! ## The views contents are stated through -/

abbrev VO0_4 : View sig .tc .vmem S1x1024x128 .f32 := (Memref.whole cc0_stg4_0 : Memref sig .tc .vmem S1x1024x128 .f32).view
abbrev VS0_0 : View sig .tc .vmem S4096x128 .bf16 := scM0_0.view
abbrev VS0_1 : View sig .tc .vmem S4096x128 .bf16 := scM0_1.view
abbrev VS0_2 : View sig .tc .vmem S4096x128 .bf16 := scM0_2.view
abbrev VS0_3 : View sig .tc .vmem S1024x1 .f32 := scM0_3.view
abbrev VS0_4 : View sig .tc .vmem S1024x1 .f32 := scM0_4.view
abbrev VS0_5 : View sig .tc .vmem S1024x128 .f32 := scM0_5.view

/-! ## A point's words and the paths' conditions, the tables pinned -/

abbrev crd (t : Fin cfgL.N) : grid0.Coords := grid0.coords t
/-- The tables as the body is handed them on core c. -/
abbrev xtq (c : Dev nD) : TbBuf0 (F := 𝔽) c tbM0_0 := aL.1 0
abbrev xtk (c : Dev nD) : TbBuf0 (F := 𝔽) c tbM0_1 := aL.1 1
/-- The point's query tile and key tile. -/
abbrev wqL (c : Dev nD) (t : Fin cfgL.N) : BitVec 32 := wq (F := 𝔽) c (crd t) (xtq c)
abbrev wkL (c : Dev nD) (t : Fin cfgL.N) : BitVec 32 := wk (F := 𝔽) c (crd t) (xtk c)

abbrev Q1 (t : Fin cfgL.N) : Prop := P1 (crd t)
abbrev Q2 (c : Dev nD) (t : Fin cfgL.N) : Prop := P2 (wkL c t)
abbrev Q3 (c : Dev nD) (t : Fin cfgL.N) : Prop := P3 (wqL c t) (wkL c t)
abbrev Q4 (c : Dev nD) (t : Fin cfgL.N) : Prop := P4 (wqL c t) (wkL c t)

/-- Every fact the frame uses about point t: a batch's first point is a first key tile and diagonal, and the only such;
    below the diagonal is exactly not on it; the offsets the body computes from the two words are in range; the output
    window is idle exactly off the diagonal and written back exactly on it; the region's first point is a batch's first. -/
abbrev FactsAt (c : Dev nD) (t : Fin cfgL.N) : Prop :=
  (Q1 t → Q2 c t ∧ Q3 c t)
  ∧ (Q2 c t → Q3 c t → Q1 t)
  ∧ (Q4 c t ↔ ¬Q3 c t)
  ∧ k0_chk1 (wqL c t) ∧ k0_chk2 (wkL c t)
  ∧ (cfgL.idle 4 (cfgL.grid.coords t) = !decide (Q3 c t))
  ∧ ((cfgL.win 4).flush t = decide (Q3 c t))
  ∧ (t.val = 0 → Q1 t)

theorem allFacts0 : ∀ t : Fin cfgL.N, FactsAt 0 t := by decide +kernel

theorem allFacts (c : Dev nD) (t : Fin cfgL.N) : FactsAt c t := by
  obtain rfl : c = 0 := Subsingleton.elim _ _
  exact allFacts0 t

theorem hypsA (c : Dev nD) (t : Fin cfgL.N) (q1 : Q1 t) : Q2 c t ∧ Q3 c t ∧ ¬Q4 c t ∧ k0_chk1 (wqL c t) ∧ k0_chk2 (wkL c t) :=
  have F := allFacts c t
  ⟨(F.1 q1).1, (F.1 q1).2, fun h => (F.2.2.1.mp h) (F.1 q1).2, F.2.2.2.1, F.2.2.2.2.1⟩
theorem hypsB (c : Dev nD) (t : Fin cfgL.N) (q1 : ¬Q1 t) (q3 : ¬Q3 c t) (q2 : Q2 c t) : Q4 c t ∧ k0_chk1 (wqL c t) ∧ k0_chk2 (wkL c t) :=
  have F := allFacts c t
  ⟨F.2.2.1.mpr q3, F.2.2.2.1, F.2.2.2.2.1⟩
theorem hypsC (c : Dev nD) (t : Fin cfgL.N) (q1 : ¬Q1 t) (q3 : Q3 c t) : ¬Q2 c t ∧ ¬Q4 c t ∧ k0_chk1 (wqL c t) ∧ k0_chk2 (wkL c t) :=
  have F := allFacts c t
  ⟨fun q2 => q1 (F.2.1 q2 q3), fun h => (F.2.2.1.mp h) q3, F.2.2.2.1, F.2.2.2.2.1⟩
theorem hypsD (c : Dev nD) (t : Fin cfgL.N) (q1 : ¬Q1 t) (q3 : ¬Q3 c t) (q2 : ¬Q2 c t) : Q4 c t ∧ k0_chk1 (wqL c t) ∧ k0_chk2 (wkL c t) :=
  have F := allFacts c t
  ⟨F.2.2.1.mpr q3, F.2.2.2.1, F.2.2.2.2.1⟩

theorem idle4_of (c : Dev nD) (t : Fin cfgL.N) (q3 : ¬Q3 c t) : cfgL.idle 4 (cfgL.grid.coords t) = true := by
  rw [(allFacts c t).2.2.2.2.2.1, decide_eq_false q3]; rfl
theorem live4_of (c : Dev nD) (t : Fin cfgL.N) (q3 : Q3 c t) : cfgL.idle 4 (cfgL.grid.coords t) = false := by
  rw [(allFacts c t).2.2.2.2.2.1, decide_eq_true q3]; rfl
theorem noFlush4_of (c : Dev nD) (t : Fin cfgL.N) (q3 : ¬Q3 c t) : (cfgL.win 4).flush t = false := by
  rw [(allFacts c t).2.2.2.2.2.2.1, decide_eq_false q3]
theorem flush4_of (c : Dev nD) (t : Fin cfgL.N) (q3 : Q3 c t) : (cfgL.win 4).flush t = true := by
  rw [(allFacts c t).2.2.2.2.2.2.1, decide_eq_true q3]
theorem Q1_zero (t : Fin cfgL.N) (h : t.val = 0) : Q1 t := (allFacts 0 t).2.2.2.2.2.2.2 h

/-- The input windows are never idle. -/
theorem liveAt0_0 : ∀ t : Fin cfgL.N, cfgL.idle 0 (cfgL.grid.coords t) = false := fun _ => rfl
theorem liveAt0_1 : ∀ t : Fin cfgL.N, cfgL.idle 1 (cfgL.grid.coords t) = false := fun _ => rfl
theorem liveAt0_2 : ∀ t : Fin cfgL.N, cfgL.idle 2 (cfgL.grid.coords t) = false := fun _ => rfl
theorem liveAt0_3 : ∀ t : Fin cfgL.N, cfgL.idle 3 (cfgL.grid.coords t) = false := fun _ => rfl

/-- The output window's buffer never holds anything the body stored when the body runs: each point that stores into it
    also writes it back. -/
theorem fresh4 (c : Dev nD) (t : Fin cfgL.N) : cfgL.fresh 4 t.val = true :=
  Pipeline.Cfg.fresh_tab cfgL 4 (fun _ => true) rfl (fun t => by
    by_cases q3 : Q3 c t
    · rw [flush4_of c t q3]; rfl
    · rw [noFlush4_of c t q3, idle4_of c t q3]; rfl) t.val (Nat.le_of_lt t.isLt)

/-! ## What the buffers hold after each point -/

/-- The six scratch buffers' contents and the output staging buffer's. -/
structure Sc where
  q : Vec 𝔽 S4096x128 .bf16
  k : Vec 𝔽 S4096x128 .bf16
  v : Vec 𝔽 S4096x128 .bf16
  m : Vec 𝔽 S1024x1 .f32
  l : Vec 𝔽 S1024x1 .f32
  acc : Vec 𝔽 S1024x128 .f32
  o : Vec 𝔽 S1x1024x128 .f32

/-- Contents nothing has determined. -/
def Sc.junk : Sc := ⟨VS0_0.read (Elt 𝔽) VS0_0.junk, VS0_1.read (Elt 𝔽) VS0_1.junk, VS0_2.read (Elt 𝔽) VS0_2.junk,
  VS0_3.read (Elt 𝔽) VS0_3.junk, VS0_4.read (Elt 𝔽) VS0_4.junk, VS0_5.read (Elt 𝔽) VS0_5.junk, VO0_4.read (Elt 𝔽) VO0_4.junk⟩

/-- Path A at point t: everything is stored. -/
def outA (c : Dev nD) (t : Fin cfgL.N) (q1 : Q1 t) : Sc :=
  ⟨VS0_0.read (Elt 𝔽) (VS0_0.writes (Elt 𝔽) VS0_0.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.1),
   VS0_1.read (Elt 𝔽) (VS0_1.writes (Elt 𝔽) VS0_1.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.1),
   VS0_2.read (Elt 𝔽) (VS0_2.writes (Elt 𝔽) VS0_2.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.1),
   VS0_3.read (Elt 𝔽) (VS0_3.writes (Elt 𝔽) VS0_3.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.1),
   VS0_4.read (Elt 𝔽) (VS0_4.writes (Elt 𝔽) VS0_4.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.1),
   VS0_5.read (Elt 𝔽) (VS0_5.writes (Elt 𝔽) VS0_5.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.1),
   VO0_4.read (Elt 𝔽) (VO0_4.writes (Elt 𝔽) VO0_4.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).1)⟩

/-- Path B: the projections and the output buffer stay, the running state is stored. -/
def outB (c : Dev nD) (t : Fin cfgL.N) (p : Sc) (q1 : ¬Q1 t) (q3 : ¬Q3 c t) (q2 : Q2 c t) : Sc :=
  ⟨p.q, p.k, p.v,
   VS0_3.read (Elt 𝔽) (VS0_3.writes (Elt 𝔽) VS0_3.junk (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).1),
   VS0_4.read (Elt 𝔽) (VS0_4.writes (Elt 𝔽) VS0_4.junk (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.1),
   VS0_5.read (Elt 𝔽) (VS0_5.writes (Elt 𝔽) VS0_5.junk (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.2.1),
   p.o⟩

/-- Path C: the projections stay, the running state and the output block are stored. -/
def outC (c : Dev nD) (t : Fin cfgL.N) (p : Sc) (q1 : ¬Q1 t) (q3 : Q3 c t) : Sc :=
  ⟨p.q, p.k, p.v,
   VS0_3.read (Elt 𝔽) (VS0_3.writes (Elt 𝔽) VS0_3.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.1),
   VS0_4.read (Elt 𝔽) (VS0_4.writes (Elt 𝔽) VS0_4.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.1),
   VS0_5.read (Elt 𝔽) (VS0_5.writes (Elt 𝔽) VS0_5.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.2.1),
   VO0_4.read (Elt 𝔽) (VO0_4.writes (Elt 𝔽) VO0_4.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).1)⟩

/-- Path D: the projections and the output buffer stay, the running state is stored. -/
def outD (c : Dev nD) (t : Fin cfgL.N) (p : Sc) (q1 : ¬Q1 t) (q3 : ¬Q3 c t) (q2 : ¬Q2 c t) : Sc :=
  ⟨p.q, p.k, p.v,
   VS0_3.read (Elt 𝔽) (VS0_3.writes (Elt 𝔽) VS0_3.junk (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).1),
   VS0_4.read (Elt 𝔽) (VS0_4.writes (Elt 𝔽) VS0_4.junk (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.1),
   VS0_5.read (Elt 𝔽) (VS0_5.writes (Elt 𝔽) VS0_5.junk (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.2.1),
   p.o⟩

/-- One step: the path the conditions select at t, from what the buffers held before. -/
def step (c : Dev nD) (t : Fin cfgL.N) (p : Sc) : Sc :=
  if q1 : Q1 t then outA m c t q1
  else if q3 : Q3 c t then outC m c t p q1 q3
  else if q2 : Q2 c t then outB m c t p q1 q3 q2
  else outD m c t p q1 q3 q2

theorem step_A (c : Dev nD) (t : Fin cfgL.N) (p : Sc) (q1 : Q1 t) : step m c t p = outA m c t q1 := by
  unfold step; rw [dif_pos q1]
theorem step_C (c : Dev nD) (t : Fin cfgL.N) (p : Sc) (q1 : ¬Q1 t) (q3 : Q3 c t) : step m c t p = outC m c t p q1 q3 := by
  unfold step; rw [dif_neg q1, dif_pos q3]
theorem step_B (c : Dev nD) (t : Fin cfgL.N) (p : Sc) (q1 : ¬Q1 t) (q3 : ¬Q3 c t) (q2 : Q2 c t) : step m c t p = outB m c t p q1 q3 q2 := by
  unfold step; rw [dif_neg q1, dif_neg q3, dif_pos q2]
theorem step_D (c : Dev nD) (t : Fin cfgL.N) (p : Sc) (q1 : ¬Q1 t) (q3 : ¬Q3 c t) (q2 : ¬Q2 c t) : step m c t p = outD m c t p q1 q3 q2 := by
  unfold step; rw [dif_neg q1, dif_neg q3, dif_neg q2]

/-- After position n. -/
def traj (c : Dev nD) : (n : ℕ) → n < cfgL.N → Sc
  | 0, h => step m c ⟨0, h⟩ Sc.junk
  | n + 1, h => step m c ⟨n + 1, h⟩ (traj c n (Nat.lt_of_succ_lt h))

/-- Before point t (nothing determined before the first). -/
def prev (c : Dev nD) (t : Fin cfgL.N) : Sc :=
  if h : t.val = 0 then Sc.junk else traj m c (t.val - 1) (by omega)

theorem traj_eq (c : Dev nD) (t : Fin cfgL.N) : traj m c t.val t.isLt = step m c t (prev m c t) := by
  obtain ⟨n, hn⟩ := t
  cases n with
  | zero => rfl
  | succ n => unfold prev; simp only [Nat.add_one_ne_zero, dif_neg, not_false_eq_true]; rfl

/-! ## The invariant and the proof data -/

/-- Before position n: at the region's entry the class's invariant and the tables; afterwards each scratch buffer at what
    the point before left, the generator register at some state, the tables' halves. -/
def PhiS (c : Dev nD) : (n : ℕ) → n ≤ cfgL.N → sProp 𝕄
  | 0, _ => iprop(Pipeline.ΦA spec0 c ∗ Pipeline.ΦT pre0 aL.1 c)
  | n + 1, hn => iprop(iprop(owns (c : Thread nD τ) scM0_0 fullShare (traj m c n hn).q ∗ owns (c : Thread nD τ) scM0_1 fullShare (traj m c n hn).k ∗ owns (c : Thread nD τ) scM0_2 fullShare (traj m c n hn).v
      ∗ owns (c : Thread nD τ) scM0_3 fullShare (traj m c n hn).m ∗ owns (c : Thread nD τ) scM0_4 fullShare (traj m c n hn).l ∗ owns (c : Thread nD τ) scM0_5 fullShare (traj m c n hn).acc)
      ∗ (∃ r, prngReg c r) ∗ tbPt0 c tbM0_0 (xtq c) ∗ tbPt0 c tbM0_1 (xtk c))

theorem PhiS_zero (c : Dev nD) (n : ℕ) (h : n ≤ cfgL.N) (hz : n = 0) : PhiS m c n h = iprop(Pipeline.ΦA spec0 c ∗ Pipeline.ΦT pre0 aL.1 c) := by
  subst hz; rfl
theorem PhiS_succ (c : Dev nD) (n : ℕ) (hn : n < cfgL.N) :
    PhiS m c (n + 1) hn = iprop(iprop(owns (c : Thread nD τ) scM0_0 fullShare (traj m c n hn).q ∗ owns (c : Thread nD τ) scM0_1 fullShare (traj m c n hn).k ∗ owns (c : Thread nD τ) scM0_2 fullShare (traj m c n hn).v
      ∗ owns (c : Thread nD τ) scM0_3 fullShare (traj m c n hn).m ∗ owns (c : Thread nD τ) scM0_4 fullShare (traj m c n hn).l ∗ owns (c : Thread nD τ) scM0_5 fullShare (traj m c n hn).acc)
      ∗ (∃ r, prngReg c r) ∗ tbPt0 c tbM0_0 (xtq c) ∗ tbPt0 c tbM0_1 (xtk c)) := rfl
theorem PhiS_pos (c : Dev nD) (n : ℕ) (h : n ≤ cfgL.N) (hz : n ≠ 0) :
    PhiS m c n h = iprop(iprop(owns (c : Thread nD τ) scM0_0 fullShare (traj m c (n - 1) (by omega)).q ∗ owns (c : Thread nD τ) scM0_1 fullShare (traj m c (n - 1) (by omega)).k ∗ owns (c : Thread nD τ) scM0_2 fullShare (traj m c (n - 1) (by omega)).v
      ∗ owns (c : Thread nD τ) scM0_3 fullShare (traj m c (n - 1) (by omega)).m ∗ owns (c : Thread nD τ) scM0_4 fullShare (traj m c (n - 1) (by omega)).l ∗ owns (c : Thread nD τ) scM0_5 fullShare (traj m c (n - 1) (by omega)).acc)
      ∗ (∃ r, prngReg c r) ∗ tbPt0 c tbM0_0 (xtq c) ∗ tbPt0 c tbM0_1 (xtk c)) := by
  cases n with
  | zero => exact absurd rfl hz
  | succ n => rfl

/-- The proof data of the one pipeline on core c. -/
def dats (_ : Fin 1) (c : Dev nD) : Dat τ (Elt 𝔽) Unit ℕ (UR sig nD τ) ℕ cfgL c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (traj m c t.val t.isLt).o
  Φ t := PhiS m c t.val (Nat.le_of_lt_succ t.isLt)
  q _ := fullShare
  owed _ := 0

theorem A_eq (c : Dev nD) (w : Fin cfgL.W) : (dats m 0 c).A w = V m c (Pipeline.arrRef spec0 w) := by
  dsimp only [dats]

theorem PhiS_castSucc (c : Dev nD) (t : Fin cfgL.N) : (dats m 0 c).Φ t.castSucc = PhiS m c t.val (Nat.le_of_lt t.isLt) := by
  dsimp only [dats]; simp only [Fin.coe_castSucc]

theorem after0_0 (c : Dev nD) (t : Fin cfgL.N) : (dats m 0 c).after 0 t = iblk m c 0 t := by dsimp only [dats]
theorem after0_1 (c : Dev nD) (t : Fin cfgL.N) : (dats m 0 c).after 1 t = iblk m c 1 t := by dsimp only [dats]
theorem after0_2 (c : Dev nD) (t : Fin cfgL.N) : (dats m 0 c).after 2 t = iblk m c 2 t := by dsimp only [dats]
theorem after0_3 (c : Dev nD) (t : Fin cfgL.N) : (dats m 0 c).after 3 t = iblk m c 3 t := by dsimp only [dats]
theorem after0_4 (c : Dev nD) (t : Fin cfgL.N) : (dats m 0 c).after 4 t = (traj m c t.val t.isLt).o := by dsimp only [dats]

theorem before0_0 (c : Dev nD) (t : Fin cfgL.N) (d) : (dats m 0 c).before 0 t d = iblk m c 0 t :=
  before0_0_of m (dats m 0 c) (A_eq m c 0) (after0_0 m c) t d
theorem before0_1 (c : Dev nD) (t : Fin cfgL.N) (d) : (dats m 0 c).before 1 t d = iblk m c 1 t :=
  before0_1_of m (dats m 0 c) (A_eq m c 1) (after0_1 m c) t d
theorem before0_2 (c : Dev nD) (t : Fin cfgL.N) (d) : (dats m 0 c).before 2 t d = iblk m c 2 t :=
  before0_2_of m (dats m 0 c) (A_eq m c 2) (after0_2 m c) t d
theorem before0_3 (c : Dev nD) (t : Fin cfgL.N) (d) : (dats m 0 c).before 3 t d = iblk m c 3 t :=
  before0_3_of m (dats m 0 c) (A_eq m c 3) (after0_3 m c) t d

/-- The output's staging buffer holds nothing the body stored when the body runs. -/
theorem before0_4 (c : Dev nD) (t : Fin cfgL.N) (d) : (dats m 0 c).before 4 t d = d := by
  rw [(dats m 0 c).before_out_traj 4 rfl (fun _ _ => rfl) (fun t ht hi hf => by rw [fresh4 c t] at hf; exact absurd hf (by decide)) t.val t rfl d,
    fresh4 c t]
  rfl

end Cert.Kernel.Hand

end
-- ==== Proof.Bits.Covers.lean ====
/-
  Each path stores each buffer it writes whole, in one piece: the pieces a run leaves for a buffer tile it, so every index of
  the buffer is covered and the buffer's contents after the run are the pieces read back.
-/
import proofs.«413224_j16982300689021_3_alg».proof.Proof.Gen.Kernel.Launch
import proofs.«413224_j16982300689021_3_alg».proof.Proof.Gen.Kernel.Skeleton
import proofs.«413224_j16982300689021_3_alg».proof.Proof.Bits.Data
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Bits

local notation "𝕄" => MT nD τ sig Unit (Elt 𝔽) ℕ (UR sig nD τ) ℕ

variable (m : (ℓ : Loc nD τ sig) → Buf (Elt 𝔽) ℓ)

/-! ## Path A -/
theorem coverA_o (c : Dev nD) (t : Fin cfgL.N) (q1 : Q1 t) (y : S1x1024x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).1 S1x1024x128.size (by sl_kernel_rfl) y
theorem coverA_q (c : Dev nD) (t : Fin cfgL.N) (q1 : Q1 t) (y : S4096x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.1 S4096x128.size (by sl_kernel_rfl) y
theorem coverA_k (c : Dev nD) (t : Fin cfgL.N) (q1 : Q1 t) (y : S4096x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.1 S4096x128.size (by sl_kernel_rfl) y
theorem coverA_v (c : Dev nD) (t : Fin cfgL.N) (q1 : Q1 t) (y : S4096x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.1 S4096x128.size (by sl_kernel_rfl) y
theorem coverA_m (c : Dev nD) (t : Fin cfgL.N) (q1 : Q1 t) (y : S1024x1.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.1 S1024x1.size (by sl_kernel_rfl) y
theorem coverA_l (c : Dev nD) (t : Fin cfgL.N) (q1 : Q1 t) (y : S1024x1.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.1 S1024x1.size (by sl_kernel_rfl) y
theorem coverA_acc (c : Dev nD) (t : Fin cfgL.N) (q1 : Q1 t) (y : S1024x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.1 S1024x128.size (by sl_kernel_rfl) y

/-! ## Path B -/
theorem coverB_m (c : Dev nD) (t : Fin cfgL.N) (p : Sc) (q1 : ¬Q1 t) (q3 : ¬Q3 c t) (q2 : Q2 c t) (y : S1024x1.Idx) :
    ∃ pc ∈ (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).1, y ∈ pc.1.set :=
  View.cover_of_tiledL (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).1 S1024x1.size (by sl_kernel_rfl) y
theorem coverB_l (c : Dev nD) (t : Fin cfgL.N) (p : Sc) (q1 : ¬Q1 t) (q3 : ¬Q3 c t) (q2 : Q2 c t) (y : S1024x1.Idx) :
    ∃ pc ∈ (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.1, y ∈ pc.1.set :=
  View.cover_of_tiledL (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.1 S1024x1.size (by sl_kernel_rfl) y
theorem coverB_acc (c : Dev nD) (t : Fin cfgL.N) (p : Sc) (q1 : ¬Q1 t) (q3 : ¬Q3 c t) (q2 : Q2 c t) (y : S1024x128.Idx) :
    ∃ pc ∈ (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.2.1, y ∈ pc.1.set :=
  View.cover_of_tiledL (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.2.1 S1024x128.size (by sl_kernel_rfl) y

/-! ## Path C -/
theorem coverC_o (c : Dev nD) (t : Fin cfgL.N) (p : Sc) (q1 : ¬Q1 t) (q3 : Q3 c t) (y : S1x1024x128.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).1 S1x1024x128.size (by sl_kernel_rfl) y
theorem coverC_m (c : Dev nD) (t : Fin cfgL.N) (p : Sc) (q1 : ¬Q1 t) (q3 : Q3 c t) (y : S1024x1.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.1 S1024x1.size (by sl_kernel_rfl) y
theorem coverC_l (c : Dev nD) (t : Fin cfgL.N) (p : Sc) (q1 : ¬Q1 t) (q3 : Q3 c t) (y : S1024x1.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.1 S1024x1.size (by sl_kernel_rfl) y
theorem coverC_acc (c : Dev nD) (t : Fin cfgL.N) (p : Sc) (q1 : ¬Q1 t) (q3 : Q3 c t) (y : S1024x128.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.2.1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.2.1 S1024x128.size (by sl_kernel_rfl) y

/-! ## Path D -/
theorem coverD_m (c : Dev nD) (t : Fin cfgL.N) (p : Sc) (q1 : ¬Q1 t) (q3 : ¬Q3 c t) (q2 : ¬Q2 c t) (y : S1024x1.Idx) :
    ∃ pc ∈ (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).1, y ∈ pc.1.set :=
  View.cover_of_tiledL (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).1 S1024x1.size (by sl_kernel_rfl) y
theorem coverD_l (c : Dev nD) (t : Fin cfgL.N) (p : Sc) (q1 : ¬Q1 t) (q3 : ¬Q3 c t) (q2 : ¬Q2 c t) (y : S1024x1.Idx) :
    ∃ pc ∈ (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.1, y ∈ pc.1.set :=
  View.cover_of_tiledL (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.1 S1024x1.size (by sl_kernel_rfl) y
theorem coverD_acc (c : Dev nD) (t : Fin cfgL.N) (p : Sc) (q1 : ¬Q1 t) (q3 : ¬Q3 c t) (q2 : ¬Q2 c t) (y : S1024x128.Idx) :
    ∃ pc ∈ (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.2.1, y ∈ pc.1.set :=
  View.cover_of_tiledL (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.2.1 S1024x128.size (by sl_kernel_rfl) y

end Cert.Kernel.Hand

end
-- ==== Proof.Bits.Body.lean ====
/-
  The body at a generic point. The point's path is told by the conditions; on each path the inputs' staging buffers hold
  their blocks, the invariant hands over the scratch buffers at what the point before left (at anything at the region's
  entry), the path's run applies, and each buffer the path stores comes back at its pieces read back. Off the diagonal the
  output's staging buffer is handed back as it was found; on it, with the stored block.
-/
import proofs.«413224_j16982300689021_3_alg».proof.Proof.Gen.Kernel.Launch
import proofs.«413224_j16982300689021_3_alg».proof.Proof.Gen.Kernel.Skeleton
import proofs.«413224_j16982300689021_3_alg».proof.Proof.Bits.Covers
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-- What the body is called with at point t: the invariant, the core's duties, each window's current staging buffer. -/
def bodyPre (c : Dev nD) (t : Fin cfgL.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- And what it returns. -/
def bodyPost (c : Dev nD) (t : Fin cfgL.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- Before a point that is not the region's first, "before" is the point before. -/
theorem prev_pos (c : Dev nD) (t : Fin cfgL.N) (hz : t.val ≠ 0) : prev m c t = traj m c (t.val - 1) (by omega) := by
  unfold prev; rw [dif_neg hz]

set_option maxHeartbeats 16000000 in
theorem sound_body (c : Dev nD) (t : Fin cfgL.N) :
    bodyPre m c t ⊢ wp frame (wpE (defs₀ (F := 𝔽)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [traj_eq m c t]
  by_cases q1 : Q1 t
  · -- a batch's first point
    rw [show (dats m 0 c).leavesExact 4 t = owns (c : Thread nD τ) (ms0_4 t) fullShare ((dats m 0 c).after 4 t) from by
      unfold Dat.leavesExact; rw [live4_of c t (hypsA c t q1).2.1], after0_4, traj_eq m c t]
    rw [step_A m c t _ q1]
    unfold outA; dsimp only
    by_cases hz : t.val = 0
    · rw [PhiS_castSucc m c t, PhiS_zero m c _ _ hz, PhiA0_eq, PhiT0_eq]
      iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩, ⟨%d4, H4⟩⟩
      iapply ((kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e8, H4⟩, HT0, HT1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg HT0 HT1]
      · isplitl [HS0 HS1 HS2 HS3 HS4 HS5]
        · isplitl [HS0]
          · unfold owns; iexists _; isplitr
            swap; · iexact HS0
            ipureintro; exact View.read_writes_of_cover _ _ _ _ _ (coverA_q m c t q1)
          isplitl [HS1]
          · unfold owns; iexists _; isplitr
            swap; · iexact HS1
            ipureintro; exact View.read_writes_of_cover _ _ _ _ _ (coverA_k m c t q1)
          isplitl [HS2]
          · unfold owns; iexists _; isplitr
            swap; · iexact HS2
            ipureintro; exact View.read_writes_of_cover _ _ _ _ _ (coverA_v m c t q1)
          isplitl [HS3]
          · unfold owns; iexists _; isplitr
            swap; · iexact HS3
            ipureintro; exact View.read_writes_of_cover _ _ _ _ _ (coverA_m m c t q1)
          isplitl [HS4]
          · unfold owns; iexists _; isplitr
            swap; · iexact HS4
            ipureintro; exact View.read_writes_of_cover _ _ _ _ _ (coverA_l m c t q1)
          · unfold owns; iexists _; isplitr
            swap; · iexact HS5
            ipureintro; exact View.read_writes_of_cover _ _ _ _ _ (coverA_acc m c t q1)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr; swap
      · iexact H4
      · ipureintro; exact View.read_writes_of_cover _ _ _ _ _ (coverA_o m c t q1)
    · rw [PhiS_castSucc m c t, PhiS_pos m c _ _ hz]
      iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
      iapply ((kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, ⟨%e8, H4⟩, HT0, HT1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg HT0 HT1]
      · isplitl [HS0 HS1 HS2 HS3 HS4 HS5]
        · isplitl [HS0]
          · unfold owns; iexists _; isplitr
            swap; · iexact HS0
            ipureintro; exact View.read_writes_of_cover _ _ _ _ _ (coverA_q m c t q1)
          isplitl [HS1]
          · unfold owns; iexists _; isplitr
            swap; · iexact HS1
            ipureintro; exact View.read_writes_of_cover _ _ _ _ _ (coverA_k m c t q1)
          isplitl [HS2]
          · unfold owns; iexists _; isplitr
            swap; · iexact HS2
            ipureintro; exact View.read_writes_of_cover _ _ _ _ _ (coverA_v m c t q1)
          isplitl [HS3]
          · unfold owns; iexists _; isplitr
            swap; · iexact HS3
            ipureintro; exact View.read_writes_of_cover _ _ _ _ _ (coverA_m m c t q1)
          isplitl [HS4]
          · unfold owns; iexists _; isplitr
            swap; · iexact HS4
            ipureintro; exact View.read_writes_of_cover _ _ _ _ _ (coverA_l m c t q1)
          · unfold owns; iexists _; isplitr
            swap; · iexact HS5
            ipureintro; exact View.read_writes_of_cover _ _ _ _ _ (coverA_acc m c t q1)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr; swap
      · iexact H4
      · ipureintro; exact View.read_writes_of_cover _ _ _ _ _ (coverA_o m c t q1)
  · have hz : t.val ≠ 0 := fun h => q1 (Q1_zero t h)
    rw [PhiS_castSucc m c t, PhiS_pos m c _ _ hz, ← prev_pos m c t hz]
    by_cases q3 : Q3 c t
    · -- a later diagonal tile
      rw [show (dats m 0 c).leavesExact 4 t = owns (c : Thread nD τ) (ms0_4 t) fullShare ((dats m 0 c).after 4 t) from by
        unfold Dat.leavesExact; rw [live4_of c t q3], after0_4, traj_eq m c t]
      rw [step_C m c t _ q1 q3]
      unfold outC; dsimp only
      iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
      iapply ((kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) (prev m c t).q (prev m c t).k (prev m c t).v (prev m c t).m (prev m c t).l (prev m c t).acc q1 (hypsC c t q1 q3).1 q3 (hypsC c t q1 q3).2.1 (hypsC c t q1 q3).2.2.1 (hypsC c t q1 q3).2.2.2).2.2.2.2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e8, H4⟩, HT0, HT1, HS0, HS1, HS2, ⟨%e3, HS3⟩, ⟨%e4, HS4⟩, ⟨%e5, HS5⟩⟩
      isplitl [HS0 HS1 HS2 HS3 HS4 HS5 Hg HT0 HT1]
      · isplitl [HS0 HS1 HS2 HS3 HS4 HS5]
        · isplitl [HS0]; · iexact HS0
          isplitl [HS1]; · iexact HS1
          isplitl [HS2]; · iexact HS2
          isplitl [HS3]
          · unfold owns; iexists _; isplitr
            swap; · iexact HS3
            ipureintro; exact View.read_writes_of_cover _ _ _ _ _ (coverC_m m c t (prev m c t) q1 q3)
          isplitl [HS4]
          · unfold owns; iexists _; isplitr
            swap; · iexact HS4
            ipureintro; exact View.read_writes_of_cover _ _ _ _ _ (coverC_l m c t (prev m c t) q1 q3)
          · unfold owns; iexists _; isplitr
            swap; · iexact HS5
            ipureintro; exact View.read_writes_of_cover _ _ _ _ _ (coverC_acc m c t (prev m c t) q1 q3)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr; swap
      · iexact H4
      · ipureintro; exact View.read_writes_of_cover _ _ _ _ _ (coverC_o m c t (prev m c t) q1 q3)
    · rw [Dat.leavesExact_idle (dats m 0 c) 4 t (idle4_of c t q3) (noFlush4_of c t q3)]
      simp only [before0_4]
      by_cases q2 : Q2 c t
      · -- a query tile's first key tile, below the diagonal
        rw [step_B m c t _ q1 q3 q2]
        unfold outB; dsimp only
        iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
        iapply ((kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) (prev m c t).q (prev m c t).k (prev m c t).v q1 q2 q3 (hypsB c t q1 q3 q2).1 (hypsB c t q1 q3 q2).2.1 (hypsB c t q1 q3 q2).2.2).2.2.2 d4 Set.univ _)
        isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [HS0]; · iexact HS0
        isplitl [HS1]; · iexact HS1
        isplitl [HS2]; · iexact HS2
        isplitl [HS3]; · iexists _; iexact HS3
        isplitl [HS4]; · iexists _; iexact HS4
        isplitl [HS5]; · iexists _; iexact HS5
        iintro ⟨H0, H1, H2, H3, H4, HT0, HT1, HS0, HS1, HS2, ⟨%e3, HS3⟩, ⟨%e4, HS4⟩, ⟨%e5, HS5⟩⟩
        isplitl [HS0 HS1 HS2 HS3 HS4 HS5 Hg HT0 HT1]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (coverB_m m c t (prev m c t) q1 q3 q2)
            isplitl [HS4]
            · unfold owns; iexists _; isplitr
              swap; · iexact HS4
              ipureintro; exact View.read_writes_of_cover _ _ _ _ _ (coverB_l m c t (prev m c t) q1 q3 q2)
            · unfold owns; iexists _; isplitr
              swap; · iexact HS5
              ipureintro; exact View.read_writes_of_cover _ _ _ _ _ (coverB_acc m c t (prev m c t) q1 q3 q2)
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4
      · -- a later tile below the diagonal
        rw [step_D m c t _ q1 q3 q2]
        unfold outD; dsimp only
        iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
        iapply ((kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) (prev m c t).q (prev m c t).k (prev m c t).v (prev m c t).m (prev m c t).l (prev m c t).acc q1 q2 q3 (hypsD c t q1 q3 q2).1 (hypsD c t q1 q3 q2).2.1 (hypsD c t q1 q3 q2).2.2).2.2.2 d4 Set.univ _)
        isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, HT0, HT1, HS0, HS1, HS2, ⟨%e3, HS3⟩, ⟨%e4, HS4⟩, ⟨%e5, HS5⟩⟩
        isplitl [HS0 HS1 HS2 HS3 HS4 HS5 Hg HT0 HT1]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (coverD_m m c t (prev m c t) q1 q3 q2)
            isplitl [HS4]
            · unfold owns; iexists _; isplitr
              swap; · iexact HS4
              ipureintro; exact View.read_writes_of_cover _ _ _ _ _ (coverD_l m c t (prev m c t) q1 q3 q2)
            · unfold owns; iexists _; isplitr
              swap; · iexact HS5
              ipureintro; exact View.read_writes_of_cover _ _ _ _ _ (coverD_acc m c t (prev m c t) q1 q3 q2)
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats m 0 c) (defs₀ (F := 𝔽)) Variants.none () Set.univ := fun t => by
  rw [bigSep_W0, bigSep_W0]
  exact sound_body m c t

end Cert.Kernel.Hand

end
-- ==== Proof.Bits.Launch.lean ====
/-
  The launch. What the region hands the body at its entry is the invariant before the first point; after the last point the
  invariant gives the scratch buffers back, their contents forgotten, and lets the tables' halves go. With the body
  obligation at every point this is the region's run: every weakly fair execution of @main terminates without a fault,
  the output array ends at what the written-back blocks make of it, and every other buffer outside the region's scope is
  as the region found it — in particular the four argument arrays, which no host operation wrote.
-/
import proofs.«413224_j16982300689021_3_alg».proof.Proof.Gen.Kernel.Launch
import proofs.«413224_j16982300689021_3_alg».proof.Proof.Gen.Kernel.Skeleton
import proofs.«413224_j16982300689021_3_alg».proof.Proof.Bits.Body
import Idealize.ShloMosaic.Lib.Pipeline.Frame
import Idealize.ShloMosaic.Lib.Pipeline.FrameBody
import Idealize.ShloMosaic.Lib.Pipeline.TableIdle
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-- What the launch hands the region is the invariant before the first point. -/
theorem hin (c : Dev nD) : iprop(Pipeline.ΦA spec0 c ∗ Pipeline.ΦT pre0 aL.1 c) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch contents forgotten, the tables let go. -/
theorem hout (c : Dev nD) : (dats m 0 c).Φ (Fin.last cfgL.N) ⊢ Pipeline.ΦA spec0 c := by
  rw [show (dats m 0 c).Φ (Fin.last cfgL.N) = PhiS m c (Fin.last cfgL.N).val (Nat.le_of_lt_succ (Fin.last cfgL.N).isLt) from rfl,
    PhiS_pos m c _ _ (by rw [Fin.val_last]; have : cfgL.N = 40 := N_0; omega), PhiA0_eq]
  iintro ⟨⟨HS0, HS1, HS2, HS3, HS4, HS5⟩, Hg, -, -⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The region's run. -/
theorem run_main : θ_run defs (onTc (τ := τ) (main (F := 𝔽))) (s₀ m ρ) (Pipeline.FramePost (Pipeline.pin pcfgs fun _ => aL) (dats m) 0 (V m)) :=
  Pipeline.θ_run_frameP_track pcfgs (fun _ => aL) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The frame: the program runs and its four argument arrays end as launched. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ)

end Cert.Kernel.Hand

end
-- ==== Proof.RunDefs.lean ====
/-
  What the body's runs are stated over: the two prefetched tables and the six scratch buffers as whole memrefs, the two
  table words the body reads at a grid point (the query tile qi and the key tile ki of the point's (qi, ki) pair), and the
  body's four branch conditions as propositions of the point and those words: first point of a batch; first key tile
  of a query tile (ki = 0); diagonal tile (ki = qi); tile strictly below the diagonal (ki < qi).
-/
import proofs.«413224_j16982300689021_3_alg».proof.Proof.Gen.KernelIdeal.Launch
import proofs.«413224_j16982300689021_3_alg».proof.Proof.Gen.KernelIdeal.Skeleton
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The tables and the scratch buffers, as the body is handed them -/

abbrev tbM0_0 : Memref sig .tc .smem S10 .i32 := Memref.whole main_c
abbrev htbM0_0 : tbM0_0.IsWhole := Memref.isWhole_whole _
abbrev tbM0_1 : Memref sig .tc .smem S10 .i32 := Memref.whole main_c_0
abbrev htbM0_1 : tbM0_1.IsWhole := Memref.isWhole_whole _

/-- A table's buffer on core c: its contents type, and the table held at half the full share (read-only). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The projections' scratch (q scaled, k, v: 4096 × 128) and the online softmax's (m, l: 1024 × 1; acc: 1024 × 128). -/
abbrev scM0_0 : Memref sig .tc .vmem S4096x128 .bf16 := Memref.whole cc0_scratch0
abbrev scM0_1 : Memref sig .tc .vmem S4096x128 .bf16 := Memref.whole cc0_scratch1
abbrev scM0_2 : Memref sig .tc .vmem S4096x128 .bf16 := Memref.whole cc0_scratch2
abbrev scM0_3 : Memref sig .tc .vmem S1024x1 .f32 := Memref.whole cc0_scratch3
abbrev scM0_4 : Memref sig .tc .vmem S1024x1 .f32 := Memref.whole cc0_scratch4
abbrev scM0_5 : Memref sig .tc .vmem S1024x128 .f32 := Memref.whole cc0_scratch5

/-! ## The words the body reads at a point, and its branch conditions -/

/-- The query-tile word: table 0 at the point's second coordinate. -/
abbrev wq (c : Dev nD) (i : grid0.Coords) (xt0 : TbBuf0 (F := F) c tbM0_0) : Elt F .i32 :=
  tbM0_0.view.readAt (Elt F) (Rect.unit (s := S10) (k0_off1 i) S1.size (k0_off1_inb i)).toLoadRect xt0 (Shape.Idx.first (numel1_S1.symm ▸ Nat.one_pos))
/-- The key-tile word: table 1 at the point's second coordinate. -/
abbrev wk (c : Dev nD) (i : grid0.Coords) (xt1 : TbBuf0 (F := F) c tbM0_1) : Elt F .i32 :=
  tbM0_1.view.readAt (Elt F) (Rect.unit (s := S10) (k0_off1 i) S1.size (k0_off1_inb i)).toLoadRect xt1 (Shape.Idx.first (numel1_S1.symm ▸ Nat.one_pos))

/-- First point of a batch (the second grid coordinate is 0): the projections are computed. -/
abbrev P1 (i : grid0.Coords) : Prop := (Scalar.cmpi .ne (Scalar.extui (Scalar.cmpi .eq (BitVec.ofNat 32 (i 1).val) 0#32)) 0#32) = 1#1
/-- First key tile of a query tile (ki = 0): the running state is reset. -/
abbrev P2 (v3 : BitVec 32) : Prop := (Scalar.cmpi .ne (Scalar.extui (Scalar.cmpi .eq v3 0#32)) 0#32) = 1#1
/-- Diagonal tile (ki = qi): masked update, then the output block is stored. -/
abbrev P3 (v1 v3 : BitVec 32) : Prop := k0_cond3 v1 v3 = 1#1
/-- Tile strictly below the diagonal (ki < qi): unmasked update. -/
abbrev P4 (v1 v3 : BitVec 32) : Prop := (Scalar.cmpi .ne (Scalar.extui (Scalar.cmpi .slt v3 v1)) 0#32) = 1#1

end Cert.KernelIdeal.Hand

end
-- ==== Proof.Kit.lean ====
/-
  The launch side of the frame. @main is five host operations (the two literal tile tables written to scalar memory; the
  three weight matrices narrowed) and then the one region. Here: the buffers' contents when the region is entered; the
  tables' literal contents, at which the pipeline is held; each window's staging buffer at a point; the region's
  invariant split into the buffers the body uses; that every input window's staging buffer holds its block at every
  point; and how the frame claim's post follows from the region's.
-/
import proofs.«413224_j16982300689021_3_alg».proof.Proof.Gen.KernelIdeal.Launch
import proofs.«413224_j16982300689021_3_alg».proof.Proof.Gen.KernelIdeal.Skeleton
import proofs.«413224_j16982300689021_3_alg».proof.Proof.RunDefs
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! ## @main up to the region -/

/-- Core c's buffers when the region is entered: after the five host operations. -/
abbrev V (c : Dev nD) (b : Ref sig .tc) : Buf (Elt 𝔽) ((c : Thread nD τ).loc b) :=
  StableHlo.after (hostOps0 (F := 𝔽)) (fun b => m (c, b)) b

theorem hostOps0_fresh : (hostOps0 : List (HloOp τ sig (Elt 𝔽))).Forall fun op => op.fresh = ∅ := by
  simp only [List.Forall]; repeat' constructor

/-- @main is those operations, then the region. -/
theorem hmain (𝒱₀ : Variants) : Pipeline.HMainP (Ix := Unit) (Name := ℕ) (U := UR sig nD τ) (Lvl := ℕ) pcfgs 0 defs₀ 𝒱₀ m (main (F := 𝔽)) (V m) :=
  Pipeline.hmainP_prefix pcfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, Finset.mem_singleton]
    repeat' apply And.intro
    all_goals exact StableHlo.devRef_ne_of_ne (by decide)))

/-! ## The tile tables -/

/-- The two tables' contents: the (qi, ki) pairs of the ten visible tiles, as @main's constants spell them. -/
def litTbl : pre0.Contents (Elt 𝔽) := fun
  | 0 => ((fun i => lit0 (S10.rowMajor i)) : (⟨S10, .i32⟩ : BufTy).Contents (Elt 𝔽))
  | 1 => ((fun i => lit1 (S10.rowMajor i)) : (⟨S10, .i32⟩ : BufTy).Contents (Elt 𝔽))
  | ⟨_ + 2, h⟩ => absurd h (Nat.not_lt.2 (Nat.le_add_left _ _))

/-- With those tables every output block lies inside the output array. -/
theorem okL : ok0 (F := 𝔽) litTbl := by decide +kernel

/-- The tables as admissible contents, and the pipeline at them. -/
def aL : (pcfg0 (F := 𝔽)).Adm := ⟨litTbl, okL⟩
abbrev cfgL : Pipeline.Cfg sig Λ₀ := cfg0 (F := 𝔽) aL

/-- When the region is entered the tables hold those contents. -/
theorem V_pre (c : Dev nD) (k : Fin 2) : V m c (pre0.ref k) = aL.1 k := by
  match k with
  | ⟨0, _⟩ => show StableHlo.after (hostOps0 (F := 𝔽)) (fun b => m (c, b)) (Proc.devRef .tc main_c) = _; after_results; rfl
  | ⟨1, _⟩ => show StableHlo.after (hostOps0 (F := 𝔽)) (fun b => m (c, b)) (Proc.devRef .tc main_c_0) = _; after_results; rfl

/-! ## The staging buffers at a point -/

abbrev ms0_0 (t : Fin cfgL.N) : Memref sig .tc .vmem S1x4096x128 .f32 := spec0_0.stage (cfgL.slots t 0)
abbrev hs0_0 (t : Fin cfgL.N) : (ms0_0 t).IsWhole := hstage0_0 ((cfgL.slots t 0).cast nbuf0_0)
abbrev ms0_1 (t : Fin cfgL.N) : Memref sig .tc .vmem S128x128 .bf16 := spec0_1.stage (cfgL.slots t 1)
abbrev hs0_1 (t : Fin cfgL.N) : (ms0_1 t).IsWhole := hstage0_1 ((cfgL.slots t 1).cast nbuf0_1)
abbrev ms0_2 (t : Fin cfgL.N) : Memref sig .tc .vmem S128x128 .bf16 := spec0_2.stage (cfgL.slots t 2)
abbrev hs0_2 (t : Fin cfgL.N) : (ms0_2 t).IsWhole := hstage0_2 ((cfgL.slots t 2).cast nbuf0_2)
abbrev ms0_3 (t : Fin cfgL.N) : Memref sig .tc .vmem S128x128 .bf16 := spec0_3.stage (cfgL.slots t 3)
abbrev hs0_3 (t : Fin cfgL.N) : (ms0_3 t).IsWhole := hstage0_3 ((cfgL.slots t 3).cast nbuf0_3)
abbrev ms0_4 (t : Fin cfgL.N) : Memref sig .tc .vmem S1x1024x128 .f32 := spec0_4.stage (cfgL.slots t 4)
abbrev hs0_4 (t : Fin cfgL.N) : (ms0_4 t).IsWhole := hstage0_4 ((cfgL.slots t 4).cast nbuf0_4)

/-- The body at point t, on what the pipeline calls it with. -/
abbrev bodyAt0 (t : Fin cfgL.N) : Prog (TpuEff nD τ sig (Elt 𝔽) Λ₀ .tc) PUnit :=
  cc0__fused_attn_kernel (grid0.coords t) tbM0_0 htbM0_0 tbM0_1 htbM0_1 (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)

/-! ## The region's invariant, buffer by buffer -/

/-- What the region hands the body besides the windows: the six scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The tables' halves the body reads through. -/
theorem PhiT0_eq (c : Dev nD) (v : pre0.Contents (Elt 𝔽)) : (Pipeline.ΦT pre0 v c : sProp 𝕄) = iprop(tbPt0 c tbM0_0 (v 0) ∗ tbPt0 c tbM0_1 (v 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window w's block at point t, read off its array as the region finds it. -/
def iblk (c : Dev nD) (w : Fin cfgL.W) (t : Fin cfgL.N) : ((cfgL.win w).xblock (cfgL.grid.coords t)).Idx → Elt 𝔽 (cfgL.win w).elt :=
  ((cfgL.win w).blk t).view.read (Elt 𝔽) (V m c (Pipeline.arrRef spec0 w))

/-- An input window's staging buffer holds its block at every point, fetched there or not. -/
theorem before0_0_of {c : Dev nD} (dat : Dat τ (Elt 𝔽) Unit ℕ (UR sig nD τ) ℕ (cfgL) c) (hA : dat.A 0 = V m c (Pipeline.arrRef spec0 0))
    (hafter : ∀ t, dat.after 0 t = iblk m c 0 t) (t : Fin cfgL.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt 𝔽) Unit ℕ (UR sig nD τ) ℕ (cfgL) c) (hA : dat.A 1 = V m c (Pipeline.arrRef spec0 1))
    (hafter : ∀ t, dat.after 1 t = iblk m c 1 t) (t : Fin cfgL.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt 𝔽) Unit ℕ (UR sig nD τ) ℕ (cfgL) c) (hA : dat.A 2 = V m c (Pipeline.arrRef spec0 2))
    (hafter : ∀ t, dat.after 2 t = iblk m c 2 t) (t : Fin cfgL.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt 𝔽) Unit ℕ (UR sig nD τ) ℕ (cfgL) c) (hA : dat.A 3 = V m c (Pipeline.arrRef spec0 3))
    (hafter : ∀ t, dat.after 3 t = iblk m c 3 t) (t : Fin cfgL.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.RunA.lean ====
/-
  The body's run at a batch's first point (qi = ki = 0): the three projections of the batch's 4096 rows are stored into
  scratch; the running state is reset; it is updated by the masked diagonal tile; the output block is stored.
-/
import proofs.«413224_j16982300689021_3_alg».proof.Proof.Gen.KernelIdeal.Launch
import proofs.«413224_j16982300689021_3_alg».proof.Proof.Gen.KernelIdeal.Skeleton
import proofs.«413224_j16982300689021_3_alg».proof.Proof.RunDefs
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the six scratch buffers at anything; the output's buffer at anything, handed back with the stored block. -/
noncomputable def kernelRun0_A (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (hc1 : P1 i) (hc2 : P2 (wk c i xt1)) (hc3 : P3 (wq c i xt0) (wk c i xt1)) (hc4 : ¬P4 (wq c i xt0) (wk c i xt1))
    (k0_hw1 : k0_chk1 (wq c i xt0)) (k0_hw2 : k0_chk2 (wk c i xt1)) :
    Σ' (L8 : List (View.Piece (Elt F) S1x1024x128 .f32)) (LS0 : List (View.Piece (Elt F) S4096x128 .bf16)) (LS1 : List (View.Piece (Elt F) S4096x128 .bf16)) (LS2 : List (View.Piece (Elt F) S4096x128 .bf16)) (LS3 : List (View.Piece (Elt F) S1024x1 .f32)) (LS4 : List (View.Piece (Elt F) S1024x1 .f32)), { LS5 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d) ∗ tbPt0 c tbM0_0 xt0 ∗ tbPt0 c tbM0_1 xt1
            ∗ (∃ d, owns (c : Thread nD τ) scM0_0 fullShare d) ∗ (∃ d, owns (c : Thread nD τ) scM0_1 fullShare d) ∗ (∃ d, owns (c : Thread nD τ) scM0_2 fullShare d)
            ∗ (∃ d, owns (c : Thread nD τ) scM0_3 fullShare d) ∗ (∃ d, owns (c : Thread nD τ) scM0_4 fullShare d) ∗ (∃ d, owns (c : Thread nD τ) scM0_5 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L8) ∗ tbPt0 c tbM0_0 xt0 ∗ tbPt0 c tbM0_1 xt1
                ∗ (∃ f, scM0_0.view.loc (c : Thread nD τ) ↦[scM0_0.view.set]{fullShare} scM0_0.view.writes (Elt F) f LS0)
                ∗ (∃ f, scM0_1.view.loc (c : Thread nD τ) ↦[scM0_1.view.set]{fullShare} scM0_1.view.writes (Elt F) f LS1)
                ∗ (∃ f, scM0_2.view.loc (c : Thread nD τ) ↦[scM0_2.view.set]{fullShare} scM0_2.view.writes (Elt F) f LS2)
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, ?_, ?_, ?_, ?_, fun E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%d8, %f8, -, H8⟩, HT0, HT1,
      ⟨%e0, %g0, -, HS0⟩, ⟨%e1, %g1, -, HS1⟩, ⟨%e2, %g2, -, HS2⟩, ⟨%e3, %g3, -, HS3⟩, ⟨%e4, %g4, -, HS4⟩, ⟨%e5, %g5, -, HS5⟩, Hk⟩
    obtain rfl := harg4.eq_unread hf0; obtain rfl := harg5.eq_unread hf1; obtain rfl := harg6.eq_unread hf2; obtain rfl := harg7.eq_unread hf3
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]; · iexists _; iexact H8
    isplitl [HT0]; · iexact HT0
    isplitl [HT1]; · iexact HT1
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.RunB.lean ====
/-
  The body's run at a query tile's first key tile when that tile is strictly below the diagonal (ki = 0 < qi; not the first
  point of a batch): nothing is projected; the running state is reset (maximum −∞, denominator and numerator zero) and
  then updated by the unmasked tile; the output block is left alone.
-/
import proofs.«413224_j16982300689021_3_alg».proof.Proof.Gen.KernelIdeal.Launch
import proofs.«413224_j16982300689021_3_alg».proof.Proof.Gen.KernelIdeal.Skeleton
import proofs.«413224_j16982300689021_3_alg».proof.Proof.RunDefs
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the projections' scratch at what was carried, the
    running state at anything; the output's buffer handed back untouched. -/
noncomputable def kernelRun0_B (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (xs0 xs1 xs2 : Vec F S4096x128 .bf16)
    (hc1 : ¬P1 i) (hc2 : P2 (wk c i xt1)) (hc3 : ¬P3 (wq c i xt0) (wk c i xt1)) (hc4 : P4 (wq c i xt0) (wk c i xt1))
    (k0_hw1 : k0_chk1 (wq c i xt0)) (k0_hw2 : k0_chk2 (wk c i xt1)) :
    Σ' (LS3 : List (View.Piece (Elt F) S1024x1 .f32)) (LS4 : List (View.Piece (Elt F) S1024x1 .f32)), { LS5 : List (View.Piece (Elt F) S1024x128 .f32) //
      ∀ (xi8 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare xi8 ∗ tbPt0 c tbM0_0 xt0 ∗ tbPt0 c tbM0_1 xt1
            ∗ owns (c : Thread nD τ) scM0_0 fullShare xs0 ∗ owns (c : Thread nD τ) scM0_1 fullShare xs1 ∗ owns (c : Thread nD τ) scM0_2 fullShare xs2
            ∗ (∃ d, owns (c : Thread nD τ) scM0_3 fullShare d) ∗ (∃ d, owns (c : Thread nD τ) scM0_4 fullShare d) ∗ (∃ d, owns (c : Thread nD τ) scM0_5 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare xi8 ∗ tbPt0 c tbM0_0 xt0 ∗ tbPt0 c tbM0_1 xt1
                ∗ owns (c : Thread nD τ) scM0_0 fullShare xs0 ∗ owns (c : Thread nD τ) scM0_1 fullShare xs1 ∗ owns (c : Thread nD τ) scM0_2 fullShare xs2
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, fun xi8 E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f8, %hf8, H8⟩, HT0, HT1,
      ⟨%g0, %hg0, HS0⟩, ⟨%g1, %hg1, HS1⟩, ⟨%g2, %hg2, HS2⟩, ⟨%e3, %g3, -, HS3⟩, ⟨%e4, %g4, -, HS4⟩, ⟨%e5, %g5, -, HS5⟩, Hk⟩
    obtain rfl := harg4.eq_unread hf0; obtain rfl := harg5.eq_unread hf1; obtain rfl := harg6.eq_unread hf2; obtain rfl := harg7.eq_unread hf3
    obtain rfl := harg8.eq_unread hf8
    obtain rfl := (Memref.isWhole_whole cc0_scratch0 : scM0_0.IsWhole).eq_unread hg0
    obtain rfl := (Memref.isWhole_whole cc0_scratch1 : scM0_1.IsWhole).eq_unread hg1
    obtain rfl := (Memref.isWhole_whole cc0_scratch2 : scM0_2.IsWhole).eq_unread hg2
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]
    · iexists _; isplitr; · ipureintro; exact harg8.read_unread _
      iexact H8
    isplitl [HT0]; · iexact HT0
    isplitl [HT1]; · iexact HT1
    isplitl [HS0]
    · iexists _; isplitr; · ipureintro; exact (Memref.isWhole_whole cc0_scratch0 : scM0_0.IsWhole).read_unread _
      iexact HS0
    isplitl [HS1]
    · iexists _; isplitr; · ipureintro; exact (Memref.isWhole_whole cc0_scratch1 : scM0_1.IsWhole).read_unread _
      iexact HS1
    isplitl [HS2]
    · iexists _; isplitr; · ipureintro; exact (Memref.isWhole_whole cc0_scratch2 : scM0_2.IsWhole).read_unread _
      iexact HS2
    isplitl [HS3]; · iexists _; iexact HS3
    isplitl [HS4]; · iexists _; iexact HS4
    iexists _; iexact HS5

end Cert.KernelIdeal.Hand

end
-- ==== Proof.RunC.lean ====
/-
  The body's run at a diagonal tile that is not a query tile's first key tile (ki = qi ≠ 0): nothing is projected, nothing
  reset; the running state is updated by the masked tile and the output block is stored: numerator over denominator.
-/
import proofs.«413224_j16982300689021_3_alg».proof.Proof.Gen.KernelIdeal.Launch
import proofs.«413224_j16982300689021_3_alg».proof.Proof.Gen.KernelIdeal.Skeleton
import proofs.«413224_j16982300689021_3_alg».proof.Proof.RunDefs
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the projections' scratch at what was carried, the
    running state at what was carried; the output's buffer at anything, handed back with the stored block. -/
noncomputable def kernelRun0_C (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (xs0 xs1 xs2 : Vec F S4096x128 .bf16) (xs3 xs4 : Vec F S1024x1 .f32) (xs5 : Vec F S1024x128 .f32)
    (hc1 : ¬P1 i) (hc2 : ¬P2 (wk c i xt1)) (hc3 : P3 (wq c i xt0) (wk c i xt1)) (hc4 : ¬P4 (wq c i xt0) (wk c i xt1))
    (k0_hw1 : k0_chk1 (wq c i xt0)) (k0_hw2 : k0_chk2 (wk c i xt1)) :
    Σ' (L8 : List (View.Piece (Elt F) S1x1024x128 .f32)) (LS3 : List (View.Piece (Elt F) S1024x1 .f32)) (LS4 : List (View.Piece (Elt F) S1024x1 .f32)), { LS5 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d) ∗ tbPt0 c tbM0_0 xt0 ∗ tbPt0 c tbM0_1 xt1
            ∗ owns (c : Thread nD τ) scM0_0 fullShare xs0 ∗ owns (c : Thread nD τ) scM0_1 fullShare xs1 ∗ owns (c : Thread nD τ) scM0_2 fullShare xs2
            ∗ owns (c : Thread nD τ) scM0_3 fullShare xs3 ∗ owns (c : Thread nD τ) scM0_4 fullShare xs4 ∗ owns (c : Thread nD τ) scM0_5 fullShare xs5
            ∗ (iprop(owns (c : Thread nD τ) arg4 fullShare x0 ∗ owns (c : Thread nD τ) arg5 fullShare x1 ∗ owns (c : Thread nD τ) arg6 fullShare x2 ∗ owns (c : Thread nD τ) arg7 fullShare x3
                ∗ (∃ f, arg8.view.loc (c : Thread nD τ) ↦[arg8.view.set]{fullShare} arg8.view.writes (Elt F) f L8) ∗ tbPt0 c tbM0_0 xt0 ∗ tbPt0 c tbM0_1 xt1
                ∗ owns (c : Thread nD τ) scM0_0 fullShare xs0 ∗ owns (c : Thread nD τ) scM0_1 fullShare xs1 ∗ owns (c : Thread nD τ) scM0_2 fullShare xs2
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, ?_, fun E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%d8, %f8, -, H8⟩, HT0, HT1,
      ⟨%g0, %hg0, HS0⟩, ⟨%g1, %hg1, HS1⟩, ⟨%g2, %hg2, HS2⟩, ⟨%g3, %hg3, HS3⟩, ⟨%g4, %hg4, HS4⟩, ⟨%g5, %hg5, HS5⟩, Hk⟩
    obtain rfl := harg4.eq_unread hf0; obtain rfl := harg5.eq_unread hf1; obtain rfl := harg6.eq_unread hf2; obtain rfl := harg7.eq_unread hf3
    obtain rfl := (Memref.isWhole_whole cc0_scratch0 : scM0_0.IsWhole).eq_unread hg0
    obtain rfl := (Memref.isWhole_whole cc0_scratch1 : scM0_1.IsWhole).eq_unread hg1
    obtain rfl := (Memref.isWhole_whole cc0_scratch2 : scM0_2.IsWhole).eq_unread hg2
    obtain rfl := (Memref.isWhole_whole cc0_scratch3 : scM0_3.IsWhole).eq_unread hg3
    obtain rfl := (Memref.isWhole_whole cc0_scratch4 : scM0_4.IsWhole).eq_unread hg4
    obtain rfl := (Memref.isWhole_whole cc0_scratch5 : scM0_5.IsWhole).eq_unread hg5
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]; · iexists _; iexact H8
    isplitl [HT0]; · iexact HT0
    isplitl [HT1]; · iexact HT1
    isplitl [HS0]
    · iexists _; isplitr; · ipureintro; exact (Memref.isWhole_whole cc0_scratch0 : scM0_0.IsWhole).read_unread _
      iexact HS0
    isplitl [HS1]
    · iexists _; isplitr; · ipureintro; exact (Memref.isWhole_whole cc0_scratch1 : scM0_1.IsWhole).read_unread _
      iexact HS1
    isplitl [HS2]
    · iexists _; isplitr; · ipureintro; exact (Memref.isWhole_whole cc0_scratch2 : scM0_2.IsWhole).read_unread _
      iexact HS2
    isplitl [HS3]; · iexists _; iexact HS3
    isplitl [HS4]; · iexists _; iexact HS4
    iexists _; iexact HS5

end Cert.KernelIdeal.Hand

end
-- ==== Proof.RunD.lean ====
/-
  The body's run at a point strictly below the diagonal that is not a query tile's first key tile (ki ≠ 0, ki < qi, not the
  first point of a batch): nothing is projected, nothing reset, the output block is left alone; the running maximum,
  denominator and numerator are updated by the unmasked tile.
-/
import proofs.«413224_j16982300689021_3_alg».proof.Proof.Gen.KernelIdeal.Launch
import proofs.«413224_j16982300689021_3_alg».proof.Proof.Gen.KernelIdeal.Skeleton
import proofs.«413224_j16982300689021_3_alg».proof.Proof.RunDefs
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- What the stores leave in the three running-state scratch buffers, as pieces, with the proof that the body runs: the
    inputs' buffers at their blocks, the tables at their contents, the projections' scratch at what was carried, the
    running state at what was carried; the output's buffer handed back untouched. -/
noncomputable def kernelRun0_D (c : Dev nD) (i : grid0.Coords)
    (arg4 : Memref sig .tc .vmem S1x4096x128 .f32) (harg4 : arg4.IsWhole) (arg5 : Memref sig .tc .vmem S128x128 .bf16) (harg5 : arg5.IsWhole)
    (arg6 : Memref sig .tc .vmem S128x128 .bf16) (harg6 : arg6.IsWhole) (arg7 : Memref sig .tc .vmem S128x128 .bf16) (harg7 : arg7.IsWhole)
    (arg8 : Memref sig .tc .vmem S1x1024x128 .f32) (harg8 : arg8.IsWhole)
    (xt0 : TbBuf0 (F := F) c tbM0_0) (xt1 : TbBuf0 (F := F) c tbM0_1)
    (x0 : Vec F S1x4096x128 .f32) (x1 x2 x3 : Vec F S128x128 .bf16)
    (xs0 xs1 xs2 : Vec F S4096x128 .bf16) (xs3 xs4 : Vec F S1024x1 .f32) (xs5 : Vec F S1024x128 .f32)
    (hc1 : ¬P1 i) (hc2 : ¬P2 (wk c i xt1)) (hc3 : ¬P3 (wq c i xt0) (wk c i xt1)) (hc4 : P4 (wq c i xt0) (wk c i xt1))
    (k0_hw1 : k0_chk1 (wq c i xt0)) (k0_hw2 : k0_chk2 (wk c i xt1)) :
    Σ' (LS3 : List (View.Piece (Elt F) S1024x1 .f32)) (LS4 : List (View.Piece (Elt F) S1024x1 .f32)), { LS5 : List (View.Piece (Elt F) S1024x128 .f32) //
      ∀ (xi8 : Vec F S1x1024x128 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ owns (c : Thread nD τ) arg8 fullShare xi8 ∗ tbPt0 c tbM0_0 xt0 ∗ tbPt0 c tbM0_1 xt1
            ∗ owns (c : Thread nD τ) scM0_0 fullShare xs0 ∗ owns (c : Thread nD τ) scM0_1 fullShare xs1 ∗ owns (c : Thread nD τ) scM0_2 fullShare xs2
            ∗ owns (c : Thread nD τ) scM0_3 fullShare xs3 ∗ owns (c : Thread nD τ) scM0_4 fullShare xs4 ∗ owns (c : Thread nD τ) scM0_5 fullShare xs5
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare xi8 ∗ tbPt0 c tbM0_0 xt0 ∗ tbPt0 c tbM0_1 xt1
                ∗ owns (c : Thread nD τ) scM0_0 fullShare xs0 ∗ owns (c : Thread nD τ) scM0_1 fullShare xs1 ∗ owns (c : Thread nD τ) scM0_2 fullShare xs2
                ∗ (∃ f, scM0_3.view.loc (c : Thread nD τ) ↦[scM0_3.view.set]{fullShare} scM0_3.view.writes (Elt F) f LS3)
                ∗ (∃ f, scM0_4.view.loc (c : Thread nD τ) ↦[scM0_4.view.set]{fullShare} scM0_4.view.writes (Elt F) f LS4)
                ∗ (∃ f, scM0_5.view.loc (c : Thread nD τ) ↦[scM0_5.view.set]{fullShare} scM0_5.view.writes (Elt F) f LS5)) -∗ K ⟨⟩))
          ⊢ wp frame (wpE (defs₀ (F := F)) Variants.none c none) E
              (cc0__fused_attn_kernel i tbM0_0 htbM0_0 tbM0_1 htbM0_1 arg4 harg4 arg5 harg5 arg6 harg6 arg7 harg7 arg8 harg8
                scM0_0 (Memref.isWhole_whole _) scM0_1 (Memref.isWhole_whole _) scM0_2 (Memref.isWhole_whole _)
                scM0_3 (Memref.isWhole_whole _) scM0_4 (Memref.isWhole_whole _) scM0_5 (Memref.isWhole_whole _)) K } := by
  refine ⟨?_, ?_, ?_, fun xi8 E K => ?run⟩
  case run =>
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f8, %hf8, H8⟩, HT0, HT1,
      ⟨%g0, %hg0, HS0⟩, ⟨%g1, %hg1, HS1⟩, ⟨%g2, %hg2, HS2⟩, ⟨%g3, %hg3, HS3⟩, ⟨%g4, %hg4, HS4⟩, ⟨%g5, %hg5, HS5⟩, Hk⟩
    obtain rfl := harg4.eq_unread hf0; obtain rfl := harg5.eq_unread hf1; obtain rfl := harg6.eq_unread hf2; obtain rfl := harg7.eq_unread hf3
    obtain rfl := harg8.eq_unread hf8
    obtain rfl := (Memref.isWhole_whole cc0_scratch0 : scM0_0.IsWhole).eq_unread hg0
    obtain rfl := (Memref.isWhole_whole cc0_scratch1 : scM0_1.IsWhole).eq_unread hg1
    obtain rfl := (Memref.isWhole_whole cc0_scratch2 : scM0_2.IsWhole).eq_unread hg2
    obtain rfl := (Memref.isWhole_whole cc0_scratch3 : scM0_3.IsWhole).eq_unread hg3
    obtain rfl := (Memref.isWhole_whole cc0_scratch4 : scM0_4.IsWhole).eq_unread hg4
    obtain rfl := (Memref.isWhole_whole cc0_scratch5 : scM0_5.IsWhole).eq_unread hg5
    sl_exec (disch := first | sl_exact k0_hw1 | sl_exact k0_hw2 | exact hc1 | exact hc2 | exact hc3 | exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H8]
    · iexists _; isplitr; · ipureintro; exact harg8.read_unread _
      iexact H8
    isplitl [HT0]; · iexact HT0
    isplitl [HT1]; · iexact HT1
    isplitl [HS0]
    · iexists _; isplitr; · ipureintro; exact (Memref.isWhole_whole cc0_scratch0 : scM0_0.IsWhole).read_unread _
      iexact HS0
    isplitl [HS1]
    · iexists _; isplitr; · ipureintro; exact (Memref.isWhole_whole cc0_scratch1 : scM0_1.IsWhole).read_unread _
      iexact HS1
    isplitl [HS2]
    · iexists _; isplitr; · ipureintro; exact (Memref.isWhole_whole cc0_scratch2 : scM0_2.IsWhole).read_unread _
      iexact HS2
    isplitl [HS3]; · iexists _; iexact HS3
    isplitl [HS4]; · iexists _; iexact HS4
    iexists _; iexact HS5

end Cert.KernelIdeal.Hand

end
-- ==== Proof.Data.lean ====
/-
  The proof data of the region. The grid is 4 batches × 10 tiles; the tile tables give each point its (qi, ki). At a point
  the body takes one of four paths: A, a batch's first point (project, reset, masked update, store the output block); B, a
  query tile's first key tile below the diagonal (reset, unmasked update); C, a later diagonal tile (masked update,
  store); D, a later tile below the diagonal (unmasked update). Here: the paths' conditions at a point with the tables
  pinned, and every fact about a point decided once; what the six scratch buffers and the output's staging buffer hold
  after each point, by recursion on the point; the region's invariant (the scratch at those contents, the tables' halves);
  and what each window's staging buffer holds when the body runs — an input its block, the output nothing the body
  stored (every point that stores the output block also writes it back).
-/
import proofs.«413224_j16982300689021_3_alg».proof.Proof.Gen.KernelIdeal.Launch
import proofs.«413224_j16982300689021_3_alg».proof.Proof.Gen.KernelIdeal.Skeleton
import proofs.«413224_j16982300689021_3_alg».proof.Proof.Kit
import proofs.«413224_j16982300689021_3_alg».proof.Proof.RunA
import proofs.«413224_j16982300689021_3_alg».proof.Proof.RunB
import proofs.«413224_j16982300689021_3_alg».proof.Proof.RunC
import proofs.«413224_j16982300689021_3_alg».proof.Proof.RunD
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! ## The views contents are stated through -/

abbrev VO0_4 : View sig .tc .vmem S1x1024x128 .f32 := (Memref.whole cc0_stg4_0 : Memref sig .tc .vmem S1x1024x128 .f32).view
abbrev VS0_0 : View sig .tc .vmem S4096x128 .bf16 := scM0_0.view
abbrev VS0_1 : View sig .tc .vmem S4096x128 .bf16 := scM0_1.view
abbrev VS0_2 : View sig .tc .vmem S4096x128 .bf16 := scM0_2.view
abbrev VS0_3 : View sig .tc .vmem S1024x1 .f32 := scM0_3.view
abbrev VS0_4 : View sig .tc .vmem S1024x1 .f32 := scM0_4.view
abbrev VS0_5 : View sig .tc .vmem S1024x128 .f32 := scM0_5.view

/-! ## A point's words and the paths' conditions, the tables pinned -/

abbrev crd (t : Fin cfgL.N) : grid0.Coords := grid0.coords t
/-- The tables as the body is handed them on core c. -/
abbrev xtq (c : Dev nD) : TbBuf0 (F := 𝔽) c tbM0_0 := aL.1 0
abbrev xtk (c : Dev nD) : TbBuf0 (F := 𝔽) c tbM0_1 := aL.1 1
/-- The point's query tile and key tile. -/
abbrev wqL (c : Dev nD) (t : Fin cfgL.N) : BitVec 32 := wq (F := 𝔽) c (crd t) (xtq c)
abbrev wkL (c : Dev nD) (t : Fin cfgL.N) : BitVec 32 := wk (F := 𝔽) c (crd t) (xtk c)

abbrev Q1 (t : Fin cfgL.N) : Prop := P1 (crd t)
abbrev Q2 (c : Dev nD) (t : Fin cfgL.N) : Prop := P2 (wkL c t)
abbrev Q3 (c : Dev nD) (t : Fin cfgL.N) : Prop := P3 (wqL c t) (wkL c t)
abbrev Q4 (c : Dev nD) (t : Fin cfgL.N) : Prop := P4 (wqL c t) (wkL c t)

/-- Every fact the frame uses about point t: a batch's first point is a first key tile and diagonal, and the only such;
    below the diagonal is exactly not on it; the offsets the body computes from the two words are in range; the output
    window is idle exactly off the diagonal and written back exactly on it; the region's first point is a batch's first. -/
abbrev FactsAt (c : Dev nD) (t : Fin cfgL.N) : Prop :=
  (Q1 t → Q2 c t ∧ Q3 c t)
  ∧ (Q2 c t → Q3 c t → Q1 t)
  ∧ (Q4 c t ↔ ¬Q3 c t)
  ∧ k0_chk1 (wqL c t) ∧ k0_chk2 (wkL c t)
  ∧ (cfgL.idle 4 (cfgL.grid.coords t) = !decide (Q3 c t))
  ∧ ((cfgL.win 4).flush t = decide (Q3 c t))
  ∧ (t.val = 0 → Q1 t)

theorem allFacts0 : ∀ t : Fin cfgL.N, FactsAt 0 t := by decide +kernel

theorem allFacts (c : Dev nD) (t : Fin cfgL.N) : FactsAt c t := by
  obtain rfl : c = 0 := Subsingleton.elim _ _
  exact allFacts0 t

theorem hypsA (c : Dev nD) (t : Fin cfgL.N) (q1 : Q1 t) : Q2 c t ∧ Q3 c t ∧ ¬Q4 c t ∧ k0_chk1 (wqL c t) ∧ k0_chk2 (wkL c t) :=
  have F := allFacts c t
  ⟨(F.1 q1).1, (F.1 q1).2, fun h => (F.2.2.1.mp h) (F.1 q1).2, F.2.2.2.1, F.2.2.2.2.1⟩
theorem hypsB (c : Dev nD) (t : Fin cfgL.N) (q1 : ¬Q1 t) (q3 : ¬Q3 c t) (q2 : Q2 c t) : Q4 c t ∧ k0_chk1 (wqL c t) ∧ k0_chk2 (wkL c t) :=
  have F := allFacts c t
  ⟨F.2.2.1.mpr q3, F.2.2.2.1, F.2.2.2.2.1⟩
theorem hypsC (c : Dev nD) (t : Fin cfgL.N) (q1 : ¬Q1 t) (q3 : Q3 c t) : ¬Q2 c t ∧ ¬Q4 c t ∧ k0_chk1 (wqL c t) ∧ k0_chk2 (wkL c t) :=
  have F := allFacts c t
  ⟨fun q2 => q1 (F.2.1 q2 q3), fun h => (F.2.2.1.mp h) q3, F.2.2.2.1, F.2.2.2.2.1⟩
theorem hypsD (c : Dev nD) (t : Fin cfgL.N) (q1 : ¬Q1 t) (q3 : ¬Q3 c t) (q2 : ¬Q2 c t) : Q4 c t ∧ k0_chk1 (wqL c t) ∧ k0_chk2 (wkL c t) :=
  have F := allFacts c t
  ⟨F.2.2.1.mpr q3, F.2.2.2.1, F.2.2.2.2.1⟩

theorem idle4_of (c : Dev nD) (t : Fin cfgL.N) (q3 : ¬Q3 c t) : cfgL.idle 4 (cfgL.grid.coords t) = true := by
  rw [(allFacts c t).2.2.2.2.2.1, decide_eq_false q3]; rfl
theorem live4_of (c : Dev nD) (t : Fin cfgL.N) (q3 : Q3 c t) : cfgL.idle 4 (cfgL.grid.coords t) = false := by
  rw [(allFacts c t).2.2.2.2.2.1, decide_eq_true q3]; rfl
theorem noFlush4_of (c : Dev nD) (t : Fin cfgL.N) (q3 : ¬Q3 c t) : (cfgL.win 4).flush t = false := by
  rw [(allFacts c t).2.2.2.2.2.2.1, decide_eq_false q3]
theorem flush4_of (c : Dev nD) (t : Fin cfgL.N) (q3 : Q3 c t) : (cfgL.win 4).flush t = true := by
  rw [(allFacts c t).2.2.2.2.2.2.1, decide_eq_true q3]
theorem Q1_zero (t : Fin cfgL.N) (h : t.val = 0) : Q1 t := (allFacts 0 t).2.2.2.2.2.2.2 h

/-- The input windows are never idle. -/
theorem liveAt0_0 : ∀ t : Fin cfgL.N, cfgL.idle 0 (cfgL.grid.coords t) = false := fun _ => rfl
theorem liveAt0_1 : ∀ t : Fin cfgL.N, cfgL.idle 1 (cfgL.grid.coords t) = false := fun _ => rfl
theorem liveAt0_2 : ∀ t : Fin cfgL.N, cfgL.idle 2 (cfgL.grid.coords t) = false := fun _ => rfl
theorem liveAt0_3 : ∀ t : Fin cfgL.N, cfgL.idle 3 (cfgL.grid.coords t) = false := fun _ => rfl

/-- The output window's buffer never holds anything the body stored when the body runs: each point that stores into it
    also writes it back. -/
theorem fresh4 (c : Dev nD) (t : Fin cfgL.N) : cfgL.fresh 4 t.val = true :=
  Pipeline.Cfg.fresh_tab cfgL 4 (fun _ => true) rfl (fun t => by
    by_cases q3 : Q3 c t
    · rw [flush4_of c t q3]; rfl
    · rw [noFlush4_of c t q3, idle4_of c t q3]; rfl) t.val (Nat.le_of_lt t.isLt)

/-! ## What the buffers hold after each point -/

/-- The six scratch buffers' contents and the output staging buffer's. -/
structure Sc where
  q : Vec 𝔽 S4096x128 .bf16
  k : Vec 𝔽 S4096x128 .bf16
  v : Vec 𝔽 S4096x128 .bf16
  m : Vec 𝔽 S1024x1 .f32
  l : Vec 𝔽 S1024x1 .f32
  acc : Vec 𝔽 S1024x128 .f32
  o : Vec 𝔽 S1x1024x128 .f32

/-- Contents nothing has determined. -/
def Sc.junk : Sc := ⟨VS0_0.read (Elt 𝔽) VS0_0.junk, VS0_1.read (Elt 𝔽) VS0_1.junk, VS0_2.read (Elt 𝔽) VS0_2.junk,
  VS0_3.read (Elt 𝔽) VS0_3.junk, VS0_4.read (Elt 𝔽) VS0_4.junk, VS0_5.read (Elt 𝔽) VS0_5.junk, VO0_4.read (Elt 𝔽) VO0_4.junk⟩

/-- Path A at point t: everything is stored. -/
def outA (c : Dev nD) (t : Fin cfgL.N) (q1 : Q1 t) : Sc :=
  ⟨VS0_0.read (Elt 𝔽) (VS0_0.writes (Elt 𝔽) VS0_0.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.1),
   VS0_1.read (Elt 𝔽) (VS0_1.writes (Elt 𝔽) VS0_1.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.1),
   VS0_2.read (Elt 𝔽) (VS0_2.writes (Elt 𝔽) VS0_2.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.1),
   VS0_3.read (Elt 𝔽) (VS0_3.writes (Elt 𝔽) VS0_3.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.1),
   VS0_4.read (Elt 𝔽) (VS0_4.writes (Elt 𝔽) VS0_4.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.1),
   VS0_5.read (Elt 𝔽) (VS0_5.writes (Elt 𝔽) VS0_5.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.1),
   VO0_4.read (Elt 𝔽) (VO0_4.writes (Elt 𝔽) VO0_4.junk (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).1)⟩

/-- Path B: the projections and the output buffer stay, the running state is stored. -/
def outB (c : Dev nD) (t : Fin cfgL.N) (p : Sc) (q1 : ¬Q1 t) (q3 : ¬Q3 c t) (q2 : Q2 c t) : Sc :=
  ⟨p.q, p.k, p.v,
   VS0_3.read (Elt 𝔽) (VS0_3.writes (Elt 𝔽) VS0_3.junk (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).1),
   VS0_4.read (Elt 𝔽) (VS0_4.writes (Elt 𝔽) VS0_4.junk (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.1),
   VS0_5.read (Elt 𝔽) (VS0_5.writes (Elt 𝔽) VS0_5.junk (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.2.1),
   p.o⟩

/-- Path C: the projections stay, the running state and the output block are stored. -/
def outC (c : Dev nD) (t : Fin cfgL.N) (p : Sc) (q1 : ¬Q1 t) (q3 : Q3 c t) : Sc :=
  ⟨p.q, p.k, p.v,
   VS0_3.read (Elt 𝔽) (VS0_3.writes (Elt 𝔽) VS0_3.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.1),
   VS0_4.read (Elt 𝔽) (VS0_4.writes (Elt 𝔽) VS0_4.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.1),
   VS0_5.read (Elt 𝔽) (VS0_5.writes (Elt 𝔽) VS0_5.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.2.1),
   VO0_4.read (Elt 𝔽) (VO0_4.writes (Elt 𝔽) VO0_4.junk (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).1)⟩

/-- Path D: the projections and the output buffer stay, the running state is stored. -/
def outD (c : Dev nD) (t : Fin cfgL.N) (p : Sc) (q1 : ¬Q1 t) (q3 : ¬Q3 c t) (q2 : ¬Q2 c t) : Sc :=
  ⟨p.q, p.k, p.v,
   VS0_3.read (Elt 𝔽) (VS0_3.writes (Elt 𝔽) VS0_3.junk (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).1),
   VS0_4.read (Elt 𝔽) (VS0_4.writes (Elt 𝔽) VS0_4.junk (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.1),
   VS0_5.read (Elt 𝔽) (VS0_5.writes (Elt 𝔽) VS0_5.junk (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.2.1),
   p.o⟩

/-- One step: the path the conditions select at t, from what the buffers held before. -/
def step (c : Dev nD) (t : Fin cfgL.N) (p : Sc) : Sc :=
  if q1 : Q1 t then outA m c t q1
  else if q3 : Q3 c t then outC m c t p q1 q3
  else if q2 : Q2 c t then outB m c t p q1 q3 q2
  else outD m c t p q1 q3 q2

theorem step_A (c : Dev nD) (t : Fin cfgL.N) (p : Sc) (q1 : Q1 t) : step m c t p = outA m c t q1 := by
  unfold step; rw [dif_pos q1]
theorem step_C (c : Dev nD) (t : Fin cfgL.N) (p : Sc) (q1 : ¬Q1 t) (q3 : Q3 c t) : step m c t p = outC m c t p q1 q3 := by
  unfold step; rw [dif_neg q1, dif_pos q3]
theorem step_B (c : Dev nD) (t : Fin cfgL.N) (p : Sc) (q1 : ¬Q1 t) (q3 : ¬Q3 c t) (q2 : Q2 c t) : step m c t p = outB m c t p q1 q3 q2 := by
  unfold step; rw [dif_neg q1, dif_neg q3, dif_pos q2]
theorem step_D (c : Dev nD) (t : Fin cfgL.N) (p : Sc) (q1 : ¬Q1 t) (q3 : ¬Q3 c t) (q2 : ¬Q2 c t) : step m c t p = outD m c t p q1 q3 q2 := by
  unfold step; rw [dif_neg q1, dif_neg q3, dif_neg q2]

/-- After position n. -/
def traj (c : Dev nD) : (n : ℕ) → n < cfgL.N → Sc
  | 0, h => step m c ⟨0, h⟩ Sc.junk
  | n + 1, h => step m c ⟨n + 1, h⟩ (traj c n (Nat.lt_of_succ_lt h))

/-- Before point t (nothing determined before the first). -/
def prev (c : Dev nD) (t : Fin cfgL.N) : Sc :=
  if h : t.val = 0 then Sc.junk else traj m c (t.val - 1) (by omega)

theorem traj_eq (c : Dev nD) (t : Fin cfgL.N) : traj m c t.val t.isLt = step m c t (prev m c t) := by
  obtain ⟨n, hn⟩ := t
  cases n with
  | zero => rfl
  | succ n => unfold prev; simp only [Nat.add_one_ne_zero, dif_neg, not_false_eq_true]; rfl

/-! ## The invariant and the proof data -/

/-- Before position n: at the region's entry the class's invariant and the tables; afterwards each scratch buffer at what
    the point before left, the generator register at some state, the tables' halves. -/
def PhiS (c : Dev nD) : (n : ℕ) → n ≤ cfgL.N → sProp 𝕄
  | 0, _ => iprop(Pipeline.ΦA spec0 c ∗ Pipeline.ΦT pre0 aL.1 c)
  | n + 1, hn => iprop(iprop(owns (c : Thread nD τ) scM0_0 fullShare (traj m c n hn).q ∗ owns (c : Thread nD τ) scM0_1 fullShare (traj m c n hn).k ∗ owns (c : Thread nD τ) scM0_2 fullShare (traj m c n hn).v
      ∗ owns (c : Thread nD τ) scM0_3 fullShare (traj m c n hn).m ∗ owns (c : Thread nD τ) scM0_4 fullShare (traj m c n hn).l ∗ owns (c : Thread nD τ) scM0_5 fullShare (traj m c n hn).acc)
      ∗ (∃ r, prngReg c r) ∗ tbPt0 c tbM0_0 (xtq c) ∗ tbPt0 c tbM0_1 (xtk c))

theorem PhiS_zero (c : Dev nD) (n : ℕ) (h : n ≤ cfgL.N) (hz : n = 0) : PhiS m c n h = iprop(Pipeline.ΦA spec0 c ∗ Pipeline.ΦT pre0 aL.1 c) := by
  subst hz; rfl
theorem PhiS_succ (c : Dev nD) (n : ℕ) (hn : n < cfgL.N) :
    PhiS m c (n + 1) hn = iprop(iprop(owns (c : Thread nD τ) scM0_0 fullShare (traj m c n hn).q ∗ owns (c : Thread nD τ) scM0_1 fullShare (traj m c n hn).k ∗ owns (c : Thread nD τ) scM0_2 fullShare (traj m c n hn).v
      ∗ owns (c : Thread nD τ) scM0_3 fullShare (traj m c n hn).m ∗ owns (c : Thread nD τ) scM0_4 fullShare (traj m c n hn).l ∗ owns (c : Thread nD τ) scM0_5 fullShare (traj m c n hn).acc)
      ∗ (∃ r, prngReg c r) ∗ tbPt0 c tbM0_0 (xtq c) ∗ tbPt0 c tbM0_1 (xtk c)) := rfl
theorem PhiS_pos (c : Dev nD) (n : ℕ) (h : n ≤ cfgL.N) (hz : n ≠ 0) :
    PhiS m c n h = iprop(iprop(owns (c : Thread nD τ) scM0_0 fullShare (traj m c (n - 1) (by omega)).q ∗ owns (c : Thread nD τ) scM0_1 fullShare (traj m c (n - 1) (by omega)).k ∗ owns (c : Thread nD τ) scM0_2 fullShare (traj m c (n - 1) (by omega)).v
      ∗ owns (c : Thread nD τ) scM0_3 fullShare (traj m c (n - 1) (by omega)).m ∗ owns (c : Thread nD τ) scM0_4 fullShare (traj m c (n - 1) (by omega)).l ∗ owns (c : Thread nD τ) scM0_5 fullShare (traj m c (n - 1) (by omega)).acc)
      ∗ (∃ r, prngReg c r) ∗ tbPt0 c tbM0_0 (xtq c) ∗ tbPt0 c tbM0_1 (xtk c)) := by
  cases n with
  | zero => exact absurd rfl hz
  | succ n => rfl

/-- The proof data of the one pipeline on core c. -/
def dats (_ : Fin 1) (c : Dev nD) : Dat τ (Elt 𝔽) Unit ℕ (UR sig nD τ) ℕ cfgL c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (traj m c t.val t.isLt).o
  Φ t := PhiS m c t.val (Nat.le_of_lt_succ t.isLt)
  q _ := fullShare
  owed _ := 0

theorem A_eq (c : Dev nD) (w : Fin cfgL.W) : (dats m 0 c).A w = V m c (Pipeline.arrRef spec0 w) := by
  dsimp only [dats]

theorem PhiS_castSucc (c : Dev nD) (t : Fin cfgL.N) : (dats m 0 c).Φ t.castSucc = PhiS m c t.val (Nat.le_of_lt t.isLt) := by
  dsimp only [dats]; simp only [Fin.coe_castSucc]

theorem after0_0 (c : Dev nD) (t : Fin cfgL.N) : (dats m 0 c).after 0 t = iblk m c 0 t := by dsimp only [dats]
theorem after0_1 (c : Dev nD) (t : Fin cfgL.N) : (dats m 0 c).after 1 t = iblk m c 1 t := by dsimp only [dats]
theorem after0_2 (c : Dev nD) (t : Fin cfgL.N) : (dats m 0 c).after 2 t = iblk m c 2 t := by dsimp only [dats]
theorem after0_3 (c : Dev nD) (t : Fin cfgL.N) : (dats m 0 c).after 3 t = iblk m c 3 t := by dsimp only [dats]
theorem after0_4 (c : Dev nD) (t : Fin cfgL.N) : (dats m 0 c).after 4 t = (traj m c t.val t.isLt).o := by dsimp only [dats]

theorem before0_0 (c : Dev nD) (t : Fin cfgL.N) (d) : (dats m 0 c).before 0 t d = iblk m c 0 t :=
  before0_0_of m (dats m 0 c) (A_eq m c 0) (after0_0 m c) t d
theorem before0_1 (c : Dev nD) (t : Fin cfgL.N) (d) : (dats m 0 c).before 1 t d = iblk m c 1 t :=
  before0_1_of m (dats m 0 c) (A_eq m c 1) (after0_1 m c) t d
theorem before0_2 (c : Dev nD) (t : Fin cfgL.N) (d) : (dats m 0 c).before 2 t d = iblk m c 2 t :=
  before0_2_of m (dats m 0 c) (A_eq m c 2) (after0_2 m c) t d
theorem before0_3 (c : Dev nD) (t : Fin cfgL.N) (d) : (dats m 0 c).before 3 t d = iblk m c 3 t :=
  before0_3_of m (dats m 0 c) (A_eq m c 3) (after0_3 m c) t d

/-- The output's staging buffer holds nothing the body stored when the body runs. -/
theorem before0_4 (c : Dev nD) (t : Fin cfgL.N) (d) : (dats m 0 c).before 4 t d = d := by
  rw [(dats m 0 c).before_out_traj 4 rfl (fun _ _ => rfl) (fun t ht hi hf => by rw [fresh4 c t] at hf; exact absurd hf (by decide)) t.val t rfl d,
    fresh4 c t]
  rfl

end Cert.KernelIdeal.Hand

end
-- ==== Proof.Covers.lean ====
/-
  Each path stores each buffer it writes whole, in one piece: the pieces a run leaves for a buffer tile it, so every index of
  the buffer is covered and the buffer's contents after the run are the pieces read back.
-/
import proofs.«413224_j16982300689021_3_alg».proof.Proof.Gen.KernelIdeal.Launch
import proofs.«413224_j16982300689021_3_alg».proof.Proof.Gen.KernelIdeal.Skeleton
import proofs.«413224_j16982300689021_3_alg».proof.Proof.Data
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

variable (m : (ℓ : Loc nD τ sig) → Buf (Elt 𝔽) ℓ)

/-! ## Path A -/
theorem coverA_o (c : Dev nD) (t : Fin cfgL.N) (q1 : Q1 t) (y : S1x1024x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).1 S1x1024x128.size (by sl_kernel_rfl) y
theorem coverA_q (c : Dev nD) (t : Fin cfgL.N) (q1 : Q1 t) (y : S4096x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.1 S4096x128.size (by sl_kernel_rfl) y
theorem coverA_k (c : Dev nD) (t : Fin cfgL.N) (q1 : Q1 t) (y : S4096x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.1 S4096x128.size (by sl_kernel_rfl) y
theorem coverA_v (c : Dev nD) (t : Fin cfgL.N) (q1 : Q1 t) (y : S4096x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.1 S4096x128.size (by sl_kernel_rfl) y
theorem coverA_m (c : Dev nD) (t : Fin cfgL.N) (q1 : Q1 t) (y : S1024x1.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.1 S1024x1.size (by sl_kernel_rfl) y
theorem coverA_l (c : Dev nD) (t : Fin cfgL.N) (q1 : Q1 t) (y : S1024x1.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.1 S1024x1.size (by sl_kernel_rfl) y
theorem coverA_acc (c : Dev nD) (t : Fin cfgL.N) (q1 : Q1 t) (y : S1024x128.Idx) :
    ∃ pc ∈ (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.1, y ∈ pc.1.set :=
  View.cover_of_tiledL (kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.1 S1024x128.size (by sl_kernel_rfl) y

/-! ## Path B -/
theorem coverB_m (c : Dev nD) (t : Fin cfgL.N) (p : Sc) (q1 : ¬Q1 t) (q3 : ¬Q3 c t) (q2 : Q2 c t) (y : S1024x1.Idx) :
    ∃ pc ∈ (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).1, y ∈ pc.1.set :=
  View.cover_of_tiledL (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).1 S1024x1.size (by sl_kernel_rfl) y
theorem coverB_l (c : Dev nD) (t : Fin cfgL.N) (p : Sc) (q1 : ¬Q1 t) (q3 : ¬Q3 c t) (q2 : Q2 c t) (y : S1024x1.Idx) :
    ∃ pc ∈ (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.1, y ∈ pc.1.set :=
  View.cover_of_tiledL (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.1 S1024x1.size (by sl_kernel_rfl) y
theorem coverB_acc (c : Dev nD) (t : Fin cfgL.N) (p : Sc) (q1 : ¬Q1 t) (q3 : ¬Q3 c t) (q2 : Q2 c t) (y : S1024x128.Idx) :
    ∃ pc ∈ (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.2.1, y ∈ pc.1.set :=
  View.cover_of_tiledL (kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v q1 q2 q3 (hypsB c t q1 q3 q2).1 (hypsB c t q1 q3 q2).2.1 (hypsB c t q1 q3 q2).2.2).2.2.1 S1024x128.size (by sl_kernel_rfl) y

/-! ## Path C -/
theorem coverC_o (c : Dev nD) (t : Fin cfgL.N) (p : Sc) (q1 : ¬Q1 t) (q3 : Q3 c t) (y : S1x1024x128.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).1 S1x1024x128.size (by sl_kernel_rfl) y
theorem coverC_m (c : Dev nD) (t : Fin cfgL.N) (p : Sc) (q1 : ¬Q1 t) (q3 : Q3 c t) (y : S1024x1.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.1 S1024x1.size (by sl_kernel_rfl) y
theorem coverC_l (c : Dev nD) (t : Fin cfgL.N) (p : Sc) (q1 : ¬Q1 t) (q3 : Q3 c t) (y : S1024x1.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.1 S1024x1.size (by sl_kernel_rfl) y
theorem coverC_acc (c : Dev nD) (t : Fin cfgL.N) (p : Sc) (q1 : ¬Q1 t) (q3 : Q3 c t) (y : S1024x128.Idx) :
    ∃ pc ∈ (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.2.1, y ∈ pc.1.set :=
  View.cover_of_tiledL (kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 (hypsC c t q1 q3).1 q3 (hypsC c t q1 q3).2.1 (hypsC c t q1 q3).2.2.1 (hypsC c t q1 q3).2.2.2).2.2.2.1 S1024x128.size (by sl_kernel_rfl) y

/-! ## Path D -/
theorem coverD_m (c : Dev nD) (t : Fin cfgL.N) (p : Sc) (q1 : ¬Q1 t) (q3 : ¬Q3 c t) (q2 : ¬Q2 c t) (y : S1024x1.Idx) :
    ∃ pc ∈ (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).1, y ∈ pc.1.set :=
  View.cover_of_tiledL (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).1 S1024x1.size (by sl_kernel_rfl) y
theorem coverD_l (c : Dev nD) (t : Fin cfgL.N) (p : Sc) (q1 : ¬Q1 t) (q3 : ¬Q3 c t) (q2 : ¬Q2 c t) (y : S1024x1.Idx) :
    ∃ pc ∈ (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.1, y ∈ pc.1.set :=
  View.cover_of_tiledL (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.1 S1024x1.size (by sl_kernel_rfl) y
theorem coverD_acc (c : Dev nD) (t : Fin cfgL.N) (p : Sc) (q1 : ¬Q1 t) (q3 : ¬Q3 c t) (q2 : ¬Q2 c t) (y : S1024x128.Idx) :
    ∃ pc ∈ (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.2.1, y ∈ pc.1.set :=
  View.cover_of_tiledL (kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) p.q p.k p.v p.m p.l p.acc q1 q2 q3 (hypsD c t q1 q3 q2).1 (hypsD c t q1 q3 q2).2.1 (hypsD c t q1 q3 q2).2.2).2.2.1 S1024x128.size (by sl_kernel_rfl) y

end Cert.KernelIdeal.Hand

end
-- ==== Proof.Body.lean ====
/-
  The body at a generic point. The point's path is told by the conditions; on each path the inputs' staging buffers hold
  their blocks, the invariant hands over the scratch buffers at what the point before left (at anything at the region's
  entry), the path's run applies, and each buffer the path stores comes back at its pieces read back. Off the diagonal the
  output's staging buffer is handed back as it was found; on it, with the stored block.
-/
import proofs.«413224_j16982300689021_3_alg».proof.Proof.Gen.KernelIdeal.Launch
import proofs.«413224_j16982300689021_3_alg».proof.Proof.Gen.KernelIdeal.Skeleton
import proofs.«413224_j16982300689021_3_alg».proof.Proof.Covers
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-- What the body is called with at point t: the invariant, the core's duties, each window's current staging buffer. -/
def bodyPre (c : Dev nD) (t : Fin cfgL.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- And what it returns. -/
def bodyPost (c : Dev nD) (t : Fin cfgL.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- Before a point that is not the region's first, "before" is the point before. -/
theorem prev_pos (c : Dev nD) (t : Fin cfgL.N) (hz : t.val ≠ 0) : prev m c t = traj m c (t.val - 1) (by omega) := by
  unfold prev; rw [dif_neg hz]

set_option maxHeartbeats 16000000 in
theorem sound_body (c : Dev nD) (t : Fin cfgL.N) :
    bodyPre m c t ⊢ wp frame (wpE (defs₀ (F := 𝔽)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [traj_eq m c t]
  by_cases q1 : Q1 t
  · -- a batch's first point
    rw [show (dats m 0 c).leavesExact 4 t = owns (c : Thread nD τ) (ms0_4 t) fullShare ((dats m 0 c).after 4 t) from by
      unfold Dat.leavesExact; rw [live4_of c t (hypsA c t q1).2.1], after0_4, traj_eq m c t]
    rw [step_A m c t _ q1]
    unfold outA; dsimp only
    by_cases hz : t.val = 0
    · rw [PhiS_castSucc m c t, PhiS_zero m c _ _ hz, PhiA0_eq, PhiT0_eq]
      iintro ⟨⟨⟨⟨HS0, HS1, HS2, HS3, HS4, HS5⟩, Hg⟩, ⟨HT0, HT1⟩⟩, Ho, ⟨%d0, H0⟩, ⟨%d1, H1⟩, ⟨%d2, H2⟩, ⟨%d3, H3⟩, ⟨%d4, H4⟩⟩
      iapply ((kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e8, H4⟩, HT0, HT1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg HT0 HT1]
      · isplitl [HS0 HS1 HS2 HS3 HS4 HS5]
        · isplitl [HS0]
          · unfold owns; iexists _; isplitr
            swap; · iexact HS0
            ipureintro; exact View.read_writes_of_cover _ _ _ _ _ (coverA_q m c t q1)
          isplitl [HS1]
          · unfold owns; iexists _; isplitr
            swap; · iexact HS1
            ipureintro; exact View.read_writes_of_cover _ _ _ _ _ (coverA_k m c t q1)
          isplitl [HS2]
          · unfold owns; iexists _; isplitr
            swap; · iexact HS2
            ipureintro; exact View.read_writes_of_cover _ _ _ _ _ (coverA_v m c t q1)
          isplitl [HS3]
          · unfold owns; iexists _; isplitr
            swap; · iexact HS3
            ipureintro; exact View.read_writes_of_cover _ _ _ _ _ (coverA_m m c t q1)
          isplitl [HS4]
          · unfold owns; iexists _; isplitr
            swap; · iexact HS4
            ipureintro; exact View.read_writes_of_cover _ _ _ _ _ (coverA_l m c t q1)
          · unfold owns; iexists _; isplitr
            swap; · iexact HS5
            ipureintro; exact View.read_writes_of_cover _ _ _ _ _ (coverA_acc m c t q1)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr; swap
      · iexact H4
      · ipureintro; exact View.read_writes_of_cover _ _ _ _ _ (coverA_o m c t q1)
    · rw [PhiS_castSucc m c t, PhiS_pos m c _ _ hz]
      iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
      iapply ((kernelRun0_A (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) q1 (hypsA c t q1).1 (hypsA c t q1).2.1 (hypsA c t q1).2.2.1 (hypsA c t q1).2.2.2.1 (hypsA c t q1).2.2.2.2).2.2.2.2.2.2.2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, ⟨%e8, H4⟩, HT0, HT1, ⟨%e0, HS0⟩, ⟨%e1, HS1⟩, ⟨%e2, HS2⟩, ⟨%e3, HS3⟩, ⟨%e4, HS4⟩, ⟨%e5, HS5⟩⟩
      isplitl [HS0 HS1 HS2 HS3 HS4 HS5 Hg HT0 HT1]
      · isplitl [HS0 HS1 HS2 HS3 HS4 HS5]
        · isplitl [HS0]
          · unfold owns; iexists _; isplitr
            swap; · iexact HS0
            ipureintro; exact View.read_writes_of_cover _ _ _ _ _ (coverA_q m c t q1)
          isplitl [HS1]
          · unfold owns; iexists _; isplitr
            swap; · iexact HS1
            ipureintro; exact View.read_writes_of_cover _ _ _ _ _ (coverA_k m c t q1)
          isplitl [HS2]
          · unfold owns; iexists _; isplitr
            swap; · iexact HS2
            ipureintro; exact View.read_writes_of_cover _ _ _ _ _ (coverA_v m c t q1)
          isplitl [HS3]
          · unfold owns; iexists _; isplitr
            swap; · iexact HS3
            ipureintro; exact View.read_writes_of_cover _ _ _ _ _ (coverA_m m c t q1)
          isplitl [HS4]
          · unfold owns; iexists _; isplitr
            swap; · iexact HS4
            ipureintro; exact View.read_writes_of_cover _ _ _ _ _ (coverA_l m c t q1)
          · unfold owns; iexists _; isplitr
            swap; · iexact HS5
            ipureintro; exact View.read_writes_of_cover _ _ _ _ _ (coverA_acc m c t q1)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr; swap
      · iexact H4
      · ipureintro; exact View.read_writes_of_cover _ _ _ _ _ (coverA_o m c t q1)
  · have hz : t.val ≠ 0 := fun h => q1 (Q1_zero t h)
    rw [PhiS_castSucc m c t, PhiS_pos m c _ _ hz, ← prev_pos m c t hz]
    by_cases q3 : Q3 c t
    · -- a later diagonal tile
      rw [show (dats m 0 c).leavesExact 4 t = owns (c : Thread nD τ) (ms0_4 t) fullShare ((dats m 0 c).after 4 t) from by
        unfold Dat.leavesExact; rw [live4_of c t q3], after0_4, traj_eq m c t]
      rw [step_C m c t _ q1 q3]
      unfold outC; dsimp only
      iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
      iapply ((kernelRun0_C (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) (prev m c t).q (prev m c t).k (prev m c t).v (prev m c t).m (prev m c t).l (prev m c t).acc q1 (hypsC c t q1 q3).1 q3 (hypsC c t q1 q3).2.1 (hypsC c t q1 q3).2.2.1 (hypsC c t q1 q3).2.2.2).2.2.2.2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%e8, H4⟩, HT0, HT1, HS0, HS1, HS2, ⟨%e3, HS3⟩, ⟨%e4, HS4⟩, ⟨%e5, HS5⟩⟩
      isplitl [HS0 HS1 HS2 HS3 HS4 HS5 Hg HT0 HT1]
      · isplitl [HS0 HS1 HS2 HS3 HS4 HS5]
        · isplitl [HS0]; · iexact HS0
          isplitl [HS1]; · iexact HS1
          isplitl [HS2]; · iexact HS2
          isplitl [HS3]
          · unfold owns; iexists _; isplitr
            swap; · iexact HS3
            ipureintro; exact View.read_writes_of_cover _ _ _ _ _ (coverC_m m c t (prev m c t) q1 q3)
          isplitl [HS4]
          · unfold owns; iexists _; isplitr
            swap; · iexact HS4
            ipureintro; exact View.read_writes_of_cover _ _ _ _ _ (coverC_l m c t (prev m c t) q1 q3)
          · unfold owns; iexists _; isplitr
            swap; · iexact HS5
            ipureintro; exact View.read_writes_of_cover _ _ _ _ _ (coverC_acc m c t (prev m c t) q1 q3)
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr; swap
      · iexact H4
      · ipureintro; exact View.read_writes_of_cover _ _ _ _ _ (coverC_o m c t (prev m c t) q1 q3)
    · rw [Dat.leavesExact_idle (dats m 0 c) 4 t (idle4_of c t q3) (noFlush4_of c t q3)]
      simp only [before0_4]
      by_cases q2 : Q2 c t
      · -- a query tile's first key tile, below the diagonal
        rw [step_B m c t _ q1 q3 q2]
        unfold outB; dsimp only
        iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
        iapply ((kernelRun0_B (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) (prev m c t).q (prev m c t).k (prev m c t).v q1 q2 q3 (hypsB c t q1 q3 q2).1 (hypsB c t q1 q3 q2).2.1 (hypsB c t q1 q3 q2).2.2).2.2.2 d4 Set.univ _)
        isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [HS0]; · iexact HS0
        isplitl [HS1]; · iexact HS1
        isplitl [HS2]; · iexact HS2
        isplitl [HS3]; · iexists _; iexact HS3
        isplitl [HS4]; · iexists _; iexact HS4
        isplitl [HS5]; · iexists _; iexact HS5
        iintro ⟨H0, H1, H2, H3, H4, HT0, HT1, HS0, HS1, HS2, ⟨%e3, HS3⟩, ⟨%e4, HS4⟩, ⟨%e5, HS5⟩⟩
        isplitl [HS0 HS1 HS2 HS3 HS4 HS5 Hg HT0 HT1]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (coverB_m m c t (prev m c t) q1 q3 q2)
            isplitl [HS4]
            · unfold owns; iexists _; isplitr
              swap; · iexact HS4
              ipureintro; exact View.read_writes_of_cover _ _ _ _ _ (coverB_l m c t (prev m c t) q1 q3 q2)
            · unfold owns; iexists _; isplitr
              swap; · iexact HS5
              ipureintro; exact View.read_writes_of_cover _ _ _ _ _ (coverB_acc m c t (prev m c t) q1 q3 q2)
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4
      · -- a later tile below the diagonal
        rw [step_D m c t _ q1 q3 q2]
        unfold outD; dsimp only
        iintro ⟨⟨⟨HS0, HS1, HS2, HS3, HS4, HS5⟩, Hg, HT0, HT1⟩, Ho, ⟨%d0, H0⟩, ⟨%d1, H1⟩, ⟨%d2, H2⟩, ⟨%d3, H3⟩, ⟨%d4, H4⟩⟩
        iapply ((kernelRun0_D (F := 𝔽) c (crd t) (ms0_0 t) (hs0_0 t) (ms0_1 t) (hs0_1 t) (ms0_2 t) (hs0_2 t) (ms0_3 t) (hs0_3 t) (ms0_4 t) (hs0_4 t) (xtq c) (xtk c) (iblk m c 0 t) (iblk m c 1 t) (iblk m c 2 t) (iblk m c 3 t) (prev m c t).q (prev m c t).k (prev m c t).v (prev m c t).m (prev m c t).l (prev m c t).acc q1 q2 q3 (hypsD c t q1 q3 q2).1 (hypsD c t q1 q3 q2).2.1 (hypsD c t q1 q3 q2).2.2).2.2.2 d4 Set.univ _)
        isplitl [H0]; · iexact H0
        isplitl [H1]; · iexact H1
        isplitl [H2]; · iexact H2
        isplitl [H3]; · iexact H3
        isplitl [H4]; · iexact H4
        isplitl [HT0]; · iexact HT0
        isplitl [HT1]; · iexact HT1
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, HT0, HT1, HS0, HS1, HS2, ⟨%e3, HS3⟩, ⟨%e4, HS4⟩, ⟨%e5, HS5⟩⟩
        isplitl [HS0 HS1 HS2 HS3 HS4 HS5 Hg HT0 HT1]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (coverD_m m c t (prev m c t) q1 q3 q2)
            isplitl [HS4]
            · unfold owns; iexists _; isplitr
              swap; · iexact HS4
              ipureintro; exact View.read_writes_of_cover _ _ _ _ _ (coverD_l m c t (prev m c t) q1 q3 q2)
            · unfold owns; iexists _; isplitr
              swap; · iexact HS5
              ipureintro; exact View.read_writes_of_cover _ _ _ _ _ (coverD_acc m c t (prev m c t) q1 q3 q2)
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats m 0 c) (defs₀ (F := 𝔽)) Variants.none () Set.univ := fun t => by
  rw [bigSep_W0, bigSep_W0]
  exact sound_body m c t

end Cert.KernelIdeal.Hand

end
-- ==== Proof.Launch.lean ====
/-
  The launch. What the region hands the body at its entry is the invariant before the first point; after the last point the
  invariant gives the scratch buffers back, their contents forgotten, and lets the tables' halves go. With the body
  obligation at every point this is the region's run: every weakly fair execution of @main terminates without a fault,
  the output array ends at what the written-back blocks make of it, and every other buffer outside the region's scope is
  as the region found it — in particular the four argument arrays, which no host operation wrote.
-/
import proofs.«413224_j16982300689021_3_alg».proof.Proof.Gen.KernelIdeal.Launch
import proofs.«413224_j16982300689021_3_alg».proof.Proof.Gen.KernelIdeal.Skeleton
import proofs.«413224_j16982300689021_3_alg».proof.Proof.Body
import Idealize.ShloMosaic.Lib.Pipeline.Frame
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-- What the launch hands the region is the invariant before the first point. -/
theorem hin (c : Dev nD) : iprop(Pipeline.ΦA spec0 c ∗ Pipeline.ΦT pre0 aL.1 c) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch contents forgotten, the tables let go. -/
theorem hout (c : Dev nD) : (dats m 0 c).Φ (Fin.last cfgL.N) ⊢ Pipeline.ΦA spec0 c := by
  rw [show (dats m 0 c).Φ (Fin.last cfgL.N) = PhiS m c (Fin.last cfgL.N).val (Nat.le_of_lt_succ (Fin.last cfgL.N).isLt) from rfl,
    PhiS_pos m c _ _ (by rw [Fin.val_last]; have : cfgL.N = 40 := N_0; omega), PhiA0_eq]
  iintro ⟨⟨HS0, HS1, HS2, HS3, HS4, HS5⟩, Hg, -, -⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The region's run. -/
theorem run_main : θ_run defs (onTc (τ := τ) (main (F := 𝔽))) (s₀ m ρ) (Pipeline.FramePost (Pipeline.pin pcfgs fun _ => aL) (dats m) 0 (V m)) :=
  Pipeline.θ_run_frameP_track pcfgs (fun _ => aL) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The frame: the program runs and its four argument arrays end as launched. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ)

end Cert.KernelIdeal.Hand

end
-- ==== Proof.Points.lean ====
/-
  The grid's points in closed form, the tables pinned. Point t belongs to batch t / 10; its query tile and key tile are the
  t mod 10-th of the ten pairs (0,0), (1,0), (1,1), (2,0), (2,1), (2,2), (3,0), …, (3,3). A batch's first point is where
  t mod 10 = 0; a query tile's first key tile is where the key tile is 0; the diagonal is where the two are equal; and
  away from a first key tile the point before has the same query tile and batch and the key tile one less.
-/
import proofs.«413224_j16982300689021_3_alg».proof.Proof.Gen.KernelIdeal.Launch
import proofs.«413224_j16982300689021_3_alg».proof.Proof.Gen.KernelIdeal.Skeleton
import proofs.«413224_j16982300689021_3_alg».proof.Proof.Data
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

/-- Every closed-form fact about point t. -/
abbrev ClosedAt (c : Dev nD) (t : Fin cfgL.N) : Prop :=
  (wqL c t).toNat < 4 ∧ (wkL c t).toNat < 4
  ∧ (wkL c t).toNat ≤ (wqL c t).toNat
  ∧ (Q1 t ↔ t.val % 10 = 0)
  ∧ (Q2 c t ↔ (wkL c t).toNat = 0)
  ∧ (Q3 c t ↔ wkL c t = wqL c t)
  ∧ ((crd t 0).val = t.val / 10)
  ∧ (¬Q2 c t → ∃ h : 0 < t.val, (wqL c ⟨t.val - 1, by omega⟩).toNat = (wqL c t).toNat ∧ (wkL c ⟨t.val - 1, by omega⟩).toNat + 1 = (wkL c t).toNat ∧ (t.val - 1) / 10 = t.val / 10 ∧ ¬Q3 c ⟨t.val - 1, by omega⟩)
  ∧ (¬Q1 t → ∃ h : 0 < t.val, (t.val - 1) / 10 = t.val / 10)
  ∧ (∀ a, (cfgL.win 4).index t a = (![t.val / 10, (wqL c t).toNat, 0] : Fin 3 → ℕ) a)
  ∧ (∀ a, (cfgL.win 0).index t a = (![t.val / 10, 0, 0] : Fin 3 → ℕ) a)

theorem allClosed0 : ∀ t : Fin cfgL.N, ClosedAt 0 t := by decide +kernel

theorem allClosed (c : Dev nD) (t : Fin cfgL.N) : ClosedAt c t := by
  obtain rfl : c = 0 := Subsingleton.elim _ _
  exact allClosed0 t

theorem wq_lt (c : Dev nD) (t : Fin cfgL.N) : (wqL c t).toNat < 4 := (allClosed c t).1
theorem wk_lt (c : Dev nD) (t : Fin cfgL.N) : (wkL c t).toNat < 4 := (allClosed c t).2.1
theorem wk_le_wq (c : Dev nD) (t : Fin cfgL.N) : (wkL c t).toNat ≤ (wqL c t).toNat := (allClosed c t).2.2.1
theorem Q1_iff (c : Dev nD) (t : Fin cfgL.N) : Q1 t ↔ t.val % 10 = 0 := (allClosed c t).2.2.2.1
theorem Q2_iff (c : Dev nD) (t : Fin cfgL.N) : Q2 c t ↔ (wkL c t).toNat = 0 := (allClosed c t).2.2.2.2.1
theorem Q3_iff (c : Dev nD) (t : Fin cfgL.N) : Q3 c t ↔ wkL c t = wqL c t := (allClosed c t).2.2.2.2.2.1
theorem batch_eq (c : Dev nD) (t : Fin cfgL.N) : (crd t 0).val = t.val / 10 := (allClosed c t).2.2.2.2.2.2.1
theorem pred_of_not_first (c : Dev nD) (t : Fin cfgL.N) (h2 : ¬Q2 c t) :
    ∃ h : 0 < t.val, (wqL c ⟨t.val - 1, by omega⟩).toNat = (wqL c t).toNat ∧ (wkL c ⟨t.val - 1, by omega⟩).toNat + 1 = (wkL c t).toNat ∧ (t.val - 1) / 10 = t.val / 10 ∧ ¬Q3 c ⟨t.val - 1, by omega⟩ :=
  (allClosed c t).2.2.2.2.2.2.2.1 h2
theorem pred_batch (c : Dev nD) (t : Fin cfgL.N) (h1 : ¬Q1 t) : ∃ h : 0 < t.val, (t.val - 1) / 10 = t.val / 10 :=
  (allClosed c t).2.2.2.2.2.2.2.2.1 h1
theorem index4 (c : Dev nD) (t : Fin cfgL.N) : ∀ a, (cfgL.win 4).index t a = (![t.val / 10, (wqL c t).toNat, 0] : Fin 3 → ℕ) a :=
  (allClosed c t).2.2.2.2.2.2.2.2.2.1
theorem index0 (c : Dev nD) (t : Fin cfgL.N) : ∀ a, (cfgL.win 0).index t a = (![t.val / 10, 0, 0] : Fin 3 → ℕ) a :=
  (allClosed c t).2.2.2.2.2.2.2.2.2.2

end Cert.KernelIdeal.Hand

end
-- ==== Proof.Spec.lean ====
/-
  The two programs as functions of the argument arrays, over the extended reals, index by index.

  Inputs: x[b, t, c] (4 × 4096 × 128) and three 128 × 128 weight matrices. Both programs form the projections
  q = x·Wq, k = x·Wk, v = x·Wv and, for a query row t of batch b, the causal softmax-weighted sum of the value rows:
  with scores s(t, s') = (q_t · k_s')·σ for s' ≤ t (and −∞ for s' > t), M the row maximum, e = exp(s − M), L = Σ e,
  the result is Σ_s' (e_s' / L) · v_s'.

  The reference computes exactly that (`refOut`). The kernel folds σ into q, walks the key rows in tiles of 1024 and
  keeps, per query row, a running maximum m, a running denominator l and a running numerator acc, rescaling the old
  l and acc by exp(m_old − m_new) whenever the maximum moves (`St.upd`); only the diagonal tile is masked. Its result is
  acc / l after the last visible tile (`kerOut`).
-/
import Idealize.ShloMosaic.PureOps.Ideal
import Idealize.ShloMosaic.Lib.ValueIdx

noncomputable section

open scoped BigOperators

namespace Cert.Spec

open Idealize.ShloMosaic

/-- An activation array by coordinates. -/
abbrev Act := Fin 4 → Fin 4096 → Fin 128 → EReal
/-- A weight matrix by coordinates. -/
abbrev Wt := Fin 128 → Fin 128 → EReal

/-- The softmax scale both programs multiply by: one and the same single-precision word. -/
def σ : EReal := Ideal.ofBits .f32 0x3DB504F3#32

/-- A projection: row t of x times the weight matrix. -/
def proj (x : Act) (w : Wt) (b : Fin 4) (t : Fin 4096) (d : Fin 128) : EReal := ∑ c : Fin 128, x b t c * w c d

/-- The maximum of finitely many extended reals, as the fold of `max` from −∞. -/
def rowMax {n : ℕ} (f : Fin n → EReal) : EReal := (Finset.univ : Finset (Fin n)).fold max ⊥ f

/-! ## The reference -/

/-- The scaled score of query row t against key row s. -/
def refScore (x : Act) (wq wk : Wt) (b : Fin 4) (t s : Fin 4096) : EReal :=
  (∑ d : Fin 128, proj x wq b t d * proj x wk b s d) * σ

/-- The causal mask: keys after the query are −∞. -/
def refMasked (x : Act) (wq wk : Wt) (b : Fin 4) (t s : Fin 4096) : EReal :=
  if s.val ≤ t.val then refScore x wq wk b t s else ⊥

/-- The row maximum of the masked scores. -/
def refMax (x : Act) (wq wk : Wt) (b : Fin 4) (t : Fin 4096) : EReal := rowMax (refMasked x wq wk b t)

/-- The unnormalised softmax weights. -/
def refE (x : Act) (wq wk : Wt) (b : Fin 4) (t s : Fin 4096) : EReal :=
  Ideal.exp (refMasked x wq wk b t s - refMax x wq wk b t)

/-- The softmax denominator. -/
def refL (x : Act) (wq wk : Wt) (b : Fin 4) (t : Fin 4096) : EReal := ∑ s : Fin 4096, refE x wq wk b t s

/-- The reference's result: the softmax weights times the value rows. -/
def refOut (x : Act) (wq wk wv : Wt) (b : Fin 4) (t : Fin 4096) (d : Fin 128) : EReal :=
  ∑ s : Fin 4096, Ideal.div (refE x wq wk b t s) (refL x wq wk b t) * proj x wv b s d

/-! ## The kernel -/

/-- Row r of tile j (tiles of 1024 rows; the tile number is read modulo 4). -/
def row (j : ℕ) (r : Fin 1024) : Fin 4096 := ⟨(j % 4) * 1024 + r.val, by have := r.isLt; have := Nat.mod_lt j (by norm_num : 0 < 4); omega⟩

/-- The running state of the online softmax for one tile of 1024 query rows. -/
structure St where
  m : Fin 1024 → EReal
  l : Fin 1024 → EReal
  acc : Fin 1024 → Fin 128 → EReal

/-- Before any key tile: maximum −∞, denominator and numerator zero. -/
def St.init : St := ⟨fun _ => ⊥, fun _ => 0, fun _ _ => 0⟩

/-- One key tile with scores S (query row r against key row s of the tile) and value rows V. -/
def St.upd (S : Fin 1024 → Fin 1024 → EReal) (V : Fin 1024 → Fin 128 → EReal) (st : St) : St where
  m r := max (st.m r) (rowMax (S r))
  l r := Ideal.exp (st.m r - max (st.m r) (rowMax (S r))) * st.l r
    + ∑ s : Fin 1024, Ideal.exp (S r s - max (st.m r) (rowMax (S r)))
  acc r d := Ideal.exp (st.m r - max (st.m r) (rowMax (S r))) * st.acc r d
    + ∑ s : Fin 1024, Ideal.exp (S r s - max (st.m r) (rowMax (S r))) * V s d

/-- The kernel's query projection, with the scale folded in. -/
def kq (x : Act) (wq : Wt) (b : Fin 4) (t : Fin 4096) (d : Fin 128) : EReal := proj x wq b t d * σ

/-- The score tile of query tile qi against key tile ki. -/
def tileS (x : Act) (wq wk : Wt) (b : Fin 4) (qi ki : ℕ) (r s : Fin 1024) : EReal :=
  ∑ d : Fin 128, kq x wq b (row qi r) d * proj x wk b (row ki s) d

/-- The diagonal tile, masked: within the tile, key s is visible to query r when s ≤ r. -/
def tileSm (x : Act) (wq wk : Wt) (b : Fin 4) (qi : ℕ) (r s : Fin 1024) : EReal :=
  if s.val ≤ r.val then tileS x wq wk b qi qi r s else ⊥

/-- The value rows of key tile ki. -/
def tileV (x : Act) (wv : Wt) (b : Fin 4) (ki : ℕ) (s : Fin 1024) (d : Fin 128) : EReal := proj x wv b (row ki s) d

/-- The state of query tile qi after its first n key tiles (tiles 0 … n−1; tile qi is the diagonal one). -/
def kst (x : Act) (wq wk wv : Wt) (b : Fin 4) (qi : ℕ) : ℕ → St
  | 0 => St.init
  | n + 1 => St.upd (if n = qi then tileSm x wq wk b qi else tileS x wq wk b qi n) (tileV x wv b n) (kst x wq wk wv b qi n)

/-- The kernel's result for row r of query tile qi: numerator over denominator after the diagonal tile. -/
def kerOut (x : Act) (wq wk wv : Wt) (b : Fin 4) (qi : ℕ) (r : Fin 1024) (d : Fin 128) : EReal :=
  Ideal.div ((kst x wq wk wv b qi (qi + 1)).acc r d) ((kst x wq wk wv b qi (qi + 1)).l r)

/-- An activation array read by coordinates. -/
def actOf (x : (⟨3, ![4, 4096, 128]⟩ : Shape).Idx → EReal) : Act := fun b t c => x (ValueIdx.ix3 b t c)
/-- A weight matrix read by coordinates. -/
def wtOf (w : (⟨2, ![128, 128]⟩ : Shape).Idx → EReal) : Wt := fun c d => w (ValueIdx.ix2 c d)

/-- Every entry is a real number. -/
def ActFinite (x : Act) : Prop := ∀ b t c, ∃ r : ℝ, x b t c = (r : EReal)
def WtFinite (w : Wt) : Prop := ∀ c d, ∃ r : ℝ, w c d = (r : EReal)

end Cert.Spec

end
-- ==== Proof.BlockReads.lean ====
/-
  The input windows' blocks by coordinates. A point of batch b is handed all 4096 rows of batch b of x, and the three weight
  matrices whole (narrowed on the host, which changes nothing at the ideal instance).
-/
import proofs.«413224_j16982300689021_3_alg».proof.Proof.Gen.KernelIdeal.Launch
import proofs.«413224_j16982300689021_3_alg».proof.Proof.Gen.KernelIdeal.Skeleton
import proofs.«413224_j16982300689021_3_alg».proof.Proof.Points
import proofs.«413224_j16982300689021_3_alg».proof.Proof.Spec
import Idealize.ShloMosaic.Lib.ValueIdx
import Idealize.ShloMosaic.Lib.Pipeline.Value
import Idealize.ShloMosaic.Lib.StableHlo.Run
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

open Idealize.ShloMosaic.ValueIdx Cert.Spec

variable (m : (ℓ : Loc nD τ sig) → Buf (Elt 𝔽) ℓ)

/-- The point's batch. -/
def bat (t : Fin cfgL.N) : Fin 4 := ⟨t.val / 10, by have := t.isLt; have : cfgL.N = 40 := N_0; omega⟩

/-- The argument arrays by coordinates. -/
def Xa (c : Dev nD) : Act := actOf (m ((c.tc : Thread nD τ).loc main_arg0))
def Wqa (c : Dev nD) : Wt := wtOf (m ((c.tc : Thread nD τ).loc main_arg1))
def Wka (c : Dev nD) : Wt := wtOf (m ((c.tc : Thread nD τ).loc main_arg2))
def Wva (c : Dev nD) : Wt := wtOf (m ((c.tc : Thread nD τ).loc main_arg3))

/-- The narrowed weight matrices as the region finds them. -/
theorem V_main_v0 (c : Dev nD) : V m c main_v0 = truncf (F := 𝔽) .bf16 (m ((c : Thread nD τ).loc main_arg1) : FVec 𝔽 S128x128 .f32) bitsLt_bf16_f32 := by
  show StableHlo.after (hostOps0 (F := 𝔽)) (fun b => m (c, b)) (Proc.devRef .tc main_v0) = _; after_results; try rfl
theorem V_main_v1 (c : Dev nD) : V m c main_v1 = truncf (F := 𝔽) .bf16 (m ((c : Thread nD τ).loc main_arg2) : FVec 𝔽 S128x128 .f32) bitsLt_bf16_f32 := by
  show StableHlo.after (hostOps0 (F := 𝔽)) (fun b => m (c, b)) (Proc.devRef .tc main_v1) = _; after_results; try rfl
theorem V_main_v2 (c : Dev nD) : V m c main_v2 = truncf (F := 𝔽) .bf16 (m ((c : Thread nD τ).loc main_arg3) : FVec 𝔽 S128x128 .f32) bitsLt_bf16_f32 := by
  show StableHlo.after (hostOps0 (F := 𝔽)) (fun b => m (c, b)) (Proc.devRef .tc main_v2) = _; after_results; try rfl

/-- The x block of a point: the rows of the point's batch. -/
theorem iblk0_apply (c : Dev nD) (t : Fin cfgL.N) (r : Fin 4096) (e : Fin 128) :
    iblk m c 0 t (ix3 0 r e) = Xa m c (bat t) r e := by
  have h0 : (cfgL.win 0).index t 0 = t.val / 10 := index0 c t 0
  have h1 : (cfgL.win 0).index t 1 = 0 := index0 c t 1
  have h2 : (cfgL.win 0).index t 2 = 0 := index0 c t 2
  show V m c main_arg0 (((cfgL.win 0).blk t).view.emb (ix3 0 r e)) = m ((c.tc : Thread nD τ).loc main_arg0) (ix3 (bat t) r e)
  rw [V_main_arg0]
  refine congrArg _ ?_
  funext a; apply Fin.ext
  match a with
  | ⟨0, _⟩ => show (cfgL.win 0).index t 0 * 1 + 1 * 0 = t.val / 10; omega
  | ⟨1, _⟩ => show (cfgL.win 0).index t 1 * 4096 + 1 * r.val = r.val; omega
  | ⟨2, _⟩ => show (cfgL.win 0).index t 2 * 128 + 1 * e.val = e.val; omega

/-- The weight blocks: the matrices whole. -/
theorem iblk1_apply (c : Dev nD) (t : Fin cfgL.N) (a b : Fin 128) : iblk m c 1 t (ix2 a b) = Wqa m c a b := by
  show V m c main_v0 (((cfgL.win 1).blk t).view.emb (ix2 a b)) = m ((c.tc : Thread nD τ).loc main_arg1) (ix2 a b)
  rw [V_main_v0]
  show m ((c.tc : Thread nD τ).loc main_arg1) (((cfgL.win 1).blk t).view.emb (ix2 a b)) = _
  refine congrArg _ ?_
  funext k; apply Fin.ext
  match k with
  | ⟨0, _⟩ => show 0 * 128 + 1 * a.val = a.val; omega
  | ⟨1, _⟩ => show 0 * 128 + 1 * b.val = b.val; omega
theorem iblk2_apply (c : Dev nD) (t : Fin cfgL.N) (a b : Fin 128) : iblk m c 2 t (ix2 a b) = Wka m c a b := by
  show V m c main_v1 (((cfgL.win 2).blk t).view.emb (ix2 a b)) = m ((c.tc : Thread nD τ).loc main_arg2) (ix2 a b)
  rw [V_main_v1]
  show m ((c.tc : Thread nD τ).loc main_arg2) (((cfgL.win 2).blk t).view.emb (ix2 a b)) = _
  refine congrArg _ ?_
  funext k; apply Fin.ext
  match k with
  | ⟨0, _⟩ => show 0 * 128 + 1 * a.val = a.val; omega
  | ⟨1, _⟩ => show 0 * 128 + 1 * b.val = b.val; omega
theorem iblk3_apply (c : Dev nD) (t : Fin cfgL.N) (a b : Fin 128) : iblk m c 3 t (ix2 a b) = Wva m c a b := by
  show V m c main_v2 (((cfgL.win 3).blk t).view.emb (ix2 a b)) = m ((c.tc : Thread nD τ).loc main_arg3) (ix2 a b)
  rw [V_main_v2]
  show m ((c.tc : Thread nD τ).loc main_arg3) (((cfgL.win 3).blk t).view.emb (ix2 a b)) = _
  refine congrArg _ ?_
  funext k; apply Fin.ext
  match k with
  | ⟨0, _⟩ => show 0 * 128 + 1 * a.val = a.val; omega
  | ⟨1, _⟩ => show 0 * 128 + 1 * b.val = b.val; omega

end Cert.KernelIdeal.Hand

end
-- ==== Proof.Tile.lean ====
/-
  A tile of a projection: rows n·1024 … n·1024 + 1023 of a 4096 × 128 array.
-/
import proofs.«413224_j16982300689021_3_alg».proof.Proof.Gen.KernelIdeal.Launch
import proofs.«413224_j16982300689021_3_alg».proof.Proof.Gen.KernelIdeal.Skeleton
import proofs.«413224_j16982300689021_3_alg».proof.Proof.Data
import proofs.«413224_j16982300689021_3_alg».proof.Proof.Spec
import Idealize.ShloMosaic.Lib.ValueIdx
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

open Idealize.ShloMosaic.ValueIdx

/-- Rows of tile n of X. -/
def tileRows (X : Vec 𝔽 S4096x128 .bf16) (n : ℕ) : Vec 𝔽 S1024x128 .bf16 :=
  fun y => X (ix2 (Cert.Spec.row n ⟨(y 0).val, (y 0).isLt⟩) ⟨(y 1).val, (y 1).isLt⟩)

theorem tileRows_apply (X : Vec 𝔽 S4096x128 .bf16) (n : ℕ) (r : Fin 1024) (d : Fin 128) :
    tileRows X n (ix2 r d) = X (ix2 (Cert.Spec.row n r) d) := rfl

end Cert.KernelIdeal.Hand

end
-- ==== Proof.PiecesAB.lean ====
/-
  What the two first paths leave in the buffers, as the body's payloads: at a batch's first point the three projections of the
  batch's rows, then — from the reset state — the running maximum, denominator and numerator after the masked diagonal
  tile, and the output block; at a query tile's first key tile below the diagonal, from the reset state, the running
  maximum, denominator and numerator after the unmasked tile.
-/
import proofs.«413224_j16982300689021_3_alg».proof.Proof.Gen.KernelIdeal.Launch
import proofs.«413224_j16982300689021_3_alg».proof.Proof.Gen.KernelIdeal.Skeleton
import proofs.«413224_j16982300689021_3_alg».proof.Proof.Covers
import proofs.«413224_j16982300689021_3_alg».proof.Proof.Points
import proofs.«413224_j16982300689021_3_alg».proof.Proof.Tile
import Idealize.ShloMosaic.Lib.Pipeline.FrameBody
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

open Idealize.ShloMosaic.ValueIdx

variable (m : (ℓ : Loc nD τ sig) → Buf (Elt 𝔽) ℓ)

/-! ## The tile loads: offsets and rows -/

namespace AB

theorem hz2 : (![0, 0] : Fin 2 → Nat) = fun _ => 0 := funext fun a => by fin_cases a <;> rfl

/-- For a tile number below 4, the 32-bit product by 1024 does not wrap. -/
theorem mul1024_toNat (v : BitVec 32) (hv : v.toNat < 4) : (v * 1024#32).toNat = v.toNat * 1024 := by
  rw [BitVec.toNat_mul]
  exact Nat.mod_eq_of_lt (by simp; omega)

/-- The query tile's row offset: tile number times 1024, column offset 0. -/
theorem off2_eq (v : BitVec 32) (hv : v.toNat < 4) : k0_off2 v = ![v.toNat * 1024, 0] := by
  unfold k0_off2
  dsimp only
  unfold Scalar.indexCast Scalar.muli IntOp.muli
  rw [mul1024_toNat v hv]

/-- The key tile's row offset: tile number times 1024, column offset 0. -/
theorem off3_eq (v : BitVec 32) (hv : v.toNat < 4) : k0_off3 v = ![v.toNat * 1024, 0] := by
  unfold k0_off3
  dsimp only
  unfold Scalar.indexCast Scalar.muli IntOp.muli
  rw [mul1024_toNat v hv]

/-- A load of 1024 rows from row n·1024 of a 4096 × 128 array reads tile n of it. -/
theorem ld_tile (X : Vec 𝔽 S4096x128 .bf16) (off : Fin 2 → Nat) (n : ℕ) (hn : n < 4) (hoff : off = ![n * 1024, 0])
    (inb : ∀ a, off a + S1024x128.size a ≤ S4096x128.size a) :
    View.ld X (Rect.unit (s := S4096x128) off S1024x128.size inb) = tileRows X n := by
  subst hoff
  funext y
  show X _ = X _
  congr 1
  funext a
  apply Fin.ext
  match a with
  | ⟨0, _⟩ =>
    show n * 1024 + 1 * (y 0).val = (n % 4) * 1024 + (y 0).val
    rw [Nat.mod_eq_of_lt hn, Nat.one_mul]
  | ⟨1, _⟩ =>
    show 0 + 1 * (y 1).val = (y 1).val
    rw [Nat.zero_add, Nat.one_mul]

/-- The same through a whole scratch buffer held at contents X. -/
theorem readAt_tile {M : Memref sig .tc .vmem S4096x128 .bf16} (hM : M.IsWhole) (X : Vec 𝔽 S4096x128 .bf16)
    (off : Fin 2 → Nat) (n : ℕ) (hn : n < 4) (hoff : off = ![n * 1024, 0])
    (inb : ∀ a, off a + S1024x128.size a ≤ S4096x128.size a) :
    M.view.readAt (Elt 𝔽) (Rect.unit (s := S4096x128) off S1024x128.size inb).toLoadRect (hM.unread X) = tileRows X n := by
  rw [View.readAt_eq_ld, hM.read_unread]
  exact ld_tile X off n hn hoff inb

/-- A function of three arguments at equal arguments. -/
theorem congr3 {α β γ δ : Type} (f : α → β → γ → δ) {a a' : α} {b b' : β} {g g' : γ} (ha : a = a') (hb : b = b') (hg : g = g') :
    f a b g = f a' b' g' := by subst ha hb hg; rfl

theorem hz3 : (![0, 0, 0] : Fin 3 → Nat) = fun _ => 0 := funext fun a => by fin_cases a <;> rfl

/-- The same through any view of a 4096 × 128 buffer, of whatever contents: tile n of what the view reads. -/
theorem readAt_tile_read (V : View sig .tc .vmem S4096x128 .bf16) (f : V.ty.Contents (Elt 𝔽))
    (off : Fin 2 → Nat) (n : ℕ) (hn : n < 4) (hoff : off = ![n * 1024, 0])
    (inb : ∀ a, off a + S1024x128.size a ≤ S4096x128.size a) :
    V.readAt (Elt 𝔽) (Rect.unit (s := S4096x128) off S1024x128.size inb).toLoadRect f = tileRows (V.read (Elt 𝔽) f) n := by
  rw [View.readAt_eq_ld]
  exact ld_tile _ off n hn hoff inb

/-- A load of a whole buffer held at contents X, through the whole-shape rectangle at zero offsets, reads X. -/
theorem readAt_whole {S : Shape} {e : EltTy} {M : Memref sig .tc .vmem S e} (hM : M.IsWhole) (X : Vec 𝔽 S e)
    (off : Fin S.rank → Nat) (hz : off = fun _ => 0) (inb : ∀ a, off a + S.size a ≤ S.size a) :
    M.view.readAt (Elt 𝔽) (Rect.unit off S.size inb).toLoadRect (hM.unread X) = X := by
  rw [View.readAt_eq_ld, hM.read_unread]
  exact View.ld_unit_zero hz inb X

/-- What a whole-buffer load reads after a list of stores whose LAST store was whole is what the buffer then holds:
    both are that last store's payload. -/
theorem readCov_cons_eq_read_writes {S : Shape} {e : EltTy} (V : View sig .tc .vmem S e) {off : Fin S.rank → Nat}
    (hz : off = fun _ => 0) (inb : ∀ a, off a + S.size a ≤ S.size a) (w : S.Idx → Elt 𝔽 e)
    (L : List (View.Piece (Elt 𝔽) S e)) (f : V.ty.Contents (Elt 𝔽)) :
    V.readCov ((⟨Rect.unit off S.size inb, w⟩ : View.Piece (Elt 𝔽) S e) :: L) (Rect.unit off S.size inb).toLoadRect
      = V.read (Elt 𝔽) (V.writes (Elt 𝔽) f ((⟨Rect.unit off S.size inb, w⟩ : View.Piece (Elt 𝔽) S e) :: L)) := by
  have hcov : ∀ y, ∃ p ∈ ((⟨Rect.unit off S.size inb, w⟩ : View.Piece (Elt 𝔽) S e) :: L), y ∈ p.1.set :=
    fun y => ⟨_, List.mem_cons_self, View.mem_set_unit_zero hz inb y⟩
  rw [View.readCov_eq_canon_ld _ _ _ hcov, View.read_writes_eq_canon _ _ _ hcov, View.canon_cons_unit_zero hz inb,
    View.ld_unit_zero hz inb]

end AB

/-! ## A batch's first point -/

theorem outA_q (c : Dev nD) (t : Fin cfgL.N) (q1 : Q1 t) : (outA m c t q1).q = k0_pay2 (F := 𝔽) (iblk m c 0 t) (iblk m c 1 t) := by
  unfold outA
  dsimp only
  rw [View.read_writes_eq_canon _ _ _ (coverA_q m c t q1)]
  unfold kernelRun0_A
  dsimp only
  sl_unfold_run_names
  rw [View.canon_unit_zero (S := S4096x128) AB.hz2]
  exact congrArg₂ (fun a b => k0_pay2 (F := 𝔽) a b)
    (AB.readAt_whole (hs0_0 t) (iblk m c 0 t) _ AB.hz3 _)
    (AB.readAt_whole (hs0_1 t) (iblk m c 1 t) _ AB.hz2 _)
theorem outA_k (c : Dev nD) (t : Fin cfgL.N) (q1 : Q1 t) : (outA m c t q1).k = k0_pay3 (F := 𝔽) (iblk m c 0 t) (iblk m c 2 t) := by
  unfold outA
  dsimp only
  rw [View.read_writes_eq_canon _ _ _ (coverA_k m c t q1)]
  unfold kernelRun0_A
  dsimp only
  sl_unfold_run_names
  rw [View.canon_unit_zero (S := S4096x128) AB.hz2]
  exact congrArg₂ (fun a b => k0_pay3 (F := 𝔽) a b)
    (AB.readAt_whole (hs0_0 t) (iblk m c 0 t) _ AB.hz3 _)
    (AB.readAt_whole (hs0_2 t) (iblk m c 2 t) _ AB.hz2 _)
theorem outA_v (c : Dev nD) (t : Fin cfgL.N) (q1 : Q1 t) : (outA m c t q1).v = k0_pay4 (F := 𝔽) (iblk m c 0 t) (iblk m c 3 t) := by
  unfold outA
  dsimp only
  rw [View.read_writes_eq_canon _ _ _ (coverA_v m c t q1)]
  unfold kernelRun0_A
  dsimp only
  sl_unfold_run_names
  rw [View.canon_unit_zero (S := S4096x128) AB.hz2]
  exact congrArg₂ (fun a b => k0_pay4 (F := 𝔽) a b)
    (AB.readAt_whole (hs0_0 t) (iblk m c 0 t) _ AB.hz3 _)
    (AB.readAt_whole (hs0_3 t) (iblk m c 3 t) _ AB.hz2 _)
theorem outA_m (c : Dev nD) (t : Fin cfgL.N) (q1 : Q1 t) :
    (outA m c t q1).m = k0_pay9 (F := 𝔽) (k0_pay18 (F := 𝔽) (wqL c t) (wkL c t) (k0_pay8 (F := 𝔽) (tileRows (outA m c t q1).q (wqL c t).toNat) (tileRows (outA m c t q1).k (wkL c t).toNat)) (k0_pay5 (F := 𝔽))) := by
  unfold outA
  dsimp only
  rw [View.read_writes_eq_canon _ _ _ (coverA_m m c t q1)]
  unfold kernelRun0_A
  dsimp only
  sl_unfold_run_names
  rw [View.canon_cons_unit_zero (S := S1024x1) AB.hz2, View.readCov_unit_zero (S := S1024x1) _ AB.hz2]
  exact congrArg (fun z => k0_pay9 (F := 𝔽) (k0_pay18 (F := 𝔽) (wqL c t) (wkL c t) z (k0_pay5 (F := 𝔽))))
    (congrArg₂ (fun a b => k0_pay8 (F := 𝔽) a b)
      (AB.readAt_tile_read _ _ (k0_off2 (wqL c t)) (wqL c t).toNat (wq_lt c t) (AB.off2_eq (wqL c t) (wq_lt c t)) _)
      (AB.readAt_tile_read _ _ (k0_off3 (wkL c t)) (wkL c t).toNat (wk_lt c t) (AB.off3_eq (wkL c t) (wk_lt c t)) _))
theorem outA_l (c : Dev nD) (t : Fin cfgL.N) (q1 : Q1 t) :
    (outA m c t q1).l = k0_pay21 (F := 𝔽) (wqL c t) (wkL c t) (k0_pay8 (F := 𝔽) (tileRows (outA m c t q1).q (wqL c t).toNat) (tileRows (outA m c t q1).k (wkL c t).toNat)) (k0_pay5 (F := 𝔽)) (k0_pay5 (F := 𝔽)) (k0_pay6 (F := 𝔽)) := by
  unfold outA
  dsimp only
  rw [View.read_writes_eq_canon _ _ _ (coverA_l m c t q1)]
  unfold kernelRun0_A
  dsimp only
  sl_unfold_run_names
  rw [View.canon_cons_unit_zero (S := S1024x1) AB.hz2, View.readCov_unit_zero (S := S1024x1) _ AB.hz2,
    View.readCov_unit_zero (S := S1024x1) _ AB.hz2]
  exact congrArg (fun z => k0_pay21 (F := 𝔽) (wqL c t) (wkL c t) z (k0_pay5 (F := 𝔽)) (k0_pay5 (F := 𝔽)) (k0_pay6 (F := 𝔽)))
    (congrArg₂ (fun a b => k0_pay8 (F := 𝔽) a b)
      (AB.readAt_tile_read _ _ (k0_off2 (wqL c t)) (wqL c t).toNat (wq_lt c t) (AB.off2_eq (wqL c t) (wq_lt c t)) _)
      (AB.readAt_tile_read _ _ (k0_off3 (wkL c t)) (wkL c t).toNat (wk_lt c t) (AB.off3_eq (wkL c t) (wk_lt c t)) _))
theorem outA_acc (c : Dev nD) (t : Fin cfgL.N) (q1 : Q1 t) :
    (outA m c t q1).acc = k0_pay22 (F := 𝔽) (wqL c t) (wkL c t) (tileRows (outA m c t q1).v (wkL c t).toNat) (k0_pay8 (F := 𝔽) (tileRows (outA m c t q1).q (wqL c t).toNat) (tileRows (outA m c t q1).k (wkL c t).toNat)) (k0_pay5 (F := 𝔽)) (k0_pay5 (F := 𝔽)) (k0_pay7 (F := 𝔽)) := by
  unfold outA
  dsimp only
  rw [View.read_writes_eq_canon _ _ _ (coverA_acc m c t q1)]
  unfold kernelRun0_A
  dsimp only
  sl_unfold_run_names
  rw [View.canon_cons_unit_zero (S := S1024x128) AB.hz2, View.readCov_unit_zero (S := S1024x1) _ AB.hz2,
    View.readCov_unit_zero (S := S1024x128) _ AB.hz2]
  exact congrArg₂ (fun a z => k0_pay22 (F := 𝔽) (wqL c t) (wkL c t) a z (k0_pay5 (F := 𝔽)) (k0_pay5 (F := 𝔽)) (k0_pay7 (F := 𝔽)))
    (AB.readAt_tile_read _ _ (k0_off3 (wkL c t)) (wkL c t).toNat (wk_lt c t) (AB.off3_eq (wkL c t) (wk_lt c t)) _)
    (congrArg₂ (fun a b => k0_pay8 (F := 𝔽) a b)
      (AB.readAt_tile_read _ _ (k0_off2 (wqL c t)) (wqL c t).toNat (wq_lt c t) (AB.off2_eq (wqL c t) (wq_lt c t)) _)
      (AB.readAt_tile_read _ _ (k0_off3 (wkL c t)) (wkL c t).toNat (wk_lt c t) (AB.off3_eq (wkL c t) (wk_lt c t)) _))
theorem outA_o (c : Dev nD) (t : Fin cfgL.N) (q1 : Q1 t) :
    (outA m c t q1).o = k0_pay10 (F := 𝔽) (outA m c t q1).acc (outA m c t q1).l := by
  conv_lhs => unfold outA
  dsimp only
  rw [View.read_writes_eq_canon _ _ _ (coverA_o m c t q1)]
  conv_lhs => unfold kernelRun0_A
  dsimp only
  sl_unfold_run_names
  rw [View.canon_unit_zero (S := S1x1024x128) AB.hz3]
  unfold outA
  dsimp only
  unfold kernelRun0_A
  dsimp only
  sl_unfold_run_names
  exact congrArg₂ (fun a b => k0_pay10 (F := 𝔽) a b)
    (AB.readCov_cons_eq_read_writes (S := S1024x128) _ AB.hz2 _ _ _ _)
    (AB.readCov_cons_eq_read_writes (S := S1024x1) _ AB.hz2 _ _ _ _)

/-! ## A query tile's first key tile, below the diagonal -/

theorem outB_m (c : Dev nD) (t : Fin cfgL.N) (p : Sc) (q1 : ¬Q1 t) (q3 : ¬Q3 c t) (q2 : Q2 c t) :
    (outB m c t p q1 q3 q2).m = k0_pay16 (F := 𝔽) (tileRows p.q (wqL c t).toNat) (tileRows p.k (wkL c t).toNat) (k0_pay5 (F := 𝔽)) := by
  unfold outB
  dsimp only
  rw [View.read_writes_eq_canon _ _ _ (coverB_m m c t p q1 q3 q2)]
  unfold kernelRun0_B
  dsimp only
  sl_unfold_run_names
  rw [View.canon_cons_unit_zero (S := S1024x1) AB.hz2, View.readCov_unit_zero (S := S1024x1) _ AB.hz2]
  exact congrArg₂ (fun a b => k0_pay16 (F := 𝔽) a b (k0_pay5 (F := 𝔽)))
    (AB.readAt_tile (Memref.isWhole_whole cc0_scratch0) p.q (k0_off2 (wqL c t)) (wqL c t).toNat (wq_lt c t) (AB.off2_eq (wqL c t) (wq_lt c t)) _)
    (AB.readAt_tile (Memref.isWhole_whole cc0_scratch1) p.k (k0_off3 (wkL c t)) (wkL c t).toNat (wk_lt c t) (AB.off3_eq (wkL c t) (wk_lt c t)) _)
theorem outB_l (c : Dev nD) (t : Fin cfgL.N) (p : Sc) (q1 : ¬Q1 t) (q3 : ¬Q3 c t) (q2 : Q2 c t) :
    (outB m c t p q1 q3 q2).l = k0_pay14 (F := 𝔽) (tileRows p.q (wqL c t).toNat) (tileRows p.k (wkL c t).toNat) (k0_pay5 (F := 𝔽)) (k0_pay5 (F := 𝔽)) (k0_pay6 (F := 𝔽)) := by
  unfold outB
  dsimp only
  rw [View.read_writes_eq_canon _ _ _ (coverB_l m c t p q1 q3 q2)]
  unfold kernelRun0_B
  dsimp only
  sl_unfold_run_names
  rw [View.canon_cons_unit_zero (S := S1024x1) AB.hz2, View.readCov_unit_zero (S := S1024x1) _ AB.hz2,
    View.readCov_unit_zero (S := S1024x1) _ AB.hz2]
  exact congrArg₂ (fun a b => k0_pay14 (F := 𝔽) a b (k0_pay5 (F := 𝔽)) (k0_pay5 (F := 𝔽)) (k0_pay6 (F := 𝔽)))
    (AB.readAt_tile (Memref.isWhole_whole cc0_scratch0) p.q (k0_off2 (wqL c t)) (wqL c t).toNat (wq_lt c t) (AB.off2_eq (wqL c t) (wq_lt c t)) _)
    (AB.readAt_tile (Memref.isWhole_whole cc0_scratch1) p.k (k0_off3 (wkL c t)) (wkL c t).toNat (wk_lt c t) (AB.off3_eq (wkL c t) (wk_lt c t)) _)
theorem outB_acc (c : Dev nD) (t : Fin cfgL.N) (p : Sc) (q1 : ¬Q1 t) (q3 : ¬Q3 c t) (q2 : Q2 c t) :
    (outB m c t p q1 q3 q2).acc = k0_pay15 (F := 𝔽) (tileRows p.q (wqL c t).toNat) (tileRows p.k (wkL c t).toNat) (tileRows p.v (wkL c t).toNat) (k0_pay5 (F := 𝔽)) (k0_pay5 (F := 𝔽)) (k0_pay7 (F := 𝔽)) := by
  unfold outB
  dsimp only
  rw [View.read_writes_eq_canon _ _ _ (coverB_acc m c t p q1 q3 q2)]
  unfold kernelRun0_B
  dsimp only
  sl_unfold_run_names
  rw [View.canon_cons_unit_zero (S := S1024x128) AB.hz2, View.readCov_unit_zero (S := S1024x1) _ AB.hz2,
    View.readCov_unit_zero (S := S1024x128) _ AB.hz2]
  exact AB.congr3 (fun a b g => k0_pay15 (F := 𝔽) a b g (k0_pay5 (F := 𝔽)) (k0_pay5 (F := 𝔽)) (k0_pay7 (F := 𝔽)))
    (AB.readAt_tile (Memref.isWhole_whole cc0_scratch0) p.q (k0_off2 (wqL c t)) (wqL c t).toNat (wq_lt c t) (AB.off2_eq (wqL c t) (wq_lt c t)) _)
    (AB.readAt_tile (Memref.isWhole_whole cc0_scratch1) p.k (k0_off3 (wkL c t)) (wkL c t).toNat (wk_lt c t) (AB.off3_eq (wkL c t) (wk_lt c t)) _)
    (AB.readAt_tile (Memref.isWhole_whole cc0_scratch2) p.v (k0_off3 (wkL c t)) (wkL c t).toNat (wk_lt c t) (AB.off3_eq (wkL c t) (wk_lt c t)) _)

end Cert.KernelIdeal.Hand

end
-- ==== Proof.PiecesCD.lean ====
/-
  What the two later paths leave in the buffers, as the body's payloads of what was carried: on a later tile below the
  diagonal the running maximum, denominator and numerator after the unmasked tile; on a later diagonal tile the same after
  the masked tile, and the output block numerator / denominator. The query tile is rows qi·1024 … of the carried query
  projection, the key and value tiles rows ki·1024 … of the carried key and value projections.
-/
import proofs.«413224_j16982300689021_3_alg».proof.Proof.Gen.KernelIdeal.Launch
import proofs.«413224_j16982300689021_3_alg».proof.Proof.Gen.KernelIdeal.Skeleton
import proofs.«413224_j16982300689021_3_alg».proof.Proof.Covers
import proofs.«413224_j16982300689021_3_alg».proof.Proof.Points
import proofs.«413224_j16982300689021_3_alg».proof.Proof.Tile
import Idealize.ShloMosaic.Lib.Pipeline.FrameBody
import Idealize.ShloMosaic.Lib.Pipeline.Value
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

open Idealize.ShloMosaic.ValueIdx

variable (m : (ℓ : Loc nD τ sig) → Buf (Elt 𝔽) ℓ)

/-! ## Reading a tile, a whole buffer, and a buffer after one whole store -/

namespace CD

/-- The zero offsets of a rank-2 buffer, however spelt. -/
theorem hz2 : (![0, 0] : Fin 2 → Nat) = fun _ => 0 := funext fun a => by fin_cases a <;> rfl
/-- The zero offsets of a rank-3 buffer. -/
theorem hz3 : (![0, 0, 0] : Fin 3 → Nat) = fun _ => 0 := funext fun a => by fin_cases a <;> rfl

/-- A tile number below 4 times 1024 does not wrap in 32 bits. -/
theorem mul1024_toNat (v : BitVec 32) (hv : v.toNat < 4) : (v * 1024#32).toNat = v.toNat * 1024 := by
  rw [BitVec.toNat_mul]
  show v.toNat * 1024 % 2 ^ 32 = v.toNat * 1024
  exact Nat.mod_eq_of_lt (by omega)

/-- The row offset of the query tile: the tile number times 1024. -/
theorem off2_eq (v : BitVec 32) (hv : v.toNat < 4) : k0_off2 v = ![v.toNat * 1024, 0] := by
  unfold k0_off2
  show (![(v * 1024#32).toNat, 0] : Fin 2 → Nat) = _
  rw [mul1024_toNat v hv]
/-- The row offset of the key and value tiles: the tile number times 1024. -/
theorem off3_eq (v : BitVec 32) (hv : v.toNat < 4) : k0_off3 v = ![v.toNat * 1024, 0] := by
  unfold k0_off3
  show (![(v * 1024#32).toNat, 0] : Fin 2 → Nat) = _
  rw [mul1024_toNat v hv]

/-- Reading 1024 rows from row n·1024 of a 4096 × 128 array gives tile n of it. -/
theorem tile_ld (X : Vec 𝔽 S4096x128 .bf16) (off : Fin 2 → Nat) (n : ℕ) (hn : n < 4) (hoff : off = ![n * 1024, 0])
    (inb : ∀ a, off a + S1024x128.size a ≤ S4096x128.size a) :
    View.ld X (Rect.unit (s := S4096x128) off S1024x128.size inb) = tileRows X n := by
  subst hoff
  funext y
  refine congrArg X (funext fun a => Fin.ext ?_)
  match a with
  | ⟨0, _⟩ =>
    show n * 1024 + 1 * (y 0).val = (n % 4) * 1024 + (y 0).val
    rw [Nat.mod_eq_of_lt hn, Nat.one_mul]
  | ⟨1, _⟩ =>
    show 0 + 1 * (y 1).val = (y 1).val
    rw [Nat.one_mul, Nat.zero_add]

/-- The same through a whole buffer holding X. -/
theorem tile_read {M : Memref sig .tc .vmem S4096x128 .bf16} (h : M.IsWhole) (X : Vec 𝔽 S4096x128 .bf16) (off : Fin 2 → Nat) (n : ℕ)
    (hn : n < 4) (hoff : off = ![n * 1024, 0]) (inb : ∀ a, off a + S1024x128.size a ≤ S4096x128.size a) :
    M.view.readAt (Elt 𝔽) (Rect.unit (s := S4096x128) off S1024x128.size inb).toLoadRect (h.unread X) = tileRows X n := by
  rw [View.readAt_eq_ld, h.read_unread]
  exact tile_ld X off n hn hoff inb

/-- A whole buffer read whole gives its contents. -/
theorem whole_read {S : Shape} {e : EltTy} {M : Memref sig .tc .vmem S e} (h : M.IsWhole) (X : Vec 𝔽 S e) {off : Fin S.rank → Nat}
    (hz : off = fun _ => 0) (inb : ∀ a, off a + S.size a ≤ S.size a) :
    M.view.readAt (Elt 𝔽) (Rect.unit off S.size inb).toLoadRect (h.unread X) = X := by
  rw [View.readAt_eq_ld, h.read_unread, View.ld_unit_zero hz]

/-- A buffer after ONE store through its whole rectangle reads back the stored payload, whatever it held. -/
theorem read_one_piece {S : Shape} {e : EltTy} (v : View sig .tc .vmem S e) (f : v.ty.Contents (Elt 𝔽)) {off : Fin S.rank → Nat}
    (hz : off = fun _ => 0) (inb : ∀ a, off a + S.size a ≤ S.size a) (w : S.Idx → Elt 𝔽 e) :
    v.read (Elt 𝔽) (v.writes (Elt 𝔽) f [(⟨Rect.unit off S.size inb, w⟩ : View.Piece (Elt 𝔽) S e)]) = w := by
  rw [View.read_writes_eq_canon _ _ _ (fun y => ⟨_, List.mem_singleton_self _, View.mem_set_unit_zero hz inb y⟩),
    View.canon_unit_zero hz]

end CD

/-! ## A later tile below the diagonal -/

theorem outD_m (c : Dev nD) (t : Fin cfgL.N) (p : Sc) (q1 : ¬Q1 t) (q3 : ¬Q3 c t) (q2 : ¬Q2 c t) :
    (outD m c t p q1 q3 q2).m = k0_pay16 (F := 𝔽) (tileRows p.q (wqL c t).toNat) (tileRows p.k (wkL c t).toNat) p.m := by
  unfold outD
  dsimp only
  rw [View.read_writes_eq_canon _ _ _ (coverD_m m c t p q1 q3 q2)]
  unfold kernelRun0_D
  dsimp only
  sl_unfold_run_names
  rw [View.canon_unit_zero CD.hz2]
  refine (congrArg₂ (fun a b => k0_pay16 (F := 𝔽) a b _) ?_ ?_).trans (congrArg (k0_pay16 (F := 𝔽) _ _) ?_)
  · exact CD.tile_read _ p.q _ _ (wq_lt c t) (CD.off2_eq _ (wq_lt c t)) _
  · exact CD.tile_read _ p.k _ _ (wk_lt c t) (CD.off3_eq _ (wk_lt c t)) _
  · exact CD.whole_read _ p.m CD.hz2 _
theorem outD_l (c : Dev nD) (t : Fin cfgL.N) (p : Sc) (q1 : ¬Q1 t) (q3 : ¬Q3 c t) (q2 : ¬Q2 c t) :
    (outD m c t p q1 q3 q2).l = k0_pay14 (F := 𝔽) (tileRows p.q (wqL c t).toNat) (tileRows p.k (wkL c t).toNat) p.m p.m p.l := by
  unfold outD
  dsimp only
  rw [View.read_writes_eq_canon _ _ _ (coverD_l m c t p q1 q3 q2)]
  unfold kernelRun0_D
  dsimp only
  sl_unfold_run_names
  rw [View.canon_unit_zero CD.hz2]
  refine (congrArg₂ (fun a b => k0_pay14 (F := 𝔽) a b _ _ _) ?_ ?_).trans
    ((congrArg₂ (fun a b => k0_pay14 (F := 𝔽) _ _ a b _) ?_ ?_).trans (congrArg (k0_pay14 (F := 𝔽) _ _ _ _) ?_))
  · exact CD.tile_read _ p.q _ _ (wq_lt c t) (CD.off2_eq _ (wq_lt c t)) _
  · exact CD.tile_read _ p.k _ _ (wk_lt c t) (CD.off3_eq _ (wk_lt c t)) _
  · exact CD.whole_read _ p.m CD.hz2 _
  · exact CD.whole_read _ p.m CD.hz2 _
  · exact CD.whole_read _ p.l CD.hz2 _
theorem outD_acc (c : Dev nD) (t : Fin cfgL.N) (p : Sc) (q1 : ¬Q1 t) (q3 : ¬Q3 c t) (q2 : ¬Q2 c t) :
    (outD m c t p q1 q3 q2).acc = k0_pay15 (F := 𝔽) (tileRows p.q (wqL c t).toNat) (tileRows p.k (wkL c t).toNat) (tileRows p.v (wkL c t).toNat) p.m p.m p.acc := by
  unfold outD
  dsimp only
  rw [View.read_writes_eq_canon _ _ _ (coverD_acc m c t p q1 q3 q2)]
  unfold kernelRun0_D
  dsimp only
  sl_unfold_run_names
  rw [View.canon_unit_zero CD.hz2]
  refine (congrArg₂ (fun a b => k0_pay15 (F := 𝔽) a b _ _ _ _) ?_ ?_).trans
    ((congrArg₂ (fun a b => k0_pay15 (F := 𝔽) _ _ a b _ _) ?_ ?_).trans (congrArg₂ (fun a b => k0_pay15 (F := 𝔽) _ _ _ _ a b) ?_ ?_))
  · exact CD.tile_read _ p.q _ _ (wq_lt c t) (CD.off2_eq _ (wq_lt c t)) _
  · exact CD.tile_read _ p.k _ _ (wk_lt c t) (CD.off3_eq _ (wk_lt c t)) _
  · exact CD.tile_read _ p.v _ _ (wk_lt c t) (CD.off3_eq _ (wk_lt c t)) _
  · exact CD.whole_read _ p.m CD.hz2 _
  · exact CD.whole_read _ p.m CD.hz2 _
  · exact CD.whole_read _ p.acc CD.hz2 _

/-! ## A later diagonal tile -/

theorem outC_m (c : Dev nD) (t : Fin cfgL.N) (p : Sc) (q1 : ¬Q1 t) (q3 : Q3 c t) :
    (outC m c t p q1 q3).m = k0_pay9 (F := 𝔽) (k0_pay18 (F := 𝔽) (wqL c t) (wkL c t) (k0_pay8 (F := 𝔽) (tileRows p.q (wqL c t).toNat) (tileRows p.k (wkL c t).toNat)) p.m) := by
  unfold outC
  dsimp only
  rw [View.read_writes_eq_canon _ _ _ (coverC_m m c t p q1 q3)]
  unfold kernelRun0_C
  dsimp only
  sl_unfold_run_names
  rw [View.canon_unit_zero CD.hz2]
  refine congrArg (k0_pay9 (F := 𝔽)) ?_
  refine congrArg₂ (fun a b => k0_pay18 (F := 𝔽) _ _ a b) (congrArg₂ (k0_pay8 (F := 𝔽)) ?_ ?_) ?_
  · exact CD.tile_read _ p.q _ _ (wq_lt c t) (CD.off2_eq _ (wq_lt c t)) _
  · exact CD.tile_read _ p.k _ _ (wk_lt c t) (CD.off3_eq _ (wk_lt c t)) _
  · exact CD.whole_read _ p.m CD.hz2 _
theorem outC_l (c : Dev nD) (t : Fin cfgL.N) (p : Sc) (q1 : ¬Q1 t) (q3 : Q3 c t) :
    (outC m c t p q1 q3).l = k0_pay21 (F := 𝔽) (wqL c t) (wkL c t) (k0_pay8 (F := 𝔽) (tileRows p.q (wqL c t).toNat) (tileRows p.k (wkL c t).toNat)) p.m p.m p.l := by
  unfold outC
  dsimp only
  rw [View.read_writes_eq_canon _ _ _ (coverC_l m c t p q1 q3)]
  unfold kernelRun0_C
  dsimp only
  sl_unfold_run_names
  rw [View.canon_unit_zero CD.hz2]
  refine (congrArg (fun a => k0_pay21 (F := 𝔽) _ _ a _ _ _) (congrArg₂ (k0_pay8 (F := 𝔽)) ?_ ?_)).trans
    ((congrArg₂ (fun a b => k0_pay21 (F := 𝔽) _ _ _ a b _) ?_ ?_).trans (congrArg (k0_pay21 (F := 𝔽) _ _ _ _ _) ?_))
  · exact CD.tile_read _ p.q _ _ (wq_lt c t) (CD.off2_eq _ (wq_lt c t)) _
  · exact CD.tile_read _ p.k _ _ (wk_lt c t) (CD.off3_eq _ (wk_lt c t)) _
  · exact CD.whole_read _ p.m CD.hz2 _
  · exact CD.whole_read _ p.m CD.hz2 _
  · exact CD.whole_read _ p.l CD.hz2 _
theorem outC_acc (c : Dev nD) (t : Fin cfgL.N) (p : Sc) (q1 : ¬Q1 t) (q3 : Q3 c t) :
    (outC m c t p q1 q3).acc = k0_pay22 (F := 𝔽) (wqL c t) (wkL c t) (tileRows p.v (wkL c t).toNat) (k0_pay8 (F := 𝔽) (tileRows p.q (wqL c t).toNat) (tileRows p.k (wkL c t).toNat)) p.m p.m p.acc := by
  unfold outC
  dsimp only
  rw [View.read_writes_eq_canon _ _ _ (coverC_acc m c t p q1 q3)]
  unfold kernelRun0_C
  dsimp only
  sl_unfold_run_names
  rw [View.canon_unit_zero CD.hz2]
  refine (congrArg₂ (fun a b => k0_pay22 (F := 𝔽) _ _ a b _ _ _) ?_ (congrArg₂ (k0_pay8 (F := 𝔽)) ?_ ?_)).trans
    ((congrArg₂ (fun a b => k0_pay22 (F := 𝔽) _ _ _ _ a b _) ?_ ?_).trans (congrArg (k0_pay22 (F := 𝔽) _ _ _ _ _ _) ?_))
  · exact CD.tile_read _ p.v _ _ (wk_lt c t) (CD.off3_eq _ (wk_lt c t)) _
  · exact CD.tile_read _ p.q _ _ (wq_lt c t) (CD.off2_eq _ (wq_lt c t)) _
  · exact CD.tile_read _ p.k _ _ (wk_lt c t) (CD.off3_eq _ (wk_lt c t)) _
  · exact CD.whole_read _ p.m CD.hz2 _
  · exact CD.whole_read _ p.m CD.hz2 _
  · exact CD.whole_read _ p.acc CD.hz2 _
theorem outC_o (c : Dev nD) (t : Fin cfgL.N) (p : Sc) (q1 : ¬Q1 t) (q3 : Q3 c t) :
    (outC m c t p q1 q3).o = k0_pay10 (F := 𝔽) (outC m c t p q1 q3).acc (outC m c t p q1 q3).l := by
  unfold outC
  dsimp only
  rw [View.read_writes_eq_canon _ _ _ (coverC_o m c t p q1 q3)]
  unfold kernelRun0_C
  dsimp only
  rw [View.canon_unit_zero CD.hz3]
  sl_unfold_run_names
  rw [View.readCov_unit_zero (S := S1024x128) _ CD.hz2, View.readCov_unit_zero (S := S1024x1) _ CD.hz2,
    CD.read_one_piece (S := S1024x128) VS0_5 _ CD.hz2, CD.read_one_piece (S := S1024x1) VS0_4 _ CD.hz2]

end Cert.KernelIdeal.Hand

end
-- ==== Proof.PayDefs.lean ====
/-
  The body's vectors read by coordinates: the running state (maximum and denominator as 1024 × 1 columns, numerator
  1024 × 128) as the specification's state; a query tile against a key tile as a 1024 × 1024 table of scores (the
  contraction over the 128 features); a value tile by coordinates.
-/
import proofs.«413224_j16982300689021_3_alg».proof.Proof.Gen.KernelIdeal.Skeleton
import proofs.«413224_j16982300689021_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayValue

open Cert.KernelIdeal Cert.KernelIdeal.Gen Idealize.ShloMosaic Idealize.ShloMosaic.ValueIdx Cert.Spec

/-- The running state, read by coordinates. -/
def stOf (m l : Vec Ideal S1024x1 .f32) (acc : Vec Ideal S1024x128 .f32) : St :=
  ⟨fun r => m (ix2 r 0), fun r => l (ix2 r 0), fun r d => acc (ix2 r d)⟩

/-- Scores of a query tile against a key tile: row r of the first times row s of the second. -/
def tileOf (qt kt : Vec Ideal S1024x128 .bf16) : Fin 1024 → Fin 1024 → EReal :=
  fun r s => ∑ d : Fin 128, qt (ix2 r d) * kt (ix2 s d)

/-- A value tile by coordinates. -/
def vOf (vt : Vec Ideal S1024x128 .bf16) : Fin 1024 → Fin 128 → EReal := fun s d => vt (ix2 s d)

/-- The mask of the diagonal tile: within the tile key s is visible to query r when s ≤ r. -/
def maskOf (S : Fin 1024 → Fin 1024 → EReal) : Fin 1024 → Fin 1024 → EReal := fun r s => if s.val ≤ r.val then S r s else ⊥

end Cert.KernelIdeal.PayValue

end
-- ==== Proof.PayProj.lean ====
/-
  The pointwise ends of the body, read at an index: the three projections (the query's with the scale folded in), the
  reset of the running state, and the final quotient numerator / denominator.
-/
import proofs.«413224_j16982300689021_3_alg».proof.Proof.PayDefs
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayValue

open Cert.KernelIdeal Cert.KernelIdeal.Gen Idealize.ShloMosaic Idealize.ShloMosaic.ValueIdx Cert.Spec

/-! ## The projection's contraction: rows of the activation block against columns of the weight block -/

/-- The left operand's row coordinate is the result's row. -/
theorem projdot_lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl

/-- The left operand's column coordinate is the contraction index. -/
theorem projdot_lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q

/-- The right operand's row coordinate is the contraction index. -/
theorem projdot_rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

/-- The right operand's column coordinate is the result's column. -/
theorem projdot_rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into a zero accumulator, at row t and column d: the sum over the 128 features of
    a[t, c] · b[c, d]. -/
theorem projdot_apply (a : FVec Ideal S4096x128 .bf16) (b : FVec Ideal S128x128 .bf16) (t : Fin 4096) (d : Fin 128) :
    matmul dot_S4096x128_S128x128_S4096x128_1_0_0_1_n_n none a b (constant (F := Ideal) S4096x128 .f32 0x00000000#32) (ix2 t d)
      = ∑ c : Fin 128, a (ix2 t c) * b (ix2 c d) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 t d) ((contrEquiv1 dot_S4096x128_S128x128_S4096x128_1_0_0_1_n_n 128 rfl rfl).symm k) = ix2 t k :=
    funext fun a => Fin.ext (by
      match a with
      | ⟨0, _⟩ => exact projdot_lhs_0 _ _
      | ⟨1, _⟩ => exact (projdot_lhs_1 _ _).trans hk)
  have er : dot_S4096x128_S128x128_S4096x128_1_0_0_1_n_n.rhsIdx (ix2 t d) ((contrEquiv1 dot_S4096x128_S128x128_S4096x128_1_0_0_1_n_n 128 rfl rfl).symm k) = ix2 k d :=
    funext fun a => Fin.ext (by
      match a with
      | ⟨0, _⟩ => exact (projdot_rhs_0 _ _).trans hk
      | ⟨1, _⟩ => exact projdot_rhs_1 _ _)
  rw [el, er]

/-- The shared left operand of the three projections: the activation block with its unit axis dropped,
    entry (t, c) being x[0, t, c]. -/
theorem pay1_apply (x0 : Vec Ideal S1x4096x128 .f32) (t : Fin 4096) (c : Fin 128) :
    k0_pay1 (F := Ideal) x0 (ix2 t c) = x0 (ix3 0 t c) := by
  unfold k0_pay1
  rw [truncf_apply]
  exact shapeCast_1ab_ab_apply x0 _ t c

/-- The single-precision word 0xFF800000 denotes −∞. -/
theorem neg_inf_word : Ideal.ofBits .f32 0xFF800000#32 = (⊥ : EReal) := by
  simp [Ideal.ofBits, Ideal.ieee]

/-- A column [1024, 1] spread over 128 lanes reads, at (r, d), the column's entry of row r. -/
theorem spread_col_apply (l : Vec Ideal S1024x1 .f32) (h : S1024x1.Broadcasts S1024x128) (r : Fin 1024) (d : Fin 128) :
    broadcastTo S1024x128 l h (ix2 r d) = l (ix2 r 0) :=
  broadcastTo_apply l h (ix2 r d) (ix2 r 0) (fun a => by
    match a with
    | ⟨0, _⟩ => rfl
    | ⟨1, _⟩ => rfl)

/-- The query projection stored at a batch's first point: row t of x times Wq, scaled. -/
theorem proj_q (x0 : Vec Ideal S1x4096x128 .f32) (w : Vec Ideal S128x128 .bf16) (t : Fin 4096) (d : Fin 128) :
    k0_pay2 (F := Ideal) x0 w (ix2 t d) = (∑ c : Fin 128, x0 (ix3 0 t c) * w (ix2 c d)) * σ := by
  unfold k0_pay2
  rw [shapeCast_self, truncf_apply, mulf_apply, broadcast_apply, shapeCast_self, projdot_apply]
  unfold σ
  exact congrArg (· * Ideal.ofBits .f32 0x3DB504F3#32) (Finset.sum_congr rfl fun c _ => by rw [pay1_apply])

/-- The key projection. -/
theorem proj_k (x0 : Vec Ideal S1x4096x128 .f32) (w : Vec Ideal S128x128 .bf16) (t : Fin 4096) (d : Fin 128) :
    k0_pay3 (F := Ideal) x0 w (ix2 t d) = ∑ c : Fin 128, x0 (ix3 0 t c) * w (ix2 c d) := by
  unfold k0_pay3
  rw [shapeCast_self, truncf_apply, shapeCast_self, projdot_apply]
  exact Finset.sum_congr rfl fun c _ => by rw [pay1_apply]

/-- The value projection. -/
theorem proj_v (x0 : Vec Ideal S1x4096x128 .f32) (w : Vec Ideal S128x128 .bf16) (t : Fin 4096) (d : Fin 128) :
    k0_pay4 (F := Ideal) x0 w (ix2 t d) = ∑ c : Fin 128, x0 (ix3 0 t c) * w (ix2 c d) := by
  unfold k0_pay4
  rw [shapeCast_self, truncf_apply, shapeCast_self, projdot_apply]
  exact Finset.sum_congr rfl fun c _ => by rw [pay1_apply]

/-- The reset: maximum −∞, denominator and numerator zero. -/
theorem init_st : stOf (k0_pay5 (F := Ideal)) (k0_pay6 (F := Ideal)) (k0_pay7 (F := Ideal)) = St.init := by
  unfold stOf St.init
  refine (St.mk.injEq _ _ _ _ _ _).mpr ⟨funext fun r => ?_, funext fun r => ?_, funext fun r => funext fun d => ?_⟩
  · unfold k0_pay5
    rw [shapeCast_self, broadcast_apply]
    exact neg_inf_word
  · unfold k0_pay6
    rw [shapeCast_self, broadcast_apply]
    exact Ideal.ofBits_zero_f32
  · unfold k0_pay7
    rw [shapeCast_self, broadcast_apply]
    exact Ideal.ofBits_zero_f32

/-- The stored output block: numerator over denominator, row by row. -/
theorem out_val (acc : Vec Ideal S1024x128 .f32) (l : Vec Ideal S1024x1 .f32) (r : Fin 1024) (d : Fin 128) :
    k0_pay10 (F := Ideal) acc l (ix3 0 r d) = Ideal.div (acc (ix2 r d)) (l (ix2 r 0)) := by
  unfold k0_pay10
  rw [shapeCast_ab_1ab_apply, divf_apply, spread_col_apply]

end Cert.KernelIdeal.PayValue

end
-- ==== Proof.PayBelow.lean ====
/-
  One unmasked key tile (strictly below the diagonal): the three stores are the specification's update of the running state.
-/
import proofs.«413224_j16982300689021_3_alg».proof.Proof.PayDefs
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.PayValue

open Cert.KernelIdeal Cert.KernelIdeal.Gen Idealize.ShloMosaic Idealize.ShloMosaic.ValueIdx Cert.Spec

/-! The lemmas this module rests on, in a namespace of their own. -/
namespace Below

/-! ## Layout: a column made from a vector, and a column broadcast along rows -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scores of a query tile against a key tile -/

theorem lhs_scores_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_scores_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_scores_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_scores_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024 × 128 tile with a 128 × 1024 one into a zero accumulator, at (r, s): the sum over the 128
    features of the left tile's row r times the right tile's column s. -/
theorem matmul_scores_apply (lhs : FVec Ideal S1024x128 .bf16) (rhs : FVec Ideal S128x1024 .bf16) (r s : Fin 1024) :
    FloatOps.matmul dot_S1024x128_S128x1024_S1024x1024_1_0_0_1_n_n none lhs rhs (constant (F := Ideal) S1024x1024 .f32 0x00000000#32) (ix2 r s)
      = ∑ d : Fin 128, lhs (ix2 r d) * rhs (ix2 d s) := by
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r s) ((ValueIdx.contrEquiv1 dot_S1024x128_S128x1024_S1024x1024_1_0_0_1_n_n 128 rfl rfl).symm k) = ix2 r k := funext fun a => Fin.ext (by
    match a with
    | ⟨0, _⟩ => exact lhs_scores_0 _ _
    | ⟨1, _⟩ => exact (lhs_scores_1 _ _).trans hk)
  have er : dot_S1024x128_S128x1024_S1024x1024_1_0_0_1_n_n.rhsIdx (ix2 r s) ((ValueIdx.contrEquiv1 dot_S1024x128_S128x1024_S1024x1024_1_0_0_1_n_n 128 rfl rfl).symm k) = ix2 k s := funext fun a => Fin.ext (by
    match a with
    | ⟨0, _⟩ => exact (rhs_scores_0 _ _).trans hk
    | ⟨1, _⟩ => exact rhs_scores_1 _ _)
  rw [el, er]

/-- The score tile at (r, s): query row r against key row s (the key tile enters transposed). -/
theorem scores_at (qt kt : Vec Ideal S1024x128 .bf16) (r s : Fin 1024) :
    k0_pay8 (F := Ideal) qt kt (ix2 r s) = tileOf qt kt r s := by
  unfold k0_pay8
  refine (matmul_scores_apply qt _ r s).trans ?_
  unfold tileOf
  refine Finset.sum_congr rfl fun d _ => ?_
  exact congrArg (qt (ix2 r d) * ·) (transpose_ix2_apply kt _ d s)

/-! ## Lane reductions over the second axis of a 1024 × 1024 array -/

/-- The word of −∞ denotes the bottom of the extended reals. -/
theorem ofBits_neg_inf : Ideal.ofBits .f32 0xFF800000#32 = (⊥ : EReal) := by simp [Ideal.ofBits, Ideal.ieee]

/-- The lane maximum from −∞, at row r: the maximum of the row. -/
theorem lanemax_at (y : FVec Ideal S1024x1024 .f32) (hφ : FKind.Formats .f32)
    (hacc : (0xFF800000#32 : BitVec 32) = FKind.maximumf.neutral .f32 hφ) (r : Fin 1024) :
    multiReduction (F := Ideal) .maximumf [1] S1024 y 0xFF800000#32 reduces_S1024x1024_S1024 hφ hacc (ix1 r)
      = rowMax (fun s => y (ix2 r s)) := by
  refine (Ideal.multiReduction_maximumf_single y 0xFF800000#32 reduces_S1024x1024_S1024 hφ hacc (ix1 r)).trans ?_
  have hf : (y ∘ reduces_S1024x1024_S1024.lift (ix1 r)) = fun s : Fin 1024 => y (ix2 r s) :=
    funext fun s => congrArg y (funext fun a => Fin.ext (by match a with | ⟨0, _⟩ => rfl | ⟨1, _⟩ => rfl))
  rw [hf]
  show Finset.fold max (Ideal.ofBits .f32 0xFF800000#32) _ _ = _
  rw [ofBits_neg_inf]
  rfl

/-- The lane sum, at row r: the sum of the row. -/
theorem lanesum_at (y : FVec Ideal S1024x1024 .f32) (hφ : FKind.Formats .f32)
    (hacc : (0x00000000#32 : BitVec 32) = FKind.add.neutral .f32 hφ) (r : Fin 1024) :
    multiReduction (F := Ideal) .add [1] S1024 y 0x00000000#32 reduces_S1024x1024_S1024 hφ hacc (ix1 r)
      = ∑ s : Fin 1024, y (ix2 r s) := by
  refine (Ideal.multiReduction_add_single y 0x00000000#32 reduces_S1024x1024_S1024 hφ hacc (ix1 r)).trans ?_
  refine Finset.sum_congr rfl fun s _ => ?_
  exact congrArg y (funext fun a => Fin.ext (by match a with | ⟨0, _⟩ => rfl | ⟨1, _⟩ => rfl))

/-! ## The new maximum, the rescaling factor and the weights -/

/-- The maximum after the tile, at row r: the old maximum against the tile's row maximum. -/
theorem newmax_at (qt kt : Vec Ideal S1024x128 .bf16) (m : Vec Ideal S1024x1 .f32) (r : Fin 1024) :
    k0_pay11 (F := Ideal) qt kt m (ix2 r (0 : Fin 1)) = max (m (ix2 r 0)) (rowMax (tileOf qt kt r)) := by
  unfold k0_pay11
  refine (maximumf_apply _ _ _).trans ?_
  refine congrArg (max (m (ix2 r 0))) ?_
  refine (shapeCast_a_a1_apply _ _ r 0).trans ?_
  refine (lanemax_at _ _ _ r).trans ?_
  exact congrArg rowMax (funext fun s => scores_at qt kt r s)

/-- The stored maximum is the new maximum (the cast to the same shape changes nothing). -/
theorem pay16_at (qt kt : Vec Ideal S1024x128 .bf16) (m : Vec Ideal S1024x1 .f32) (r : Fin 1024) :
    k0_pay16 (F := Ideal) qt kt m (ix2 r (0 : Fin 1)) = max (m (ix2 r 0)) (rowMax (tileOf qt kt r)) := by
  unfold k0_pay16
  refine (congrFun (shapeCast_self _ _) _).trans ?_
  exact newmax_at qt kt m r

/-- The rescaling factor at row r: the exponential of a carried maximum less the new one. -/
theorem alpha_at (qt kt : Vec Ideal S1024x128 .bf16) (m m2 : Vec Ideal S1024x1 .f32) (r : Fin 1024) :
    k0_pay12 (F := Ideal) qt kt m m2 (ix2 r (0 : Fin 1))
      = Ideal.exp (m2 (ix2 r 0) - max (m (ix2 r 0)) (rowMax (tileOf qt kt r))) := by
  unfold k0_pay12
  show Ideal.exp (m2 (ix2 r 0) - k0_pay11 (F := Ideal) qt kt m (ix2 r (0 : Fin 1))) = _
  rw [newmax_at]

/-- The weight at (r, s): the exponential of the score less the row's new maximum. -/
theorem p_at (qt kt : Vec Ideal S1024x128 .bf16) (m : Vec Ideal S1024x1 .f32) (r s : Fin 1024) :
    k0_pay13 (F := Ideal) qt kt m (ix2 r s)
      = Ideal.exp (tileOf qt kt r s - max (m (ix2 r 0)) (rowMax (tileOf qt kt r))) := by
  unfold k0_pay13
  show Ideal.exp (k0_pay8 (F := Ideal) qt kt (ix2 r s)
      - broadcastTo S1024x1024 (k0_pay11 (F := Ideal) qt kt m) broadcasts_S1024x1_S1024x1024 (ix2 r s)) = _
  rw [scores_at, broadcastTo_a1_ab_apply, newmax_at]

/-! ## The weights against the value tile -/

theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a 1024 × 1024 table with a 1024 × 128 tile into a zero accumulator, at (r, d): the sum over the
    1024 key rows of the table's row r times the tile's column d. -/
theorem matmul_pv_apply (lhs : FVec Ideal S1024x1024 .bf16) (rhs : FVec Ideal S1024x128 .bf16) (r : Fin 1024) (d : Fin 128) :
    FloatOps.matmul dot_S1024x1024_S1024x128_S1024x128_1_0_0_1_n_n none lhs rhs (constant (F := Ideal) S1024x128 .f32 0x00000000#32) (ix2 r d)
      = ∑ s : Fin 1024, lhs (ix2 r s) * rhs (ix2 s d) := by
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r d) ((ValueIdx.contrEquiv1 dot_S1024x1024_S1024x128_S1024x128_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## The three stores -/

/-- The stored denominator at row r: the old one rescaled, plus the row's weights. -/
theorem pay14_at (qt kt : Vec Ideal S1024x128 .bf16) (m m2 l : Vec Ideal S1024x1 .f32) (r : Fin 1024) :
    k0_pay14 (F := Ideal) qt kt m m2 l (ix2 r (0 : Fin 1))
      = Ideal.exp (m2 (ix2 r 0) - max (m (ix2 r 0)) (rowMax (tileOf qt kt r))) * l (ix2 r 0)
        + ∑ s : Fin 1024, Ideal.exp (tileOf qt kt r s - max (m (ix2 r 0)) (rowMax (tileOf qt kt r))) := by
  unfold k0_pay14
  refine (congrFun (shapeCast_self _ _) _).trans ?_
  refine (addf_apply _ _ _).trans ?_
  refine congrArg₂ (· + ·) ?_ ?_
  · refine (mulf_apply _ _ _).trans ?_
    rw [alpha_at]
  · refine (shapeCast_a_a1_apply _ _ r 0).trans ?_
    refine (lanesum_at _ _ _ r).trans ?_
    exact Finset.sum_congr rfl fun s _ => p_at qt kt m r s

/-- The stored numerator at (r, d): the old one rescaled, plus the row's weights against column d of the value tile. -/
theorem pay15_at (qt kt vt : Vec Ideal S1024x128 .bf16) (m m2 : Vec Ideal S1024x1 .f32) (acc : Vec Ideal S1024x128 .f32)
    (r : Fin 1024) (d : Fin 128) :
    k0_pay15 (F := Ideal) qt kt vt m m2 acc (ix2 r d)
      = Ideal.exp (m2 (ix2 r 0) - max (m (ix2 r 0)) (rowMax (tileOf qt kt r))) * acc (ix2 r d)
        + ∑ s : Fin 1024, Ideal.exp (tileOf qt kt r s - max (m (ix2 r 0)) (rowMax (tileOf qt kt r))) * vOf vt s d := by
  unfold k0_pay15
  refine (congrFun (shapeCast_self _ _) _).trans ?_
  refine (addf_apply _ _ _).trans ?_
  refine congrArg₂ (· + ·) ?_ ?_
  · refine (mulf_apply _ _ _).trans ?_
    rw [broadcastTo_a1_ab_apply, alpha_at]
  · refine (matmul_pv_apply _ vt r d).trans ?_
    refine Finset.sum_congr rfl fun s _ => ?_
    exact congrArg (· * vt (ix2 s d)) (p_at qt kt m r s)

/-! ## The update -/

/-- Two states with the same maxima, denominators and numerators are the same state. -/
theorem st_ext (a b : St) (hm : ∀ r, a.m r = b.m r) (hl : ∀ r, a.l r = b.l r) (hacc : ∀ r d, a.acc r d = b.acc r d) : a = b := by
  cases a; cases b
  simp only [St.mk.injEq]
  exact ⟨funext hm, funext hl, funext fun r => funext (hacc r)⟩

end Below

open Below

/-- The new maximum, denominator and numerator after an unmasked tile are the specification's update by that tile. -/
theorem upd_below (qt kt vt : Vec Ideal S1024x128 .bf16) (m l : Vec Ideal S1024x1 .f32) (acc : Vec Ideal S1024x128 .f32) :
    stOf (k0_pay16 (F := Ideal) qt kt m) (k0_pay14 (F := Ideal) qt kt m m l) (k0_pay15 (F := Ideal) qt kt vt m m acc)
      = St.upd (tileOf qt kt) (vOf vt) (stOf m l acc) := by
  refine st_ext _ _ (fun r => ?_) (fun r => ?_) (fun r d => ?_)
  · exact pay16_at qt kt m r
  · exact pay14_at qt kt m m l r
  · exact pay15_at qt kt vt m m acc r d

end Cert.KernelIdeal.PayValue

end
-- ==== Proof.PayDiag.lean ====
/-
  The diagonal key tile: the scores are masked (key s visible to query r when s ≤ r, the masked ones −∞) before the same
  update of the running state.
-/
import proofs.«413224_j16982300689021_3_alg».proof.Proof.PayDefs
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

open scoped BigOperators

namespace Cert.KernelIdeal.PayValue

open Cert.KernelIdeal Cert.KernelIdeal.Gen Idealize.ShloMosaic Idealize.ShloMosaic.ValueIdx Cert.Spec

namespace Diag

/-! ## Columns: a vector as a one-column table, a column spread over the lanes -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand at `(p, 0)`. -/
theorem broadcastTo_a1_ab_apply {a b : ℕ} (x : (⟨2, ![a, 1]⟩ : Shape).Idx → α) (h : (⟨2, ![a, 1]⟩ : Shape).Broadcasts ⟨2, ![a, b]⟩)
    (p : Fin a) (c : Fin b) : broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane reductions of a 1024 × 1024 table -/

/-- The single-precision word of −∞ is −∞. -/
theorem ofBits_neg_inf : (FloatOps.ofBits (F := Ideal) .f32 0xFF800000#32 : EReal) = ⊥ := by
  simp [Ideal.ofBits, Ideal.ieee]

/-- The row index with the lane inserted. -/
theorem lift_row (h : S1024x1024.Reduces [1] S1024) (r k : Fin 1024) : h.lift (ix1 r) k = ix2 r k :=
  funext fun c => Fin.ext (by
    match c with
    | ⟨0, _⟩ => rfl
    | ⟨1, _⟩ => rfl)

/-- The lane maximum at row r is the maximum of the row. -/
theorem laneMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r) = rowMax (fun s : Fin 1024 => src (ix2 r s)) := by
  refine (Ideal.multiReduction_maximumf_single src _ h hφ hacc (ix1 r)).trans ?_
  show (Finset.univ : Finset (Fin 1024)).fold max (FloatOps.ofBits (F := Ideal) .f32 0xFF800000#32) (src ∘ h.lift (ix1 r)) = _
  rw [ofBits_neg_inf]
  unfold rowMax
  congr 1
  funext k
  exact congrArg src (lift_row h r k)

/-- The lane sum at row r is the sum of the row. -/
theorem laneSum_apply (src : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ s : Fin 1024, src (ix2 r s) := by
  refine (Ideal.multiReduction_add_single src _ h hφ hacc (ix1 r)).trans ?_
  show ∑ k : Fin 1024, src (h.lift (ix1 r) k) = _
  exact Finset.sum_congr rfl fun k _ => congrArg src (lift_row h r k)

/-! ## The two products read at an index -/

theorem lhs_scores_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_scores_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_scores_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_scores_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024 × 128 table with a 128 × 1024 one into zero, at (r, s): the sum over the 128 features. -/
theorem matmul_scores_apply (A : FVec Ideal S1024x128 .bf16) (B : FVec Ideal S128x1024 .bf16) (r s : Fin 1024) :
    FloatOps.matmul dot_S1024x128_S128x1024_S1024x1024_1_0_0_1_n_n none A B (constant (F := Ideal) S1024x1024 .f32 0x00000000#32) (ix2 r s)
      = ∑ k : Fin 128, A (ix2 r k) * B (ix2 k s) := by
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r s) ((ValueIdx.contrEquiv1 dot_S1024x128_S128x1024_S1024x1024_1_0_0_1_n_n 128 rfl rfl).symm k) = ix2 r k := funext fun a => Fin.ext (by
    match a with
    | ⟨0, _⟩ => exact lhs_scores_0 _ _
    | ⟨1, _⟩ => exact (lhs_scores_1 _ _).trans hk)
  have er : dot_S1024x128_S128x1024_S1024x1024_1_0_0_1_n_n.rhsIdx (ix2 r s) ((ValueIdx.contrEquiv1 dot_S1024x128_S128x1024_S1024x1024_1_0_0_1_n_n 128 rfl rfl).symm k) = ix2 k s := funext fun a => Fin.ext (by
    match a with
    | ⟨0, _⟩ => exact (rhs_scores_0 _ _).trans hk
    | ⟨1, _⟩ => exact rhs_scores_1 _ _)
  rw [el, er]

theorem lhs_pv_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pv_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pv_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pv_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a 1024 × 1024 table with a 1024 × 128 one into zero, at (r, d): the sum over the 1024 key rows. -/
theorem matmul_pv_apply (A : FVec Ideal S1024x1024 .bf16) (B : FVec Ideal S1024x128 .bf16) (r : Fin 1024) (d : Fin 128) :
    FloatOps.matmul dot_S1024x1024_S1024x128_S1024x128_1_0_0_1_n_n none A B (constant (F := Ideal) S1024x128 .f32 0x00000000#32) (ix2 r d)
      = ∑ k : Fin 1024, A (ix2 r k) * B (ix2 k d) := by
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r d) ((ValueIdx.contrEquiv1 dot_S1024x1024_S1024x128_S1024x128_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-- The scores of a query tile against a key tile, at (r, s). -/
theorem scores_apply (qt kt : Vec Ideal S1024x128 .bf16) (r s : Fin 1024) :
    k0_pay8 (F := Ideal) qt kt (ix2 r s) = tileOf qt kt r s := by
  unfold k0_pay8 tileOf
  refine (matmul_scores_apply qt _ r s).trans ?_
  refine Finset.sum_congr rfl fun k _ => ?_
  exact congrArg (qt (ix2 r k) * ·) (transpose_ix2_apply kt _ k s)

/-! ## The mask of the diagonal tile -/

/-- The mask's fill value is −∞. -/
theorem neg_big : Named.named (F := Ideal) Cert.KernelIdeal.κ "neg_big" (φ := .f32) 0xF149F2CA#32 = (⊥ : EReal) :=
  IdealRules.named_const.ideal_named_scalar _ _ _ _ rfl

/-- The global number of row r of tile v (v below 4) as a word: no wrap-around. -/
theorem tile_word_toNat (v : BitVec 32) (hv : v.toNat < 4) (r : Fin 1024) :
    (IntOp.addi (Scalar.muli v 1024#32) (BitVec.ofNat 32 r.val)).toNat = v.toNat * 1024 + r.val := by
  have := r.isLt
  simp only [IntOp.addi, Scalar.muli, IntOp.muli, BitVec.toNat_add, BitVec.toNat_mul, BitVec.toNat_ofNat]
  omega

/-- Within one tile the signed comparison of the global row and column numbers is that of the local ones. -/
theorem sge_tile (v : BitVec 32) (hv : v.toNat < 4) (r s : Fin 1024) :
    IntOp.cmpi .sge (IntOp.addi (Scalar.muli v 1024#32) (BitVec.ofNat 32 r.val))
      (IntOp.addi (Scalar.muli v 1024#32) (BitVec.ofNat 32 s.val)) = 1#1 ↔ s.val ≤ r.val := by
  have hr := tile_word_toNat v hv r
  have hs := tile_word_toNat v hv s
  have := r.isLt
  have := s.isLt
  rw [StableHlo.Predicate.sge_iff_toNat (by rw [hr]; omega) (by rw [hs]; omega), hr, hs]
  omega

/-- The masked scores at (r, s): the score when key s is visible to query r, else −∞. -/
theorem masked_apply (v : BitVec 32) (hv : v.toNat < 4) (S : FVec Ideal S1024x1024 .f32) (r s : Fin 1024) :
    k0_pay17 (F := Ideal) v v S (ix2 r s) = if s.val ≤ r.val then S (ix2 r s) else ⊥ := by
  unfold k0_pay17
  have e0 : iota .tc S1024x1024 32 [0] iota_S1024x1024_d0_w32 (ix2 r s) = BitVec.ofNat 32 r.val :=
    iota_single_apply _ _ _ _ _ _
  have e1 : iota .tc S1024x1024 32 [1] iota_S1024x1024_d1_w32 (ix2 r s) = BitVec.ofNat 32 s.val :=
    iota_single_apply _ _ _ _ _ _
  simp only [select_apply, cmpi, addi, broadcast_apply, neg_big, e0, e1]
  by_cases h : s.val ≤ r.val
  · rw [if_pos h, (sge_tile v hv r s).2 h]; exact select_one _ _
  · rw [if_neg h, eq_zero_of_ne_one (fun hc => h ((sge_tile v hv r s).1 hc))]; exact select_zero _ _

/-! ## The three components of the update, at a row (and a column) -/

section Components
variable (v : BitVec 32) (hv : v.toNat < 4) (S : FVec Ideal S1024x1024 .f32) (T : Fin 1024 → Fin 1024 → EReal)
  (hS : ∀ r s, S (ix2 r s) = T r s)

include hv hS in
/-- The masked scores are the specification's masked tile. -/
theorem masked_eq (r s : Fin 1024) : k0_pay17 (F := Ideal) v v S (ix2 r s) = maskOf T r s := by
  rw [masked_apply v hv S r s, hS]; rfl

include hv hS in
/-- The new maximum at row r. -/
theorem newmax_apply (m : FVec Ideal S1024x1 .f32) (r : Fin 1024) :
    k0_pay18 (F := Ideal) v v S m (ix2 r 0) = max (m (ix2 r 0)) (rowMax (maskOf T r)) := by
  unfold k0_pay18
  refine (maximumf_apply _ _ _).trans ?_
  refine congrArg (max (m (ix2 r 0))) ?_
  refine (shapeCast_a_a1_apply _ _ r 0).trans ?_
  refine (laneMax_apply _ _ _ _ r).trans ?_
  exact congrArg rowMax (funext fun s => masked_eq v hv S T hS r s)

/-- The rescaling factor at row r. -/
theorem rescale_apply (m m' : FVec Ideal S1024x1 .f32) (r : Fin 1024) :
    k0_pay19 (F := Ideal) v v S m m' (ix2 r 0) = Ideal.exp (m' (ix2 r 0) - k0_pay18 (F := Ideal) v v S m (ix2 r 0)) := rfl

/-- The weight of key s for query r. -/
theorem weight_apply (m : FVec Ideal S1024x1 .f32) (r s : Fin 1024) :
    k0_pay20 (F := Ideal) v v S m (ix2 r s)
      = Ideal.exp (k0_pay17 (F := Ideal) v v S (ix2 r s) - k0_pay18 (F := Ideal) v v S m (ix2 r 0)) := by
  unfold k0_pay20
  exact congrArg (fun t => Ideal.exp (k0_pay17 (F := Ideal) v v S (ix2 r s) - t)) (broadcastTo_a1_ab_apply _ _ r s)

include hv hS in
/-- The new denominator at row r. -/
theorem newl_apply (m l : FVec Ideal S1024x1 .f32) (r : Fin 1024) :
    k0_pay21 (F := Ideal) v v S m m l (ix2 r 0)
      = Ideal.exp (m (ix2 r 0) - max (m (ix2 r 0)) (rowMax (maskOf T r))) * l (ix2 r 0)
        + ∑ s : Fin 1024, Ideal.exp (maskOf T r s - max (m (ix2 r 0)) (rowMax (maskOf T r))) := by
  unfold k0_pay21
  refine (congrFun (shapeCast_self _ _) _).trans ?_
  refine (addf_apply _ _ _).trans ?_
  refine congrArg₂ (· + ·) ?_ ?_
  · refine (mulf_apply _ _ _).trans ?_
    rw [rescale_apply, newmax_apply v hv S T hS]
  · refine (shapeCast_a_a1_apply _ _ r 0).trans ?_
    refine (laneSum_apply _ _ _ _ r).trans ?_
    refine Finset.sum_congr rfl fun s _ => ?_
    rw [weight_apply, masked_eq v hv S T hS, newmax_apply v hv S T hS]

include hv hS in
/-- The new numerator at row r and column d. -/
theorem newacc_apply (vt : FVec Ideal S1024x128 .bf16) (m : FVec Ideal S1024x1 .f32) (acc : FVec Ideal S1024x128 .f32)
    (r : Fin 1024) (d : Fin 128) :
    k0_pay22 (F := Ideal) v v vt S m m acc (ix2 r d)
      = Ideal.exp (m (ix2 r 0) - max (m (ix2 r 0)) (rowMax (maskOf T r))) * acc (ix2 r d)
        + ∑ s : Fin 1024, Ideal.exp (maskOf T r s - max (m (ix2 r 0)) (rowMax (maskOf T r))) * vt (ix2 s d) := by
  unfold k0_pay22
  refine (congrFun (shapeCast_self _ _) _).trans ?_
  refine (addf_apply _ _ _).trans ?_
  refine congrArg₂ (· + ·) ?_ ?_
  · refine (mulf_apply _ _ _).trans ?_
    refine congrArg (· * acc (ix2 r d)) ?_
    refine (broadcastTo_a1_ab_apply _ _ r d).trans ?_
    rw [rescale_apply, newmax_apply v hv S T hS]
  · refine (matmul_pv_apply _ _ r d).trans ?_
    refine Finset.sum_congr rfl fun s _ => ?_
    refine congrArg (· * vt (ix2 s d)) ?_
    show k0_pay20 (F := Ideal) v v S m (ix2 r s) = _
    rw [weight_apply, masked_eq v hv S T hS, newmax_apply v hv S T hS]

end Components

end Diag

open Diag

/-- On the diagonal tile (query tile = key tile = v, a tile number below 4) the new maximum, denominator and numerator are
    the specification's update by the masked tile. -/
theorem upd_diag (v : BitVec 32) (hv : v.toNat < 4) (qt kt vt : Vec Ideal S1024x128 .bf16) (m l : Vec Ideal S1024x1 .f32) (acc : Vec Ideal S1024x128 .f32) :
    stOf (k0_pay9 (F := Ideal) (k0_pay18 (F := Ideal) v v (k0_pay8 (F := Ideal) qt kt) m))
        (k0_pay21 (F := Ideal) v v (k0_pay8 (F := Ideal) qt kt) m m l)
        (k0_pay22 (F := Ideal) v v vt (k0_pay8 (F := Ideal) qt kt) m m acc)
      = St.upd (maskOf (tileOf qt kt)) (vOf vt) (stOf m l acc) := by
  have key : ∀ a b : St, a.m = b.m → a.l = b.l → a.acc = b.acc → a = b := by
    intro a b h1 h2 h3
    cases a; cases b
    simp only [St.mk.injEq]
    exact ⟨h1, h2, h3⟩
  have hS : ∀ r s, k0_pay8 (F := Ideal) qt kt (ix2 r s) = tileOf qt kt r s := scores_apply qt kt
  refine key _ _ (funext fun r => ?_) (funext fun r => ?_) (funext fun r => funext fun d => ?_)
  · show k0_pay9 (F := Ideal) (k0_pay18 (F := Ideal) v v (k0_pay8 (F := Ideal) qt kt) m) (ix2 r 0)
      = max (m (ix2 r 0)) (rowMax (maskOf (tileOf qt kt) r))
    unfold k0_pay9
    refine (congrFun (shapeCast_self _ _) _).trans ?_
    exact newmax_apply v hv _ _ hS m r
  · exact newl_apply v hv _ _ hS m l r
  · exact newacc_apply v hv _ _ hS vt m acc r d

end Cert.KernelIdeal.PayValue

end
-- ==== Proof.TrajValue.lean ====
/-
  What the buffers hold after each point, in the specification's terms. After a point of batch b with tiles (qi, ki): the
  three projection buffers hold the batch's projections (the query's scaled); the running state is the specification's
  state of query tile qi after its first ki + 1 key tiles; and on the diagonal the output's staging buffer holds the
  kernel's result for the rows of query tile qi. By induction on the point: a batch's first point stores the projections and
  starts tile 0; a first key tile starts from the reset state; every other point continues the point before, which has
  the same batch and query tile and the key tile one less.
-/
import proofs.«413224_j16982300689021_3_alg».proof.Proof.Gen.KernelIdeal.Launch
import proofs.«413224_j16982300689021_3_alg».proof.Proof.Gen.KernelIdeal.Skeleton
import proofs.«413224_j16982300689021_3_alg».proof.Proof.BlockReads
import proofs.«413224_j16982300689021_3_alg».proof.Proof.PiecesAB
import proofs.«413224_j16982300689021_3_alg».proof.Proof.PiecesCD
import proofs.«413224_j16982300689021_3_alg».proof.Proof.PayProj
import proofs.«413224_j16982300689021_3_alg».proof.Proof.PayBelow
import proofs.«413224_j16982300689021_3_alg».proof.Proof.PayDiag
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

open Idealize.ShloMosaic.ValueIdx Cert.Spec Cert.KernelIdeal.PayValue

variable (m : (ℓ : Loc nD τ sig) → Buf (Elt 𝔽) ℓ)

namespace Traj

/-! ## From the buffers' tiles to the specification's tiles -/

/-- Rows of the query and key buffers that hold the batch's projections give the specification's score tile. -/
theorem tileOf_rows (X : Act) (Wq Wk : Wt) (b : Fin 4) (Q K : Vec 𝔽 S4096x128 .bf16)
    (hq : ∀ (r : Fin 4096) (d : Fin 128), Q (ix2 r d) = kq X Wq b r d)
    (hk : ∀ (r : Fin 4096) (d : Fin 128), K (ix2 r d) = proj X Wk b r d) (qi ki : ℕ) :
    tileOf (tileRows Q qi) (tileRows K ki) = tileS X Wq Wk b qi ki := by
  funext r s
  unfold tileOf tileS
  refine Finset.sum_congr rfl fun d _ => ?_
  rw [tileRows_apply, tileRows_apply, hq, hk]

/-- Rows of the value buffer that holds the batch's projection give the specification's value tile. -/
theorem vOf_rows (X : Act) (Wv : Wt) (b : Fin 4) (V : Vec 𝔽 S4096x128 .bf16)
    (hv : ∀ (r : Fin 4096) (d : Fin 128), V (ix2 r d) = proj X Wv b r d) (ki : ℕ) :
    vOf (tileRows V ki) = tileV X Wv b ki := by
  funext s d
  unfold vOf tileV
  rw [tileRows_apply, hv]

/-- The mask of the diagonal score tile is the specification's masked tile. -/
theorem maskOf_tileS (X : Act) (Wq Wk : Wt) (b : Fin 4) (qi : ℕ) :
    maskOf (tileS X Wq Wk b qi qi) = tileSm X Wq Wk b qi := by
  funext r s
  rfl

/-! ## One tile of the running state -/

/-- A diagonal tile: from the state after qi key tiles to the state after qi + 1. -/
theorem st_diag (X : Act) (Wq Wk Wv : Wt) (b : Fin 4) (Q K V : Vec 𝔽 S4096x128 .bf16)
    (hq : ∀ (r : Fin 4096) (d : Fin 128), Q (ix2 r d) = kq X Wq b r d)
    (hk : ∀ (r : Fin 4096) (d : Fin 128), K (ix2 r d) = proj X Wk b r d)
    (hv : ∀ (r : Fin 4096) (d : Fin 128), V (ix2 r d) = proj X Wv b r d)
    (w : BitVec 32) (hw : w.toNat < 4) (mm ll : Vec 𝔽 S1024x1 .f32) (aa : Vec 𝔽 S1024x128 .f32)
    (hst : stOf mm ll aa = kst X Wq Wk Wv b w.toNat w.toNat) :
    stOf (k0_pay9 (F := 𝔽) (k0_pay18 (F := 𝔽) w w (k0_pay8 (F := 𝔽) (tileRows Q w.toNat) (tileRows K w.toNat)) mm))
        (k0_pay21 (F := 𝔽) w w (k0_pay8 (F := 𝔽) (tileRows Q w.toNat) (tileRows K w.toNat)) mm mm ll)
        (k0_pay22 (F := 𝔽) w w (tileRows V w.toNat) (k0_pay8 (F := 𝔽) (tileRows Q w.toNat) (tileRows K w.toNat)) mm mm aa)
      = kst X Wq Wk Wv b w.toNat (w.toNat + 1) := by
  rw [upd_diag w hw, tileOf_rows X Wq Wk b Q K hq hk, maskOf_tileS, vOf_rows X Wv b V hv, hst]
  show _ = St.upd (if w.toNat = w.toNat then _ else _) _ _
  rw [if_pos rfl]

/-- A tile below the diagonal: from the state after ki key tiles to the state after ki + 1. -/
theorem st_below (X : Act) (Wq Wk Wv : Wt) (b : Fin 4) (Q K V : Vec 𝔽 S4096x128 .bf16)
    (hq : ∀ (r : Fin 4096) (d : Fin 128), Q (ix2 r d) = kq X Wq b r d)
    (hk : ∀ (r : Fin 4096) (d : Fin 128), K (ix2 r d) = proj X Wk b r d)
    (hv : ∀ (r : Fin 4096) (d : Fin 128), V (ix2 r d) = proj X Wv b r d)
    (qi ki : ℕ) (hne : ki ≠ qi) (mm ll : Vec 𝔽 S1024x1 .f32) (aa : Vec 𝔽 S1024x128 .f32)
    (hst : stOf mm ll aa = kst X Wq Wk Wv b qi ki) :
    stOf (k0_pay16 (F := 𝔽) (tileRows Q qi) (tileRows K ki) mm)
        (k0_pay14 (F := 𝔽) (tileRows Q qi) (tileRows K ki) mm mm ll)
        (k0_pay15 (F := 𝔽) (tileRows Q qi) (tileRows K ki) (tileRows V ki) mm mm aa)
      = kst X Wq Wk Wv b qi (ki + 1) := by
  rw [upd_below, tileOf_rows X Wq Wk b Q K hq hk, vOf_rows X Wv b V hv, hst]
  show _ = St.upd (if ki = qi then _ else _) _ _
  rw [if_neg hne]

/-- The output block from the state after the diagonal tile. -/
theorem out_of_state (X : Act) (Wq Wk Wv : Wt) (b : Fin 4) (qi : ℕ) (mm ll : Vec 𝔽 S1024x1 .f32) (aa : Vec 𝔽 S1024x128 .f32)
    (hst : stOf mm ll aa = kst X Wq Wk Wv b qi (qi + 1)) (r : Fin 1024) (d : Fin 128) :
    k0_pay10 (F := 𝔽) aa ll (ix3 0 r d) = kerOut X Wq Wk Wv b qi r d := by
  rw [out_val]
  unfold kerOut
  rw [← hst]
  rfl

/-! ## The invariant read on contents -/

/-- The invariant on contents s for batch b, query tile qi and key tile ki; dg says that the point is diagonal. -/
def SInv (c : Dev nD) (s : Sc) (b : Fin 4) (qi ki : ℕ) (dg : Prop) : Prop :=
  (∀ (r : Fin 4096) (d : Fin 128), s.q (ix2 r d) = kq (Xa m c) (Wqa m c) b r d)
  ∧ (∀ (r : Fin 4096) (d : Fin 128), s.k (ix2 r d) = proj (Xa m c) (Wka m c) b r d)
  ∧ (∀ (r : Fin 4096) (d : Fin 128), s.v (ix2 r d) = proj (Xa m c) (Wva m c) b r d)
  ∧ stOf s.m s.l s.acc = kst (Xa m c) (Wqa m c) (Wka m c) (Wva m c) b qi (ki + 1)
  ∧ (dg → ∀ (r : Fin 1024) (d : Fin 128), s.o (ix3 0 r d) = kerOut (Xa m c) (Wqa m c) (Wka m c) (Wva m c) b qi r d)

end Traj

/-- The invariant of the trajectory at point t. -/
def TInv (c : Dev nD) (t : Fin cfgL.N) : Prop :=
  (∀ (r : Fin 4096) (d : Fin 128), (traj m c t.val t.isLt).q (ix2 r d) = kq (Xa m c) (Wqa m c) (bat t) r d)
  ∧ (∀ (r : Fin 4096) (d : Fin 128), (traj m c t.val t.isLt).k (ix2 r d) = proj (Xa m c) (Wka m c) (bat t) r d)
  ∧ (∀ (r : Fin 4096) (d : Fin 128), (traj m c t.val t.isLt).v (ix2 r d) = proj (Xa m c) (Wva m c) (bat t) r d)
  ∧ stOf (traj m c t.val t.isLt).m (traj m c t.val t.isLt).l (traj m c t.val t.isLt).acc
      = kst (Xa m c) (Wqa m c) (Wka m c) (Wva m c) (bat t) (wqL c t).toNat ((wkL c t).toNat + 1)
  ∧ (Q3 c t → ∀ (r : Fin 1024) (d : Fin 128),
      (traj m c t.val t.isLt).o (ix3 0 r d) = kerOut (Xa m c) (Wqa m c) (Wka m c) (Wva m c) (bat t) (wqL c t).toNat r d)

namespace Traj

theorem TInv_iff (c : Dev nD) (t : Fin cfgL.N) :
    TInv m c t ↔ SInv m c (traj m c t.val t.isLt) (bat t) (wqL c t).toNat (wkL c t).toNat (Q3 c t) := Iff.rfl

/-! ## The four paths -/

/-- A batch's first point: the projections are stored, and the first (diagonal) tile starts from the reset state. -/
theorem pathA (c : Dev nD) (t : Fin cfgL.N) (q1 : Q1 t) :
    SInv m c (outA m c t q1) (bat t) (wqL c t).toNat (wkL c t).toNat (Q3 c t) := by
  have hA := hypsA c t q1
  have h3 : wkL c t = wqL c t := (Q3_iff c t).1 hA.2.1
  have h2 : (wkL c t).toNat = 0 := (Q2_iff c t).1 hA.1
  have h0 : (wqL c t).toNat = 0 := by rw [← h3]; exact h2
  have hq : ∀ (r : Fin 4096) (d : Fin 128), (outA m c t q1).q (ix2 r d) = kq (Xa m c) (Wqa m c) (bat t) r d := by
    intro r d
    rw [outA_q, proj_q]
    unfold kq proj
    refine congrArg (· * σ) (Finset.sum_congr rfl fun e _ => ?_)
    rw [iblk0_apply, iblk1_apply]
  have hk : ∀ (r : Fin 4096) (d : Fin 128), (outA m c t q1).k (ix2 r d) = proj (Xa m c) (Wka m c) (bat t) r d := by
    intro r d
    rw [outA_k, proj_k]
    unfold proj
    refine Finset.sum_congr rfl fun e _ => ?_
    rw [iblk0_apply, iblk2_apply]
  have hv : ∀ (r : Fin 4096) (d : Fin 128), (outA m c t q1).v (ix2 r d) = proj (Xa m c) (Wva m c) (bat t) r d := by
    intro r d
    rw [outA_v, proj_v]
    unfold proj
    refine Finset.sum_congr rfl fun e _ => ?_
    rw [iblk0_apply, iblk3_apply]
  have hst : stOf (outA m c t q1).m (outA m c t q1).l (outA m c t q1).acc
      = kst (Xa m c) (Wqa m c) (Wka m c) (Wva m c) (bat t) (wqL c t).toNat ((wqL c t).toNat + 1) := by
    rw [outA_m, outA_l, outA_acc, h3]
    exact st_diag _ _ _ _ (bat t) _ _ _ hq hk hv (wqL c t) (wq_lt c t) _ _ _ (by rw [h0]; exact init_st)
  refine ⟨hq, hk, hv, ?_, fun _ r d => ?_⟩
  · rw [h3]; exact hst
  · rw [outA_o]
    exact out_of_state _ _ _ _ (bat t) _ _ _ _ hst r d

/-- A query tile's first key tile below the diagonal: the projections are the carried ones, the tile starts from the
    reset state. -/
theorem pathB (c : Dev nD) (t : Fin cfgL.N) (p : Sc) (q1 : ¬Q1 t) (q3 : ¬Q3 c t) (q2 : Q2 c t)
    (hq : ∀ (r : Fin 4096) (d : Fin 128), p.q (ix2 r d) = kq (Xa m c) (Wqa m c) (bat t) r d)
    (hk : ∀ (r : Fin 4096) (d : Fin 128), p.k (ix2 r d) = proj (Xa m c) (Wka m c) (bat t) r d)
    (hv : ∀ (r : Fin 4096) (d : Fin 128), p.v (ix2 r d) = proj (Xa m c) (Wva m c) (bat t) r d) :
    SInv m c (outB m c t p q1 q3 q2) (bat t) (wqL c t).toNat (wkL c t).toNat (Q3 c t) := by
  have h2 : (wkL c t).toNat = 0 := (Q2_iff c t).1 q2
  have hne : (wkL c t).toNat ≠ (wqL c t).toNat := fun h => q3 ((Q3_iff c t).2 (BitVec.eq_of_toNat_eq h))
  refine ⟨hq, hk, hv, ?_, fun h => absurd h q3⟩
  rw [outB_m, outB_l, outB_acc]
  exact st_below _ _ _ _ (bat t) p.q p.k p.v hq hk hv _ _ hne _ _ _ (by rw [h2]; exact init_st)

/-- A later diagonal tile: the state continues the point before, and the output block is stored. -/
theorem pathC (c : Dev nD) (t : Fin cfgL.N) (p : Sc) (q1 : ¬Q1 t) (q3 : Q3 c t)
    (hq : ∀ (r : Fin 4096) (d : Fin 128), p.q (ix2 r d) = kq (Xa m c) (Wqa m c) (bat t) r d)
    (hk : ∀ (r : Fin 4096) (d : Fin 128), p.k (ix2 r d) = proj (Xa m c) (Wka m c) (bat t) r d)
    (hv : ∀ (r : Fin 4096) (d : Fin 128), p.v (ix2 r d) = proj (Xa m c) (Wva m c) (bat t) r d)
    (hst : stOf p.m p.l p.acc = kst (Xa m c) (Wqa m c) (Wka m c) (Wva m c) (bat t) (wqL c t).toNat (wkL c t).toNat) :
    SInv m c (outC m c t p q1 q3) (bat t) (wqL c t).toNat (wkL c t).toNat (Q3 c t) := by
  have h3 : wkL c t = wqL c t := (Q3_iff c t).1 q3
  have hst0 : stOf p.m p.l p.acc = kst (Xa m c) (Wqa m c) (Wka m c) (Wva m c) (bat t) (wqL c t).toNat (wqL c t).toNat := by
    rw [h3] at hst; exact hst
  have hst' : stOf (outC m c t p q1 q3).m (outC m c t p q1 q3).l (outC m c t p q1 q3).acc
      = kst (Xa m c) (Wqa m c) (Wka m c) (Wva m c) (bat t) (wqL c t).toNat ((wqL c t).toNat + 1) := by
    rw [outC_m, outC_l, outC_acc, h3]
    exact st_diag _ _ _ _ (bat t) p.q p.k p.v hq hk hv (wqL c t) (wq_lt c t) _ _ _ hst0
  refine ⟨hq, hk, hv, ?_, fun _ r d => ?_⟩
  · rw [h3]; exact hst'
  · rw [outC_o]
    exact out_of_state _ _ _ _ (bat t) _ _ _ _ hst' r d

/-- A later tile below the diagonal: the state continues the point before. -/
theorem pathD (c : Dev nD) (t : Fin cfgL.N) (p : Sc) (q1 : ¬Q1 t) (q3 : ¬Q3 c t) (q2 : ¬Q2 c t)
    (hq : ∀ (r : Fin 4096) (d : Fin 128), p.q (ix2 r d) = kq (Xa m c) (Wqa m c) (bat t) r d)
    (hk : ∀ (r : Fin 4096) (d : Fin 128), p.k (ix2 r d) = proj (Xa m c) (Wka m c) (bat t) r d)
    (hv : ∀ (r : Fin 4096) (d : Fin 128), p.v (ix2 r d) = proj (Xa m c) (Wva m c) (bat t) r d)
    (hst : stOf p.m p.l p.acc = kst (Xa m c) (Wqa m c) (Wka m c) (Wva m c) (bat t) (wqL c t).toNat (wkL c t).toNat) :
    SInv m c (outD m c t p q1 q3 q2) (bat t) (wqL c t).toNat (wkL c t).toNat (Q3 c t) := by
  have hne : (wkL c t).toNat ≠ (wqL c t).toNat := fun h => q3 ((Q3_iff c t).2 (BitVec.eq_of_toNat_eq h))
  refine ⟨hq, hk, hv, ?_, fun h => absurd h q3⟩
  rw [outD_m, outD_l, outD_acc]
  exact st_below _ _ _ _ (bat t) p.q p.k p.v hq hk hv _ _ hne _ _ _ hst

/-! ## The induction -/

/-- Before a point that is not the first, "before" is the point before. -/
theorem prev_of_pos (c : Dev nD) (t : Fin cfgL.N) (hz : t.val ≠ 0) :
    prev m c t = traj m c (t.val - 1) (by have := t.isLt; omega) := by
  unfold prev; rw [dif_neg hz]

/-- The invariant at a point from the invariant at the point before. -/
theorem tinv_step (c : Dev nD) (t : Fin cfgL.N)
    (ih : ∀ hz : t.val ≠ 0, TInv m c ⟨t.val - 1, by have := t.isLt; omega⟩) : TInv m c t := by
  rw [TInv_iff, traj_eq]
  by_cases q1 : Q1 t
  · rw [step_A m c t _ q1]
    exact pathA m c t q1
  · obtain ⟨hpos, hb⟩ := pred_batch c t q1
    have hz : t.val ≠ 0 := by omega
    obtain ⟨iq, ik, iv, ist, -⟩ := (TInv_iff m c _).1 (ih hz)
    rw [prev_of_pos m c t hz]
    have hbat : bat (⟨t.val - 1, by have := t.isLt; omega⟩ : Fin cfgL.N) = bat t :=
      Fin.ext (by show (t.val - 1) / 10 = t.val / 10; exact hb)
    rw [hbat] at iq ik iv ist
    by_cases q3 : Q3 c t
    · rw [step_C m c t _ q1 q3]
      obtain ⟨_, e1, e2, _, _⟩ := pred_of_not_first c t (hypsC c t q1 q3).1
      rw [e1, e2] at ist
      exact pathC m c t _ q1 q3 iq ik iv ist
    · by_cases q2 : Q2 c t
      · rw [step_B m c t _ q1 q3 q2]
        exact pathB m c t _ q1 q3 q2 iq ik iv
      · rw [step_D m c t _ q1 q3 q2]
        obtain ⟨_, e1, e2, _, _⟩ := pred_of_not_first c t q2
        rw [e1, e2] at ist
        exact pathD m c t _ q1 q3 q2 iq ik iv ist

end Traj

theorem traj_inv (c : Dev nD) (t : Fin cfgL.N) : TInv m c t := by
  obtain ⟨n, hn⟩ := t
  induction n with
  | zero => exact Traj.tinv_step m c ⟨0, hn⟩ (fun hz => absurd rfl hz)
  | succ n ih => exact Traj.tinv_step m c ⟨n + 1, hn⟩ (fun _ => ih (by omega))

end Cert.KernelIdeal.Hand

end
-- ==== Proof.KerValue.lean ====
/-
  The output array after the run. Only the diagonal points write the output's block back, and the block of the diagonal
  point of batch b and query tile qi is rows qi·1024 … qi·1024 + 1023 of batch b; what it holds there is the kernel's
  result for those rows. The sixteen diagonal points' blocks tile the array, so the array ends as one function of the
  argument arrays: the kernel's result, row by row.
-/
import proofs.«413224_j16982300689021_3_alg».proof.Proof.Gen.KernelIdeal.Launch
import proofs.«413224_j16982300689021_3_alg».proof.Proof.Gen.KernelIdeal.Skeleton
import proofs.«413224_j16982300689021_3_alg».proof.Proof.Launch
import proofs.«413224_j16982300689021_3_alg».proof.Proof.TrajValue
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The float instance this program is read at. -/
local notation "𝔽" => Ideal

local notation "𝕄" => MT nD τ sig Unit (Elt 𝔽) ℕ (UR sig nD τ) ℕ

open Idealize.ShloMosaic.ValueIdx Cert.Spec Cert.KernelIdeal.PayValue

variable (m : (ℓ : Loc nD τ sig) → Buf (Elt 𝔽) ℓ) (ρ : Dev nD → PrngReg)

/-- The output array by coordinates: entry (b, t, d) is the kernel's result for row t mod 1024 of query tile t / 1024. -/
def Gout (c : Dev nD) : Buf (Elt 𝔽) ((cfgL.win 4).arr.view.loc (c.tc : Thread nD τ)) := fun i =>
  kerOut (Xa m c) (Wqa m c) (Wka m c) (Wva m c) ⟨(i 0).val, (i 0).isLt⟩ ((i 1).val / 1024)
    ⟨(i 1).val % 1024, Nat.mod_lt _ (by norm_num)⟩ ⟨(i 2).val, (i 2).isLt⟩

/-- Every (batch, query tile) has its diagonal point. -/
theorem diag_onto0 : ∀ (b : Fin 4) (q : Fin 4), ∃ t : Fin cfgL.N, Q3 0 t ∧ t.val / 10 = b.val ∧ (wqL 0 t).toNat = q.val := by
  decide +kernel

theorem diag_onto (c : Dev nD) (b : Fin 4) (q : Fin 4) : ∃ t : Fin cfgL.N, Q3 c t ∧ t.val / 10 = b.val ∧ (wqL c t).toNat = q.val := by
  obtain rfl : c = 0 := Subsingleton.elim _ _
  exact diag_onto0 b q

/-- Where a diagonal point's block sits in the array. -/
theorem emb4 (c : Dev nD) (t : Fin cfgL.N) (r : Fin 1024) (d : Fin 128) (a : Fin 3) :
    ((((cfgL.win 4).blk t).view.emb (ix3 0 r d)) a).val = (![t.val / 10, (wqL c t).toNat * 1024 + r.val, d.val] : Fin 3 → ℕ) a := by
  have h0 : (cfgL.win 4).index t 0 = t.val / 10 := index4 c t 0
  have h1 : (cfgL.win 4).index t 1 = (wqL c t).toNat := index4 c t 1
  have h2 : (cfgL.win 4).index t 2 = 0 := index4 c t 2
  match a with
  | ⟨0, _⟩ => show (cfgL.win 4).index t 0 * 1 + 1 * 0 = t.val / 10; omega
  | ⟨1, _⟩ => show (cfgL.win 4).index t 1 * 1024 + 1 * r.val = (wqL c t).toNat * 1024 + r.val; omega
  | ⟨2, _⟩ => show (cfgL.win 4).index t 2 * 128 + 1 * d.val = d.val; omega

/-- What a diagonal point writes back is its block of the one function. -/
theorem flushed4_eq (c : Dev nD) (t : Fin cfgL.N) (q3 : Q3 c t) :
    (dats m 0 c).flushed 4 t = ((cfgL.win 4).blk t).view.read (Elt 𝔽) (Gout m c) := by
  show (cfgL.win 4).cut (cfgL.grid.coords t) ((dats m 0 c).after 4 t) = _
  rw [after0_4]
  funext j
  obtain ⟨r, d, rfl⟩ : ∃ (r : Fin 1024) (d : Fin 128), j = ix3 0 r d := ⟨j 1, j 2, by
    funext a; match a with
    | ⟨0, _⟩ => exact Fin.ext (by show (j 0).val = 0; have h : (j 0).val < 1 := (j 0).isLt; omega)
    | ⟨1, _⟩ => rfl
    | ⟨2, _⟩ => rfl⟩
  show (traj m c t.val t.isLt).o (ix3 0 r d) = Gout m c (((cfgL.win 4).blk t).view.emb (ix3 0 r d))
  rw [(traj_inv m c t).2.2.2.2 q3 r d]
  have e0 : ((((cfgL.win 4).blk t).view.emb (ix3 0 r d)) 0).val = t.val / 10 := emb4 c t r d 0
  have e1 : ((((cfgL.win 4).blk t).view.emb (ix3 0 r d)) 1).val = (wqL c t).toNat * 1024 + r.val := emb4 c t r d 1
  have e2 : ((((cfgL.win 4).blk t).view.emb (ix3 0 r d)) 2).val = d.val := emb4 c t r d 2
  have hq := wq_lt c t
  unfold Gout
  have hr := r.isLt
  refine congr (congr (congr (congrArg _ ?_) ?_) ?_) ?_
  · exact Fin.ext (by show t.val / 10 = ((((cfgL.win 4).blk t).view.emb (ix3 0 r d)) 0).val; exact e0.symm)
  · show (wqL c t).toNat = ((((cfgL.win 4).blk t).view.emb (ix3 0 r d)) 1).val / 1024
    rw [e1]; omega
  · exact Fin.ext (by
      show r.val = ((((cfgL.win 4).blk t).view.emb (ix3 0 r d)) 1).val % 1024
      rw [e1]; omega)
  · exact Fin.ext (by show d.val = ((((cfgL.win 4).blk t).view.emb (ix3 0 r d)) 2).val; exact e2.symm)

/-- An index of the array is in a point's block iff each coordinate is in the block's range. -/
theorem mem_blk4 (t : Fin cfgL.N) (i : S4x4096x128.Idx) :
    i ∈ ((cfgL.win 4).blk t).view.set ↔ ∀ a : Fin 3, (cfgL.win 4).index t a * S1x1024x128.size a ≤ (i a).val ∧ (i a).val < (cfgL.win 4).index t a * S1x1024x128.size a + S1x1024x128.size a := by
  show i ∈ ((View.whole main_v3).slice ((cfgL.win 4).rect t)).set ↔ _
  rw [View.set_slice_whole, Rect.mem_set_unit]
  exact Iff.rfl

/-- The diagonal points' blocks cover the array. -/
theorem cover4 (c : Dev nD) (i : S4x4096x128.Idx) : ∃ t : Fin cfgL.N, (cfgL.win 4).flush t = true ∧ i ∈ ((cfgL.win 4).blk t).view.set := by
  have hi0 : (i 0).val < 4 := (i 0).isLt
  have hi1 : (i 1).val < 4096 := (i 1).isLt
  have hi2 : (i 2).val < 128 := (i 2).isLt
  obtain ⟨t, q3, hb, hq⟩ := diag_onto c ⟨(i 0).val, hi0⟩ ⟨(i 1).val / 1024, by omega⟩
  have h0 : (cfgL.win 4).index t 0 = t.val / 10 := index4 c t 0
  have h1 : (cfgL.win 4).index t 1 = (wqL c t).toNat := index4 c t 1
  have h2 : (cfgL.win 4).index t 2 = 0 := index4 c t 2
  refine ⟨t, flush4_of c t q3, ?_⟩
  rw [mem_blk4]
  intro a
  match a with
  | ⟨0, _⟩ => show (cfgL.win 4).index t 0 * 1 ≤ (i 0).val ∧ (i 0).val < (cfgL.win 4).index t 0 * 1 + 1; simp only at hb hq; omega
  | ⟨1, _⟩ => show (cfgL.win 4).index t 1 * 1024 ≤ (i 1).val ∧ (i 1).val < (cfgL.win 4).index t 1 * 1024 + 1024; simp only at hb hq; omega
  | ⟨2, _⟩ => show (cfgL.win 4).index t 2 * 128 ≤ (i 2).val ∧ (i 2).val < (cfgL.win 4).index t 2 * 128 + 128; omega

/-- The output array after the run. -/
theorem final4 (c : Dev nD) : (dats m 0 c).arrAt 4 cfgL.N = Gout m c :=
  (dats m 0 c).arrAt_eq_of_cover 4 (Gout m c)
    (fun t hf => flushed4_eq m c t (of_decide_eq_true (((allFacts c t).2.2.2.2.2.2.1).symm.trans hf)))
    (cover4 c)

/-- The run, read: the output array at the kernel's result, the argument arrays as launched. -/
theorem run_value : θ_run defs (onTc (τ := τ) (main (F := 𝔽))) ⟨m, fun _ => 0, ρ⟩ (fun r => ∀ c : Dev nD,
      r.2.mem ((c.tc : Thread nD τ).loc main_v3) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c),
      ((h c).1 0).trans (((dats m 0 c).arrAt_in 0 rfl _).trans ((A_eq m c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ)

end Cert.KernelIdeal.Hand

end
-- ==== Proof.RefValue.lean ====
/-
  The reference's result, read at an index: the softmax-weighted sum of the value rows, as the specification states it.

  Stage by stage, each at explicit coordinates: the three projections x·W are sums over the 128 input channels; the score
  of query row t against key row s is the inner product of the two projected rows times σ; the mask bit at (t, s) is set
  exactly when s ≤ t (two coordinates below 4096, compared as 32-bit signed words); the masked score is the score where
  the bit is set and −∞ elsewhere; the row maximum is the fold of `max` from −∞ over the row, and the further maximum
  with −∞ changes nothing; the weight is the exponential of the masked score less the row maximum; the denominator is
  0 plus the sum of the row's weights; the result sums weight / denominator times the value projection over the key rows.
-/
import proofs.«413224_j16982300689021_3_alg».proof.Proof.Gen.ReferenceIdeal.Read
import proofs.«413224_j16982300689021_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Spec

/-! ## The three projections -/

/-- The query projection at (b, t, d): row t of x against column d of the first weight matrix. -/
theorem proj0_at (x0 : (⟨S4x4096x128, .f32⟩ : BufTy).Contents (Elt Ideal)) (x1 : (⟨S128x128, .f32⟩ : BufTy).Contents (Elt Ideal))
    (b : Fin 4) (t : Fin 4096) (d : Fin 128) :
    Read.val_main_v0 (F := Ideal) x0 x1 (ix3 b t d) = proj (actOf x0) (wtOf x1) b t d := by
  rw [Read.val_main_v0_apply]
  refine Finset.sum_congr rfl fun c _ => ?_
  have e1 : Read.lidx_main_v0 (ix3 b t d) c = ix3 b t c :=
    funext fun a => Fin.ext (by match a with | ⟨0, _⟩ => rfl | ⟨1, _⟩ => rfl | ⟨2, _⟩ => rfl)
  have e2 : Read.ridx_main_v0 (ix3 b t d) c = ix2 c d :=
    funext fun a => Fin.ext (by match a with | ⟨0, _⟩ => rfl | ⟨1, _⟩ => rfl)
  rw [e1, e2]
  rfl

/-- The key projection at (b, s, d). -/
theorem proj1_at (x0 : (⟨S4x4096x128, .f32⟩ : BufTy).Contents (Elt Ideal)) (x2 : (⟨S128x128, .f32⟩ : BufTy).Contents (Elt Ideal))
    (b : Fin 4) (t : Fin 4096) (d : Fin 128) :
    Read.val_main_v1 (F := Ideal) x0 x2 (ix3 b t d) = proj (actOf x0) (wtOf x2) b t d := by
  rw [Read.val_main_v1_apply]
  refine Finset.sum_congr rfl fun c _ => ?_
  have e1 : Read.lidx_main_v1 (ix3 b t d) c = ix3 b t c :=
    funext fun a => Fin.ext (by match a with | ⟨0, _⟩ => rfl | ⟨1, _⟩ => rfl | ⟨2, _⟩ => rfl)
  have e2 : Read.ridx_main_v1 (ix3 b t d) c = ix2 c d :=
    funext fun a => Fin.ext (by match a with | ⟨0, _⟩ => rfl | ⟨1, _⟩ => rfl)
  rw [e1, e2]
  rfl

/-- The value projection at (b, s, d). -/
theorem proj2_at (x0 : (⟨S4x4096x128, .f32⟩ : BufTy).Contents (Elt Ideal)) (x3 : (⟨S128x128, .f32⟩ : BufTy).Contents (Elt Ideal))
    (b : Fin 4) (t : Fin 4096) (d : Fin 128) :
    Read.val_main_v2 (F := Ideal) x0 x3 (ix3 b t d) = proj (actOf x0) (wtOf x3) b t d := by
  rw [Read.val_main_v2_apply]
  refine Finset.sum_congr rfl fun c _ => ?_
  have e1 : Read.lidx_main_v2 (ix3 b t d) c = ix3 b t c :=
    funext fun a => Fin.ext (by match a with | ⟨0, _⟩ => rfl | ⟨1, _⟩ => rfl | ⟨2, _⟩ => rfl)
  have e2 : Read.ridx_main_v2 (ix3 b t d) c = ix2 c d :=
    funext fun a => Fin.ext (by match a with | ⟨0, _⟩ => rfl | ⟨1, _⟩ => rfl)
  rw [e1, e2]
  rfl

/-! ## The scaled scores -/

/-- The scaled score at (b, t, s): the inner product of query row t and key row s, times σ. -/
theorem score_at (x0 : (⟨S4x4096x128, .f32⟩ : BufTy).Contents (Elt Ideal)) (x1 x2 : (⟨S128x128, .f32⟩ : BufTy).Contents (Elt Ideal))
    (b : Fin 4) (t s : Fin 4096) :
    Read.val_main_v5 (F := Ideal) x0 x1 x2 (ix3 b t s) = refScore (actOf x0) (wtOf x1) (wtOf x2) b t s := by
  rw [Read.val_main_v5_apply, Read.val_main_v3_apply, Read.val_main_v4_apply, Read.val_main_cst_apply]
  have e : ∀ k : Fin 128,
      Read.val_main_v0 (F := Ideal) x0 x1 (Read.lidx_main_v3 (ix3 b t s) k) * Read.val_main_v1 (F := Ideal) x0 x2 (Read.ridx_main_v3 (ix3 b t s) k)
        = proj (actOf x0) (wtOf x1) b t k * proj (actOf x0) (wtOf x2) b s k := by
    intro k
    have e1 : Read.lidx_main_v3 (ix3 b t s) k = ix3 b t k :=
      funext fun a => Fin.ext (by match a with | ⟨0, _⟩ => rfl | ⟨1, _⟩ => rfl | ⟨2, _⟩ => rfl)
    have e2 : Read.ridx_main_v3 (ix3 b t s) k = ix3 b s k :=
      funext fun a => Fin.ext (by match a with | ⟨0, _⟩ => rfl | ⟨1, _⟩ => rfl | ⟨2, _⟩ => rfl)
    rw [e1, e2, proj0_at, proj1_at]
  rw [Finset.sum_congr rfl fun k _ => e k]
  rfl

/-! ## The causal mask -/

/-- The mask bit at (t, s): set exactly when key s is not after query t. Both coordinates are below 4096, so the
    32-bit words of the two iotas compare, signed, as the coordinates do. -/
theorem mask_at (t s : Fin 4096) :
    Read.val_main_v7 (F := Ideal) (ix2 t s) = if s.val ≤ t.val then 1#1 else 0#1 := by
  rw [Read.val_main_v7_apply, Read.val_main_v6_apply, Read.val_main_call0_v5_apply, Read.val_main_c_apply,
    Read.val_main_call0_c_0_apply, Read.val_main_call0_v4_apply, Read.val_main_call0_v2_apply, Read.val_main_call0_v0_apply,
    Read.val_main_call0_v1_apply, Read.val_main_call0_c_apply, Read.val_main_call0_v3_apply]
  show Scalar.select (IntOp.cmpi .sge (IntOp.addi (BitVec.ofNat 32 t.val) 0#32) (BitVec.ofNat 32 s.val)) 1#1 0#1 = _
  have h0 : IntOp.addi (BitVec.ofNat 32 t.val) 0#32 = BitVec.ofNat 32 t.val := BitVec.add_zero _
  have ht : (BitVec.ofNat 32 t.val).toNat = t.val := by
    rw [BitVec.toNat_ofNat]; exact Nat.mod_eq_of_lt (by have := t.isLt; omega)
  have hs : (BitVec.ofNat 32 s.val).toNat = s.val := by
    rw [BitVec.toNat_ofNat]; exact Nat.mod_eq_of_lt (by have := s.isLt; omega)
  have hiff := StableHlo.Predicate.sge_iff_toNat (a := BitVec.ofNat 32 t.val) (b := BitVec.ofNat 32 s.val)
    (by rw [ht]; have := t.isLt; omega) (by rw [hs]; have := s.isLt; omega)
  rw [ht, hs] at hiff
  rw [h0]
  by_cases h : s.val ≤ t.val
  · rw [if_pos h, hiff.mpr h]; exact select_one _ _
  · rw [if_neg h, eq_zero_of_ne_one (fun hh => h (hiff.mp hh))]; exact select_zero _ _

/-! ## The masked scores and their row maximum -/

/-- The word of −∞ denotes the bottom of the extended reals. -/
theorem ofBits_neg_inf : Ideal.ofBits .f32 0xFF800000#32 = (⊥ : EReal) := by simp [Ideal.ofBits, Ideal.ieee]

/-- The masked score at (b, t, s): the score where the mask bit is set, −∞ elsewhere. -/
theorem masked_at (x0 : (⟨S4x4096x128, .f32⟩ : BufTy).Contents (Elt Ideal)) (x1 x2 : (⟨S128x128, .f32⟩ : BufTy).Contents (Elt Ideal))
    (b : Fin 4) (t s : Fin 4096) :
    Read.val_main_v8 (F := Ideal) x0 x1 x2 (ix3 b t s) = refMasked (actOf x0) (wtOf x1) (wtOf x2) b t s := by
  rw [Read.val_main_v8_apply, Read.val_main_call1_v1_apply, Read.val_main_call1_v2_apply, Read.val_main_call1_v0_apply,
    Read.val_main_cst_0_apply, score_at]
  have e : Read.idx_main_call1_v1 (ix3 b t s) = ix2 t s :=
    funext fun a => Fin.ext (by match a with | ⟨0, _⟩ => rfl | ⟨1, _⟩ => rfl)
  rw [e, mask_at]
  unfold refMasked
  by_cases h : s.val ≤ t.val
  · rw [if_pos h, if_pos h]; exact select_one _ _
  · rw [if_neg h, if_neg h]; exact (select_zero _ _).trans ofBits_neg_inf

/-- A maximum-reduce over the last axis of a 4 × 4096 × 4096 array, at (b, t): the fold of `max` from the initial
    value over the 4096 entries of row (b, t). -/
theorem rowmax_read (y : (⟨S4x4096x4096, .f32⟩ : BufTy).Contents (Elt Ideal)) (init : (⟨S_, .f32⟩ : BufTy).Contents (Elt Ideal))
    (b : Fin 4) (t : Fin 4096) :
    Host.reduce (FloatOps.maximumf (F := Ideal) (φ := .f32)) y init reducesTo_S4x4096x4096_S4x4096_d2 h_S_ (ix2 b t)
      = (Finset.univ : Finset (Fin 4096)).fold max (init (Shape.Idx.first h_S_)) (fun s => y (ix3 b t s)) := by
  have h : S4x4096x4096.Reduces [2] S4x4096 := by decide
  rw [Host.reduce_eq_fold_single (FloatOps.maximumf (F := Ideal) (φ := .f32)) y init reducesTo_S4x4096x4096_S4x4096_d2 h h_S_]
  have hf : (y ∘ h.lift (ix2 b t)) = fun s : Fin 4096 => y (ix3 b t s) :=
    funext fun s => congrArg y (funext fun a => Fin.ext (by match a with | ⟨0, _⟩ => rfl | ⟨1, _⟩ => rfl | ⟨2, _⟩ => rfl))
  rw [hf]
  rfl

/-- The row maximum at (b, t), after the maximum with −∞ that leaves it unchanged. -/
theorem max_at (x0 : (⟨S4x4096x128, .f32⟩ : BufTy).Contents (Elt Ideal)) (x1 x2 : (⟨S128x128, .f32⟩ : BufTy).Contents (Elt Ideal))
    (b : Fin 4) (t : Fin 4096) :
    Read.val_main_v11 (F := Ideal) x0 x1 x2 (ix2 b t) = refMax (actOf x0) (wtOf x1) (wtOf x2) b t := by
  rw [Read.val_main_v11_apply, Read.val_main_v10_apply, Read.val_main_cst_2_apply]
  unfold Read.val_main_v9
  rw [rowmax_read, Read.val_main_cst_1_apply]
  have hf : (fun s : Fin 4096 => Read.val_main_v8 (F := Ideal) x0 x1 x2 (ix3 b t s))
      = refMasked (actOf x0) (wtOf x1) (wtOf x2) b t := funext fun s => masked_at x0 x1 x2 b t s
  rw [hf]
  show max (Ideal.ofBits .f32 0xFF800000#32) (Finset.fold max (Ideal.ofBits .f32 0xFF800000#32) _ _) = _
  rw [ofBits_neg_inf]
  exact max_eq_right bot_le

/-! ## The softmax weights, their sum, and the result -/

/-- The unnormalised weight at (b, t, s): the exponential of the masked score less the row maximum. -/
theorem e_at (x0 : (⟨S4x4096x128, .f32⟩ : BufTy).Contents (Elt Ideal)) (x1 x2 : (⟨S128x128, .f32⟩ : BufTy).Contents (Elt Ideal))
    (b : Fin 4) (t s : Fin 4096) :
    Read.val_main_v15 (F := Ideal) x0 x1 x2 (ix3 b t s) = refE (actOf x0) (wtOf x1) (wtOf x2) b t s := by
  rw [Read.val_main_v15_apply, Read.val_main_v14_apply, Read.val_main_v13_apply, Read.val_main_v12_apply, masked_at]
  have e : Read.idx_main_v12 (Read.idx_main_v13 (ix3 b t s)) = ix2 b t :=
    funext fun a => Fin.ext (by match a with | ⟨0, _⟩ => rfl | ⟨1, _⟩ => rfl)
  rw [e, max_at]
  rfl

/-- The denominator at (b, t): the sum of the row's weights (the sum starts from the zero word). -/
theorem l_at (x0 : (⟨S4x4096x128, .f32⟩ : BufTy).Contents (Elt Ideal)) (x1 x2 : (⟨S128x128, .f32⟩ : BufTy).Contents (Elt Ideal))
    (b : Fin 4) (t : Fin 4096) :
    Read.val_main_v16 (F := Ideal) x0 x1 x2 (ix2 b t) = refL (actOf x0) (wtOf x1) (wtOf x2) b t := by
  rw [Read.val_main_v16_apply, Read.val_main_cst_3_apply]
  have e : ∀ k : Fin 4096,
      Read.val_main_v15 (F := Ideal) x0 x1 x2 (Read.idx_main_v16 (ix2 b t) k) = refE (actOf x0) (wtOf x1) (wtOf x2) b t k := by
    intro k
    have e1 : Read.idx_main_v16 (ix2 b t) k = ix3 b t k :=
      funext fun a => Fin.ext (by match a with | ⟨0, _⟩ => rfl | ⟨1, _⟩ => rfl | ⟨2, _⟩ => rfl)
    rw [e1, e_at]
  rw [Finset.sum_congr rfl fun k _ => e k]
  show Ideal.ofBits .f32 0x00000000#32 + _ = _
  rw [Ideal.ofBits_zero_f32, zero_add]
  rfl

/-- The normalised weight at (b, t, s): the weight over the row's denominator. -/
theorem w_at (x0 : (⟨S4x4096x128, .f32⟩ : BufTy).Contents (Elt Ideal)) (x1 x2 : (⟨S128x128, .f32⟩ : BufTy).Contents (Elt Ideal))
    (b : Fin 4) (t s : Fin 4096) :
    Read.val_main_v19 (F := Ideal) x0 x1 x2 (ix3 b t s)
      = Ideal.div (refE (actOf x0) (wtOf x1) (wtOf x2) b t s) (refL (actOf x0) (wtOf x1) (wtOf x2) b t) := by
  rw [Read.val_main_v19_apply, Read.val_main_v18_apply, Read.val_main_v17_apply, e_at]
  have e : Read.idx_main_v17 (Read.idx_main_v18 (ix3 b t s)) = ix2 b t :=
    funext fun a => Fin.ext (by match a with | ⟨0, _⟩ => rfl | ⟨1, _⟩ => rfl)
  rw [e, l_at]
  rfl

/-- The reference's result at (b, t, d) is the specification's `refOut` of the argument arrays read by coordinates. -/
theorem ref_apply (x0 : (⟨S4x4096x128, .f32⟩ : BufTy).Contents (Elt Ideal)) (x1 x2 x3 : (⟨S128x128, .f32⟩ : BufTy).Contents (Elt Ideal))
    (b : Fin 4) (t : Fin 4096) (d : Fin 128) :
    Cert.ReferenceIdeal.Read.val_main_v20 (F := Ideal) x0 x1 x2 x3 (ix3 b t d)
      = refOut (actOf x0) (wtOf x1) (wtOf x2) (wtOf x3) b t d := by
  rw [Read.val_main_v20_apply]
  unfold refOut
  refine Finset.sum_congr rfl fun k _ => ?_
  have e1 : Read.lidx_main_v20 (ix3 b t d) k = ix3 b t k :=
    funext fun a => Fin.ext (by match a with | ⟨0, _⟩ => rfl | ⟨1, _⟩ => rfl | ⟨2, _⟩ => rfl)
  have e2 : Read.ridx_main_v20 (ix3 b t d) k = ix3 b k d :=
    funext fun a => Fin.ext (by match a with | ⟨0, _⟩ => rfl | ⟨1, _⟩ => rfl | ⟨2, _⟩ => rfl)
  rw [e1, e2, w_at, proj2_at]

end Cert.ReferenceIdeal.RefValue

end
-- ==== Proof.Softmax.lean ====
/-
  The online softmax is the softmax: for finite inputs the tile-by-tile recurrence of the kernel (running maximum,
  rescaled denominator and numerator) ends, after the diagonal tile, at the reference's softmax-weighted sum of the
  value rows.
-/
import proofs.«413224_j16982300689021_3_alg».proof.Proof.Spec

noncomputable section

open scoped BigOperators

namespace Cert.Spec

open Idealize.ShloMosaic

/-! ## Sums of real numbers inside the extended reals -/

/-- The coercion of the reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The maximum of a row -/

theorem rowMax_le_iff {n : ℕ} (f : Fin n → EReal) (c : EReal) : rowMax f ≤ c ↔ ∀ i, f i ≤ c := by
  simp [rowMax, Finset.fold_max_le]

theorem le_rowMax {n : ℕ} (f : Fin n → EReal) (i : Fin n) : f i ≤ rowMax f :=
  (rowMax_le_iff f _).1 le_rfl i

theorem rowMax_ne_top {n : ℕ} (f : Fin n → EReal) (hf : ∀ i, f i ≠ ⊤) : rowMax f ≠ ⊤ := by
  rw [← lt_top_iff_ne_top, rowMax, Finset.fold_max_lt]
  exact ⟨bot_lt_top, fun i _ => lt_top_iff_ne_top.2 (hf i)⟩

/-- The running maximum after n tiles of scores: the fold of the tiles' row maxima from −∞. -/
def runMax (G : ℕ → Fin 1024 → EReal) : ℕ → EReal
  | 0 => ⊥
  | n + 1 => max (runMax G n) (rowMax (G n))

theorem runMax_le_iff (G : ℕ → Fin 1024 → EReal) (n : ℕ) (c : EReal) :
    runMax G n ≤ c ↔ ∀ j, j < n → ∀ s, G j s ≤ c := by
  induction n with
  | zero => simp [runMax]
  | succ n ih =>
    rw [runMax, max_le_iff, ih, rowMax_le_iff]
    constructor
    · rintro ⟨h1, h2⟩ j hj s
      rcases Nat.lt_succ_iff_lt_or_eq.1 hj with h | h
      · exact h1 j h s
      · subst h; exact h2 s
    · intro h
      exact ⟨fun j hj s => h j (Nat.lt_succ_of_lt hj) s, fun s => h n (Nat.lt_succ_self n) s⟩

theorem le_runMax (G : ℕ → Fin 1024 → EReal) {n j : ℕ} (hj : j < n) (s : Fin 1024) : G j s ≤ runMax G n :=
  (runMax_le_iff G n _).1 le_rfl j hj s

theorem runMax_ne_top (G : ℕ → Fin 1024 → EReal) (hG : ∀ j s, G j s ≠ ⊤) (n : ℕ) : runMax G n ≠ ⊤ := by
  induction n with
  | zero => simp [runMax]
  | succ n ih =>
    rw [runMax, ← lt_top_iff_ne_top, max_lt_iff]
    exact ⟨lt_top_iff_ne_top.2 ih, lt_top_iff_ne_top.2 (rowMax_ne_top _ (hG n))⟩

theorem runMax_le_succ (G : ℕ → Fin 1024 → EReal) (n : ℕ) : runMax G n ≤ runMax G (n + 1) := le_max_left _ _

/-! ## The exponential weight as a real number -/

/-- exp (y − m) as a real number, for y a real or −∞ and m a real at least y: zero at y = −∞. -/
def ew (y m : EReal) : ℝ := if y = ⊥ then 0 else Real.exp (y.toReal - m.toReal)

theorem ew_bot (m : EReal) : ew ⊥ m = 0 := by simp [ew]

theorem ew_nonneg (y m : EReal) : 0 ≤ ew y m := by
  unfold ew; split_ifs
  · exact le_rfl
  · exact (Real.exp_pos _).le

theorem ew_pos {y : EReal} (hy : y ≠ ⊥) (m : EReal) : 0 < ew y m := by
  unfold ew; rw [if_neg hy]; exact Real.exp_pos _

/-- Below a maximum that is not +∞ the exponential of the difference is the real weight. -/
theorem exp_sub_eq (y m : EReal) (hy : y ≠ ⊤) (hm : m ≠ ⊤) (hym : y ≤ m) :
    Ideal.exp (y - m) = ((ew y m : ℝ) : EReal) := by
  induction y using EReal.rec with
  | bot => rw [EReal.bot_sub, Ideal.exp_bot, ew_bot, EReal.coe_zero]
  | top => exact absurd rfl hy
  | coe y =>
    induction m using EReal.rec with
    | bot => exact absurd hym (by simp)
    | top => exact absurd rfl hm
    | coe m =>
      rw [← EReal.coe_sub, Ideal.exp_coe, ew, if_neg (EReal.coe_ne_bot y), EReal.toReal_coe, EReal.toReal_coe]

/-- Moving the maximum from m to m' rescales every weight by exp (m − m'). -/
theorem ew_rescale (y m m' : EReal) (hm' : m' ≠ ⊤) (hym : y ≤ m) (hmm : m ≤ m') : ew m m' * ew y m = ew y m' := by
  induction y using EReal.rec with
  | bot => simp [ew_bot]
  | top =>
    have : m' = ⊤ := top_le_iff.1 (le_trans hym hmm)
    exact absurd this hm'
  | coe y =>
    induction m using EReal.rec with
    | bot => exact absurd hym (by simp)
    | top => exact absurd (top_le_iff.1 hmm) hm'
    | coe m =>
      induction m' using EReal.rec with
      | bot => exact absurd hmm (by simp)
      | top => exact absurd rfl hm'
      | coe m' =>
        simp only [ew, if_neg (EReal.coe_ne_bot _), EReal.toReal_coe]
        rw [← Real.exp_add]; congr 1; ring

/-! ## One step of the recurrence, at one row and one column -/

/-- The denominator after n tiles, over the running maximum. -/
def lsum (G : ℕ → Fin 1024 → EReal) (n : ℕ) : ℝ := ∑ j ∈ Finset.range n, ∑ s : Fin 1024, ew (G j s) (runMax G n)

/-- The numerator after n tiles, over the running maximum. -/
def asum (G : ℕ → Fin 1024 → EReal) (V : ℕ → Fin 1024 → ℝ) (n : ℕ) : ℝ :=
  ∑ j ∈ Finset.range n, ∑ s : Fin 1024, ew (G j s) (runMax G n) * V j s

theorem asum_succ (G : ℕ → Fin 1024 → EReal) (V : ℕ → Fin 1024 → ℝ) (hG : ∀ j s, G j s ≠ ⊤) (n : ℕ) :
    ew (runMax G n) (runMax G (n + 1)) * asum G V n + ∑ s : Fin 1024, ew (G n s) (runMax G (n + 1)) * V n s
      = asum G V (n + 1) := by
  unfold asum
  rw [Finset.sum_range_succ, Finset.mul_sum]
  congr 1
  refine Finset.sum_congr rfl fun j hj => ?_
  rw [Finset.mul_sum]
  refine Finset.sum_congr rfl fun s _ => ?_
  rw [← mul_assoc, ew_rescale _ _ _ (runMax_ne_top G hG _) (le_runMax G (Finset.mem_range.1 hj) s) (runMax_le_succ G n)]

theorem lsum_succ (G : ℕ → Fin 1024 → EReal) (hG : ∀ j s, G j s ≠ ⊤) (n : ℕ) :
    ew (runMax G n) (runMax G (n + 1)) * lsum G n + ∑ s : Fin 1024, ew (G n s) (runMax G (n + 1))
      = lsum G (n + 1) := by
  have h := asum_succ G (fun _ _ => 1) hG n
  simpa [asum, lsum] using h

/-- One key tile keeps the closed forms of maximum, denominator and numerator. -/
theorem upd_step (G : ℕ → Fin 1024 → EReal) (V : ℕ → Fin 1024 → ℝ) (hG : ∀ j s, G j s ≠ ⊤) (n : ℕ)
    (S : Fin 1024 → Fin 1024 → EReal) (VV : Fin 1024 → Fin 128 → EReal) (st : St) (r : Fin 1024) (d : Fin 128)
    (hS : S r = G n) (hV : ∀ s, VV s d = ((V n s : ℝ) : EReal))
    (hm : st.m r = runMax G n) (hl : st.l r = ((lsum G n : ℝ) : EReal))
    (ha : st.acc r d = ((asum G V n : ℝ) : EReal)) :
    (St.upd S VV st).m r = runMax G (n + 1) ∧ (St.upd S VV st).l r = ((lsum G (n + 1) : ℝ) : EReal)
      ∧ (St.upd S VV st).acc r d = ((asum G V (n + 1) : ℝ) : EReal) := by
  have hM : max (st.m r) (rowMax (S r)) = runMax G (n + 1) := by rw [hm, hS, runMax]
  have h1 : Ideal.exp (runMax G n - runMax G (n + 1)) = ((ew (runMax G n) (runMax G (n + 1)) : ℝ) : EReal) :=
    exp_sub_eq _ _ (runMax_ne_top G hG _) (runMax_ne_top G hG _) (runMax_le_succ G n)
  have h2 : ∀ s, Ideal.exp (G n s - runMax G (n + 1)) = ((ew (G n s) (runMax G (n + 1)) : ℝ) : EReal) := fun s =>
    exp_sub_eq _ _ (hG n s) (runMax_ne_top G hG _) (le_runMax G (Nat.lt_succ_self n) s)
  refine ⟨hM, ?_, ?_⟩
  · show Ideal.exp (st.m r - max (st.m r) (rowMax (S r))) * st.l r
      + ∑ s : Fin 1024, Ideal.exp (S r s - max (st.m r) (rowMax (S r))) = _
    rw [hM, hm, hl, hS, h1]
    simp only [h2]
    rw [coe_sum, ← EReal.coe_mul, ← EReal.coe_add, lsum_succ G hG n]
  · show Ideal.exp (st.m r - max (st.m r) (rowMax (S r))) * st.acc r d
      + ∑ s : Fin 1024, Ideal.exp (S r s - max (st.m r) (rowMax (S r))) * VV s d = _
    rw [hM, hm, ha, hS, h1]
    simp only [h2, hV, ← EReal.coe_mul]
    rw [coe_sum, ← EReal.coe_add, asum_succ G V hG n]

/-! ## Real witnesses: projections, the scale, scores -/

theorem proj_real (x : Act) (w : Wt) (hx : ActFinite x) (hw : WtFinite w) :
    ∃ P : Fin 4 → Fin 4096 → Fin 128 → ℝ, ∀ b t d, proj x w b t d = ((P b t d : ℝ) : EReal) := by
  choose xr hxr using hx
  choose wr hwr using hw
  refine ⟨fun b t d => ∑ c, xr b t c * wr c d, fun b t d => ?_⟩
  simp only [proj, hxr, hwr, ← EReal.coe_mul, coe_sum]

/-- The scale is a real number. -/
theorem σ_real : ∃ s : ℝ, σ = ((s : ℝ) : EReal) := by
  unfold σ
  simp only [Ideal.ofBits, Ideal.ieee]
  simp [-EReal.coe_mul]

/-- Folding the scale into the query projection does not change the score. -/
theorem tileS_eq_refScore (x : Act) (wq wk : Wt) (hx : ActFinite x) (hq : WtFinite wq) (hk : WtFinite wk)
    (b : Fin 4) (qi ki : ℕ) (r s : Fin 1024) :
    tileS x wq wk b qi ki r s = refScore x wq wk b (row qi r) (row ki s) := by
  obtain ⟨Pq, hPq⟩ := proj_real x wq hx hq
  obtain ⟨Pk, hPk⟩ := proj_real x wk hx hk
  obtain ⟨σr, hσ⟩ := σ_real
  simp only [tileS, kq, refScore, hPq, hPk, hσ, ← EReal.coe_mul, coe_sum]
  congr 1
  rw [Finset.sum_mul]
  refine Finset.sum_congr rfl fun d _ => ?_
  ring

theorem refScore_real (x : Act) (wq wk : Wt) (hx : ActFinite x) (hq : WtFinite wq) (hk : WtFinite wk) :
    ∃ R : Fin 4 → Fin 4096 → Fin 4096 → ℝ, ∀ b t s, refScore x wq wk b t s = ((R b t s : ℝ) : EReal) := by
  obtain ⟨Pq, hPq⟩ := proj_real x wq hx hq
  obtain ⟨Pk, hPk⟩ := proj_real x wk hx hk
  obtain ⟨σr, hσ⟩ := σ_real
  refine ⟨fun b t s => (∑ d, Pq b t d * Pk b s d) * σr, fun b t s => ?_⟩
  simp only [refScore, hPq, hPk, hσ, ← EReal.coe_mul, coe_sum]

theorem refMasked_ne_top (x : Act) (wq wk : Wt) (hx : ActFinite x) (hq : WtFinite wq) (hk : WtFinite wk)
    (b : Fin 4) (t s : Fin 4096) : refMasked x wq wk b t s ≠ ⊤ := by
  obtain ⟨R, hR⟩ := refScore_real x wq wk hx hq hk
  unfold refMasked
  split_ifs
  · rw [hR]; exact EReal.coe_ne_top _
  · exact bot_ne_top

/-! ## Tiles of 1024 rows -/

theorem row_val (j : ℕ) (s : Fin 1024) : (row j s).val = (j % 4) * 1024 + s.val := rfl

/-- Every row is a row of one of the four tiles. -/
theorem exists_row (u : Fin 4096) : ∃ j, j < 4 ∧ ∃ s : Fin 1024, u = row j s := by
  refine ⟨u.val / 1024, by have := u.isLt; omega, ⟨u.val % 1024, Nat.mod_lt _ (by norm_num)⟩, ?_⟩
  apply Fin.ext
  rw [row_val]
  have := u.isLt
  simp only
  omega

/-- The rows as pairs (tile, row in the tile). -/
def rowEquiv : Fin 4 × Fin 1024 ≃ Fin 4096 where
  toFun p := row p.1.val p.2
  invFun u := (⟨u.val / 1024, by have := u.isLt; omega⟩, ⟨u.val % 1024, Nat.mod_lt _ (by norm_num)⟩)
  left_inv p := by
    obtain ⟨⟨j, hj⟩, ⟨s, hs⟩⟩ := p
    simp only [row_val, Prod.mk.injEq, Fin.mk.injEq]
    constructor <;> omega
  right_inv u := by
    apply Fin.ext
    have := u.isLt
    simp only [row_val]
    omega

/-- A sum over all rows is the sum over the four tiles of the sums over each tile. -/
theorem sum_tiles (f : Fin 4096 → ℝ) : ∑ u : Fin 4096, f u = ∑ j ∈ Finset.range 4, ∑ s : Fin 1024, f (row j s) := by
  rw [Finset.sum_range, ← Fintype.sum_prod_type']
  exact (Fintype.sum_equiv rowEquiv _ _ (fun p => rfl)).symm

/-- When the tiles after tile qi contribute nothing, the sum over the first qi + 1 tiles is the sum over all rows. -/
theorem sum_visible (f : Fin 4096 → ℝ) (qi : ℕ) (hqi : qi < 4)
    (hf : ∀ j, qi < j → j < 4 → ∀ s, f (row j s) = 0) :
    ∑ j ∈ Finset.range (qi + 1), ∑ s : Fin 1024, f (row j s) = ∑ u : Fin 4096, f u := by
  rw [sum_tiles f]
  refine Finset.sum_subset (Finset.range_subset_range.2 (by omega)) fun j hj4 hjn => ?_
  rw [Finset.mem_range] at hj4 hjn
  exact Finset.sum_eq_zero fun s _ => hf j (by omega) hj4 s

/-! ## The kernel's state after n key tiles -/

/-- A function of the rows, read tile by tile. -/
def tileG (g : Fin 4096 → EReal) : ℕ → Fin 1024 → EReal := fun j s => g (row j s)

theorem tileG_apply (g : Fin 4096 → EReal) (j : ℕ) (s : Fin 1024) : tileG g j s = g (row j s) := rfl

/-- The score tile the kernel uses at step n ≤ qi (masked on the diagonal) is the reference's masked score. -/
theorem tile_eq (x : Act) (wq wk : Wt) (hx : ActFinite x) (hq : WtFinite wq) (hk : WtFinite wk)
    (b : Fin 4) (qi : ℕ) (hqi : qi < 4) (r : Fin 1024) (n : ℕ) (hn : n ≤ qi) (s : Fin 1024) :
    (if n = qi then tileSm x wq wk b qi else tileS x wq wk b qi n) r s
      = refMasked x wq wk b (row qi r) (row n s) := by
  unfold refMasked
  by_cases h1 : n = qi
  · subst h1
    rw [if_pos rfl]
    unfold tileSm
    by_cases h2 : s.val ≤ r.val
    · rw [if_pos h2, if_pos (by rw [row_val, row_val]; omega), tileS_eq_refScore x wq wk hx hq hk]
    · rw [if_neg h2, if_neg (by rw [row_val, row_val]; omega)]
  · rw [if_neg h1, if_pos (by rw [row_val, row_val]; have := s.isLt; omega)]
    exact tileS_eq_refScore x wq wk hx hq hk b qi n r s

/-- Keys of the tiles after the diagonal one are masked. -/
theorem refMasked_after (x : Act) (wq wk : Wt) (b : Fin 4) (qi : ℕ) (r : Fin 1024) (j : ℕ) (hj : qi < j) (hj4 : j < 4)
    (s : Fin 1024) : refMasked x wq wk b (row qi r) (row j s) = ⊥ := by
  unfold refMasked
  rw [if_neg]
  rw [row_val, row_val]
  have := r.isLt
  omega

theorem kst_inv (x : Act) (wq wk wv : Wt) (hx : ActFinite x) (hq : WtFinite wq) (hk : WtFinite wk)
    (b : Fin 4) (qi : ℕ) (hqi : qi < 4) (r : Fin 1024) (d : Fin 128)
    (V : ℕ → Fin 1024 → ℝ) (hV : ∀ n s, tileV x wv b n s d = ((V n s : ℝ) : EReal)) (n : ℕ) (hn : n ≤ qi + 1) :
    (kst x wq wk wv b qi n).m r = runMax (tileG (refMasked x wq wk b (row qi r))) n
      ∧ (kst x wq wk wv b qi n).l r = ((lsum (tileG (refMasked x wq wk b (row qi r))) n : ℝ) : EReal)
      ∧ (kst x wq wk wv b qi n).acc r d = ((asum (tileG (refMasked x wq wk b (row qi r))) V n : ℝ) : EReal) := by
  induction n with
  | zero => simp [kst, St.init, runMax, lsum, asum]
  | succ n ih =>
    obtain ⟨hm, hl, ha⟩ := ih (by omega)
    rw [kst]
    exact upd_step _ V (fun j s => refMasked_ne_top x wq wk hx hq hk b (row qi r) (row j s)) n _ _ _ r d
      (funext fun s => tile_eq x wq wk hx hq hk b qi hqi r n (by omega) s) (hV n) hm hl ha

/-- After the diagonal tile the running maximum is the reference's row maximum. -/
theorem refMax_eq (x : Act) (wq wk : Wt) (b : Fin 4) (qi : ℕ) (hqi : qi < 4) (r : Fin 1024) :
    refMax x wq wk b (row qi r) = runMax (tileG (refMasked x wq wk b (row qi r))) (qi + 1) := by
  unfold refMax
  apply le_antisymm
  · rw [rowMax_le_iff]
    intro u
    obtain ⟨j, hj4, s, rfl⟩ := exists_row u
    by_cases hj : j ≤ qi
    · exact le_runMax (tileG (refMasked x wq wk b (row qi r))) (Nat.lt_succ_of_le hj) s
    · rw [refMasked_after x wq wk b qi r j (by omega) hj4 s]
      exact bot_le
  · rw [runMax_le_iff]
    intro j _ s
    exact le_rowMax (refMasked x wq wk b (row qi r)) (row j s)

/-- For finite inputs the kernel's result at row r of query tile qi is the reference's at row qi·1024 + r. -/
theorem kerOut_eq_refOut (x : Act) (wq wk wv : Wt) (hx : ActFinite x) (hq : WtFinite wq) (hk : WtFinite wk) (hv : WtFinite wv)
    (b : Fin 4) (qi : ℕ) (hqi : qi < 4) (r : Fin 1024) (d : Fin 128) :
    kerOut x wq wk wv b qi r d = refOut x wq wk wv b (row qi r) d := by
  obtain ⟨Pv, hPv⟩ := proj_real x wv hx hv
  obtain ⟨R, hR⟩ := refScore_real x wq wk hx hq hk
  obtain ⟨-, hl, ha⟩ := kst_inv x wq wk wv hx hq hk b qi hqi r d (fun j s => Pv b (row j s) d)
    (fun n s => hPv b (row n s) d) (qi + 1) le_rfl
  have hg : ∀ u, refMasked x wq wk b (row qi r) u ≠ ⊤ := refMasked_ne_top x wq wk hx hq hk b (row qi r)
  have hMax := refMax_eq x wq wk b qi hqi r
  generalize hM : runMax (tileG (refMasked x wq wk b (row qi r))) (qi + 1) = M at hl ha hMax
  have hMtop : M ≠ ⊤ := by rw [← hM]; exact runMax_ne_top _ (fun j s => hg (row j s)) _
  have hle : ∀ u, refMasked x wq wk b (row qi r) u ≤ M := by
    intro u; rw [← hMax]; exact le_rowMax _ u
  have hE : ∀ u, refE x wq wk b (row qi r) u = ((ew (refMasked x wq wk b (row qi r) u) M : ℝ) : EReal) := by
    intro u; unfold refE; rw [hMax]; exact exp_sub_eq _ _ (hg u) hMtop (hle u)
  have hL : refL x wq wk b (row qi r) = ((∑ u, ew (refMasked x wq wk b (row qi r) u) M : ℝ) : EReal) := by
    unfold refL; simp only [hE]; exact coe_sum _ _
  have hLpos : 0 < ∑ u, ew (refMasked x wq wk b (row qi r) u) M := by
    refine Finset.sum_pos' (fun u _ => ew_nonneg _ _) ⟨row qi r, Finset.mem_univ _, ew_pos ?_ _⟩
    unfold refMasked; rw [if_pos le_rfl, hR]; exact EReal.coe_ne_bot _
  have hl' : lsum (tileG (refMasked x wq wk b (row qi r))) (qi + 1)
      = ∑ u, ew (refMasked x wq wk b (row qi r) u) M := by
    unfold lsum; rw [hM]
    exact sum_visible (fun u => ew (refMasked x wq wk b (row qi r) u) M) qi hqi
      (fun j hj hj4 s => by simp only [refMasked_after x wq wk b qi r j hj hj4 s, ew_bot])
  have ha' : asum (tileG (refMasked x wq wk b (row qi r))) (fun j s => Pv b (row j s) d) (qi + 1)
      = ∑ u, ew (refMasked x wq wk b (row qi r) u) M * Pv b u d := by
    unfold asum; rw [hM]
    exact sum_visible (fun u => ew (refMasked x wq wk b (row qi r) u) M * Pv b u d) qi hqi
      (fun j hj hj4 s => by simp only [refMasked_after x wq wk b qi r j hj hj4 s, ew_bot, zero_mul])
  unfold kerOut refOut
  rw [hl, ha, hl', ha']
  simp only [hE, hL, hPv, Ideal.div_coe hLpos.ne', ← EReal.coe_mul, coe_sum]
  congr 1
  rw [Finset.sum_mul]
  refine Finset.sum_congr rfl fun u _ => ?_
  ring

end Cert.Spec

end
-- ==== Proof.Finite.lean ====
/-
  The precondition says every entry of every input is a real number.

  The printed predicate takes, for each of the four arrays, the absolute value of every entry, compares it
  (strictly below) with the single-precision word of +∞, and folds the answers with "and" over all axes; the
  four folds are then conjoined. Over the extended reals the word of +∞ is ⊤ and |x| is max x (−x), so an
  answer 1 at an entry says max x (−x) < ⊤, which excludes x = ⊤ and x = ⊥: the entry is a real.
-/
import proofs.«413224_j16982300689021_3_alg».proof.Pre_finite_inputs
import proofs.«413224_j16982300689021_3_alg».proof.Proof.Gen.Pre_finite_inputs
import proofs.«413224_j16982300689021_3_alg».proof.Proof.Spec
import Idealize.ShloMosaic.Lib.ValueIdx
import Idealize.ShloMosaic.Lib.ReduceAll

noncomputable section

namespace Cert.Pre_finite_inputs.Finite

open Idealize.ShloMosaic Idealize.ShloMosaic.ValueIdx Cert.Spec Cert.Pre_finite_inputs

/-- The rank-0 shape has exactly one index. -/
instance : Subsingleton S_.Idx := ⟨fun a b => funext fun d => d.elim0⟩

/-- The single-precision word 0x7F800000 denotes +∞. -/
theorem inf_word : Ideal.ofBits .f32 0x7F800000#32 = (⊤ : EReal) := by
  simp [Ideal.ofBits, Ideal.ieee]

/-- An extended real whose absolute value max x (−x) lies strictly below ⊤ is a real number:
    at ⊤ the maximum is ⊤, at ⊥ it is −⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ answers 1, then x is a real. -/
theorem real_of_cmp_one (x : Ideal .f32)
    (h : FloatOps.cmpf .olt (FloatOps.hostAbsf x) (FloatOps.ofBits (F := Ideal) .f32 0x7F800000#32) = 1#1) :
    ∃ r : ℝ, (x : EReal) = (r : EReal) := by
  apply real_of_abs_lt_top
  change Ideal.cmp .olt (max (x : EReal) (-(x : EReal))) (Ideal.ofBits .f32 0x7F800000#32) = 1#1 at h
  rw [inf_word] at h
  unfold Ideal.cmp at h
  by_contra hn
  simp [hn] at h

/-- One array: if the fold by "and", over all axes and from 1, of the entrywise comparisons |x i| < +∞ is 1,
    then every entry of x is a real. -/
theorem real_of_all {T : Shape} {axes : List (Fin T.rank)} (hb : S_.BroadcastsInDim T (![] : Fin 0 → Fin T.rank))
    (hr : T.ReducesTo axes S_) (hu : 0 < S_.numel) (x : FVec Ideal T .f32)
    (h : Host.reduce IntOp.andi
          (cmpf .olt (Host.absf x) (broadcastInDim T ![] hb (constant S_ .f32 0x7F800000#32)))
          (constantI S_ 1 1#1) hr hu ix0 = 1#1) (i : T.Idx) :
    ∃ r : ℝ, (x i : EReal) = (r : EReal) := by
  have e := Host.reduce_andi_all _ _ hr hu ix0 h i
  exact real_of_cmp_one (x i) e

/-- Where the printed predicate is all ones at the ideal instance, every entry of the four inputs is real. -/
theorem finite_of_pre [Cert.Pre_finite_inputs.Facts] (x0 : FVec Ideal S4x4096x128 .f32) (x1 x2 x3 : FVec Ideal S128x128 .f32)
    (h : Cert.Pre_finite_inputs.fn (F := Ideal) x0 x1 x2 x3 = fun _ => 1#1) :
    ActFinite (actOf x0) ∧ WtFinite (wtOf x1) ∧ WtFinite (wtOf x2) ∧ WtFinite (wtOf x3) := by
  have h0 := congrFun h ValueIdx.ix0
  dsimp only [Cert.Pre_finite_inputs.fn, Cert.Pre_finite_inputs.fn_part1] at h0
  change IntOp.andi _ _ = 1#1 at h0
  obtain ⟨h012, h3⟩ := IntOp.andi_eq_one.1 h0
  change IntOp.andi _ _ = 1#1 at h012
  obtain ⟨h01, h2⟩ := IntOp.andi_eq_one.1 h012
  change IntOp.andi _ _ = 1#1 at h01
  obtain ⟨h0', h1⟩ := IntOp.andi_eq_one.1 h01
  refine ⟨fun b t c => ?_, fun c d => ?_, fun c d => ?_, fun c d => ?_⟩
  · exact real_of_all _ _ _ x0 h0' (ix3 b t c)
  · exact real_of_all _ _ _ x1 h1 (ix2 c d)
  · exact real_of_all _ _ _ x2 h2 (ix2 c d)
  · exact real_of_all _ _ _ x3 h3 (ix2 c d)

end Cert.Pre_finite_inputs.Finite

end
-- ==== Proof.lean ====
/-
  The certificate's five claims.

  The kernel is a causal self-attention head over x[4, 4096, 128]: at a batch's first grid point it projects the batch's
  4096 rows through the three weight matrices (the query projection already multiplied by the softmax scale), then walks
  the ten visible (query tile, key tile) pairs of 1024 × 1024 scores keeping a running row maximum, denominator and
  numerator, and on each diagonal tile stores numerator / denominator as the output rows of that query tile. The
  reference forms all 4096 × 4096 scores per batch, masks the keys after the query with −∞, and applies the softmax and
  the value product.

  Frames. Both printed kernels run to the end without a fault and leave their four argument arrays unchanged: the launch
  with the tile tables pinned at their literal contents, the body run once per control path, the scratch buffers carried
  between points by the region's invariant. The reference's frame is its run, its result dropped.
  The one idealization (the finite stand-in for −∞ named −∞) is the ledger's entry.
  Equivalence. At the ideal instance the output array ends as one function of the arguments — row r of query tile qi of
  batch b is the online softmax's numerator / denominator after tiles 0 … qi — and that is the reference's
  softmax-weighted sum of the value rows: the scale moves out of the score's sum, the rescaling by exp(m_old − m_new) keeps
  the running sums relative to the current maximum, the masked and the unvisited keys contribute exp(−∞) = 0, and the
  final division by the positive denominator distributes over the sum; all of it needs the inputs finite, which the
  precondition says.
-/
import proofs.«413224_j16982300689021_3_alg».proof.Defs
import proofs.«413224_j16982300689021_3_alg».proof.Proof.Gen.Kernel
import proofs.«413224_j16982300689021_3_alg».proof.Proof.Gen.KernelIdeal
import proofs.«413224_j16982300689021_3_alg».proof.Proof.Gen.ReferenceIdeal
import proofs.«413224_j16982300689021_3_alg».proof.Proof.Gen.Pre_finite_inputs
import proofs.«413224_j16982300689021_3_alg».proof.Proof.Gen.ReferenceIdeal.Run
import proofs.«413224_j16982300689021_3_alg».proof.Proof.Gen.ReferenceIdeal.Read
import proofs.«413224_j16982300689021_3_alg».proof.Proof.Bits.Launch
import proofs.«413224_j16982300689021_3_alg».proof.Proof.KerValue
import proofs.«413224_j16982300689021_3_alg».proof.Proof.RefValue
import proofs.«413224_j16982300689021_3_alg».proof.Proof.Softmax
import proofs.«413224_j16982300689021_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-- The word-level kernel runs and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the mask's fill value is named −∞, and the printed constant is that at the ideal instance. -/
theorem preserves : Cert.preserves_Kernel_KernelIdeal :=
  IdealRules.named_const.statement Cert.KernelIdeal.κ "neg_big" .f32 0xF149F2CA#32 ⊥ rfl

/-- The two idealized programs end with equal results. -/
theorem algebraic : Cert.algebraic_KernelIdeal_ReferenceIdeal := by
  intro m ρ m' ρ' hpre hagree
  refine ⟨fun c => Cert.KernelIdeal.Hand.Gout m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  obtain ⟨hx, hq, hk, hv⟩ := Cert.Pre_finite_inputs.Finite.finite_of_pre _ _ _ _ (hpre c)
  funext i
  obtain ⟨b, t, d, rfl⟩ : ∃ (b : Fin 4) (t : Fin 4096) (d : Fin 128), i = ix3 b t d := ⟨i 0, i 1, i 2, eq_ix3 i⟩
  rw [Cert.ReferenceIdeal.RefValue.ref_apply]
  have hrow : Cert.Spec.row (t.val / 1024) ⟨t.val % 1024, Nat.mod_lt _ (by norm_num)⟩ = t :=
    Fin.ext (by show (t.val / 1024 % 4) * 1024 + t.val % 1024 = t.val; have := t.isLt; omega)
  symm
  show kerOut (Cert.KernelIdeal.Hand.Xa m c) (Cert.KernelIdeal.Hand.Wqa m c) (Cert.KernelIdeal.Hand.Wka m c) (Cert.KernelIdeal.Hand.Wva m c)
    b (t.val / 1024) ⟨t.val % 1024, Nat.mod_lt _ (by norm_num)⟩ d = _
  refine (kerOut_eq_refOut _ _ _ _ hx hq hk hv b (t.val / 1024) (by have := t.isLt; omega)
    ⟨t.val % 1024, Nat.mod_lt _ (by norm_num)⟩ d).trans ?_
  rw [hrow]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
